-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S_ : Shape := ⟨0, ![]⟩

class Facts : Prop where
  bcast_S_S8x1024x12x8 : S_.BroadcastsInDim S8x1024x12x8 (![] : Fin 0 → Fin S8x1024x12x8.rank)
  reducesTo_S8x1024x12x8_S_d0_1_2_3 : S8x1024x12x8.ReducesTo [0, 1, 2, 3] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S3x96x64 : S_.BroadcastsInDim S3x96x64 (![] : Fin 0 → Fin S3x96x64.rank)
  reducesTo_S3x96x64_S_d0_1_2 : S3x96x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64x32 : S_.BroadcastsInDim S3x64x32 (![] : Fin 0 → Fin S3x64x32.rank)
  reducesTo_S3x64x32_S_d0_1_2 : S3x64x32.ReducesTo [0, 1, 2] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S3x64x64 .f32) (main_arg5 : FVec F S64 .f32) (main_arg6 : FVec F S3x64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x32 .f32 := Host.absf main_arg6
  let main_cst_10 : FVec F S_ .f32 := constant S_ .f32 0x7F800000#32
  let main_v30 : FVec F S3x64x32 .f32 := broadcastInDim S3x64x32 ![] bcast_S_S3x64x32 main_cst_10
  let main_v31 : IVec S3x64x32 1 := cmpf .olt main_v29 main_v30
  let main_c_11 : IVec S_ 1 := constantI S_ 1 1#1
  let main_v32 : IVec S_ 1 := (fun x v => Host.reduce IntOp.andi x v reducesTo_S3x64x32_S_d0_1_2 h_S_) main_v31 main_c_11
  let main_v33 : IVec S_ 1 := andi main_v28 main_v32
  fn_part2 (F := F) main_arg7 main_v33

def fn {F : FTy → Type} [FloatOps F] (main_arg0 : FVec F S8x1024x12x8 .f32) (main_arg1 : FVec F S8x1024x1024 .f32) (main_arg2 : FVec F S3x96x64 .f32) (main_arg3 : FVec F S64 .f32) (main_arg4 : FVec F S3x64x64 .f32) (main_arg5 : FVec F S64 .f32) (main_arg6 : FVec F S3x64x32 .f32) (main_arg7 : FVec F S32 .f32) : IVec S_ 1 :=
  let main_v0 : FVec F S8x1024x12x8 .f32 := Host.absf main_arg0
  let main_cst : FVec F S_ .f32 := constant S_ .f32 0x7F800000#32
  let main_v1 : FVec F S8x1024x12x8 .f32 := broadcastInDim S8x1024x12x8 ![] bcast_S_S8x1024x12x8 main_cst
  let main_v2 : IVec S8x1024x12x8 1 := cmpf .olt main_v0 main_v1
  let main_c : IVec S_ 1 := constantI S_ 1 1#1
  let main_v3 : IVec S_ 1 := (fun x v => Host.reduce IntOp.andi x v reducesTo_S8x1024x12x8_S_d0_1_2_3 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S3x96x64 .f32 := Host.absf main_arg2
  let main_cst_2 : FVec F S_ .f32 := constant S_ .f32 0x7F800000#32
  let main_v10 : FVec F S3x96x64 .f32 := broadcastInDim S3x96x64 ![] bcast_S_S3x96x64 main_cst_2
  let main_v11 : IVec S3x96x64 1 := cmpf .olt main_v9 main_v10
  let main_c_3 : IVec S_ 1 := constantI S_ 1 1#1
  let main_v12 : IVec S_ 1 := (fun x v => Host.reduce IntOp.andi x v reducesTo_S3x96x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S8x1024x96 : Shape := ⟨3, ![8, 1024, 96]⟩
abbrev S1x64 : Shape := ⟨2, ![1, 64]⟩
abbrev S1x32 : Shape := ⟨2, ![1, 32]⟩
abbrev S8x1024x32 : Shape := ⟨3, ![8, 1024, 32]⟩
abbrev S2x1024x1024 : Shape := ⟨3, ![2, 1024, 1024]⟩
abbrev S2x1024x96 : Shape := ⟨3, ![2, 1024, 96]⟩
abbrev S2x1024x32 : Shape := ⟨3, ![2, 1024, 32]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩
abbrev S1x1024 : Shape := ⟨2, ![1, 1024]⟩
abbrev S1x1024x96 : Shape := ⟨3, ![1, 1024, 96]⟩
abbrev S1024x96 : Shape := ⟨2, ![1024, 96]⟩
abbrev S1x96x64 : Shape := ⟨3, ![1, 96, 64]⟩
abbrev S96x64 : Shape := ⟨2, ![96, 64]⟩
abbrev S1024x64 : Shape := ⟨2, ![1024, 64]⟩
abbrev S1x64x64 : Shape := ⟨3, ![1, 64, 64]⟩
abbrev S64x64 : Shape := ⟨2, ![64, 64]⟩
abbrev S1x64x32 : Shape := ⟨3, ![1, 64, 32]⟩
abbrev S64x32 : Shape := ⟨2, ![64, 32]⟩
abbrev S1024x32 : Shape := ⟨2, ![1024, 32]⟩
abbrev S1x1024x32 : Shape := ⟨3, ![1, 1024, 32]⟩

abbrev nBuf : Space → Nat
  | .hbm => 13
  | .vmem => 12
  | .smem => 0
  | _ => 0

abbrev bufTy : (tb : Table) → Fin (tcTables nBuf tb) → BufTy
  | .hbm, ⟨0, _⟩ => ⟨S8x1024x12x8, .f32⟩
  | .hbm, ⟨1, _⟩ => ⟨S8x1024x1024, .f32⟩
  | .hbm, ⟨2, _⟩ => ⟨S3x96x64, .f32⟩
  | .hbm, ⟨3, _⟩ => ⟨S64, .f32⟩
  | .hbm, ⟨4, _⟩ => ⟨S3x64x64, .f32⟩
  | .hbm, ⟨5, _⟩ => ⟨S64, .f32⟩
  | .hbm, ⟨6, _⟩ => ⟨S3x64x32, .f32⟩
  | .hbm, ⟨7, _⟩ => ⟨S32, .f32⟩
  | .hbm, ⟨8, _⟩ => ⟨S8x1024x96, .f32⟩
  | .hbm, ⟨9, _⟩ => ⟨S1x64, .f32⟩
  | .hbm, ⟨10, _⟩ => ⟨S1x64, .f32⟩
  | .hbm, ⟨11, _⟩ => ⟨S1x32, .f32⟩
  | .hbm, ⟨12, _⟩ => ⟨S8x1024x32, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x96, .f32⟩
  | .local _ .vmem, ⟨3, _⟩ => ⟨S2x1024x96, .f32⟩
  | .local _ .vmem, ⟨4, _⟩ => ⟨S3x96x64, .f32⟩
  | .local _ .vmem, ⟨5, _⟩ => ⟨S1x64, .f32⟩
  | .local _ .vmem, ⟨6, _⟩ => ⟨S3x64x64, .f32⟩
  | .local _ .vmem, ⟨7, _⟩ => ⟨S1x64, .f32⟩
  | .local _ .vmem, ⟨8, _⟩ => ⟨S3x64x32, .f32⟩
  | .local _ .vmem, ⟨9, _⟩ => ⟨S1x32, .f32⟩
  | .local _ .vmem, ⟨10, _⟩ => ⟨S2x1024x32, .f32⟩
  | .local _ .vmem, ⟨11, _⟩ => ⟨S2x1024x32, .f32⟩
  | _, _ => ⟨S8x1024x12x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x1024x12x8_S8x1024x96 : S8x1024x12x8.ShapeCasts S8x1024x96
  shapeCasts_S64_S1x64 : S64.ShapeCasts S1x64
  shapeCasts_S32_S1x32 : S32.ShapeCasts S1x32
  iota_S1024x1024_d0_w32 : S1024x1024.Iotas .tc 32 [0]
  iota_S1024x1024_d1_w32 : S1024x1024.Iotas .tc 32 [1]
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1_S1x1024 : S1024x1.ShapeCasts S1x1024
  broadcasts_S1x1024_S1024x1024 : S1x1024.Broadcasts S1024x1024
  bitsLt_bf16_f32 : FTy.bits .bf16 < FTy.bits .f32
  inb_S2x1024x1024_S1x1024x1024_1_0_0 : ∀ a, (![1, 0, 0] : Fin 3 → Nat) a + S1x1024x1024.size a ≤ S2x1024x1024.size a
  inb_S2x1024x96_S1x1024x96_0_0_0 : ∀ a, (![0, 0, 0] : Fin 3 → Nat) a + S1x1024x96.size a ≤ S2x1024x96.size a
  h_S1x1024x96 : 0 < S1x1024x96.numel
  shapeCasts_S1x1024x96_S1024x96 : S1x1024x96.ShapeCasts S1024x96
  inb_S2x1024x96_S1x1024x96_1_0_0 : ∀ a, (![1, 0, 0] : Fin 3 → Nat) a + S1x1024x96.size a ≤ S2x1024x96.size a
  inb_S3x96x64_S1x96x64_0_0_0 : ∀ a, (![0, 0, 0] : Fin 3 → Nat) a + S1x96x64.size a ≤ S3x96x64.size a
  h_S1x96x64 : 0 < S1x96x64.numel
  shapeCasts_S1x96x64_S96x64 : S1x96x64.ShapeCasts S96x64
  inb_S3x96x64_S1x96x64_2_0_0 : ∀ a, (![2, 0, 0] : Fin 3 → Nat) a + S1x96x64.size a ≤ S3x96x64.size a
  inb_S3x96x64_S1x96x64_1_0_0 : ∀ a, (![1, 0, 0] : Fin 3 → Nat) a + S1x96x64.size a ≤ S3x96x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S1024x64 : S1x64.Broadcasts S1024x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_2_0_0 : ∀ a, (![2, 0, 0] : Fin 3 → Nat) a + S1x64x64.size a ≤ S3x64x64.size a
  inb_S3x64x64_S1x64x64_1_0_0 : ∀ a, (![1, 0, 0] : Fin 3 → Nat) a + S1x64x64.size a ≤ S3x64x64.size a
  inb_S3x64x32_S1x64x32_0_0_0 : ∀ a, (![0, 0, 0] : Fin 3 → Nat) a + S1x64x32.size a ≤ S3x64x32.size a
  h_S1x64x32 : 0 < S1x64x32.numel
  shapeCasts_S1x64x32_S64x32 : S1x64x32.ShapeCasts S64x32
  inb_S3x64x32_S1x64x32_2_0_0 : ∀ a, (![2, 0, 0] : Fin 3 → Nat) a + S1x64x32.size a ≤ S3x64x32.size a
  inb_S3x64x32_S1x64x32_1_0_0 : ∀ a, (![1, 0, 0] : Fin 3 → Nat) a + S1x64x32.size a ≤ S3x64x32.size a
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S1024x32 : S1x32.Broadcasts S1024x32
  inb_S2x1024x32_S1x1024x32_0_0_0 : ∀ a, (![0, 0, 0] : Fin 3 → Nat) a + S1x1024x32.size a ≤ S2x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  inb_S2x1024x32_S1x1024x32_1_0_0 : ∀ a, (![1, 0, 0] : Fin 3 → Nat) a + S1x1024x32.size a ≤ S2x1024x32.size a
  dot_S1024x1024_S1024x96_S1024x96_1_0_0_1_n_n_wf : DotDims.WF S1024x1024 S1024x96 S1024x96 [1] [0] [0] [1] [] []
  dot_S1024x96_S96x64_S1024x64_1_0_0_1_n_n_wf : DotDims.WF S1024x96 S96x64 S1024x64 [1] [0] [0] [1] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  dot_S1024x64_S64x32_S1024x32_1_0_0_1_n_n_wf : DotDims.WF S1024x64 S64x32 S1024x32 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S8x1024x1024.size a
  hwx0_0 : ∀ i : grid0.Coords, EltTy.bits .f32 = 32 ∨ (Rect.block (s := S8x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x96.size a ≤ S8x1024x96.size a
  hwx0_1 : ∀ i : grid0.Coords, EltTy.bits .f32 = 32 ∨ (Rect.block (s := S8x1024x96) S2x1024x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x96x64.size a ≤ S3x96x64.size a
  hwx0_2 : ∀ i : grid0.Coords, EltTy.bits .f32 = 32 ∨ (Rect.block (s := S3x96x64) S3x96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x64.size a ≤ S3x64x64.size a
  hwx0_4 : ∀ i : grid0.Coords, EltTy.bits .f32 = 32 ∨ (Rect.block (s := S3x64x64) S3x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x32.size a ≤ S3x64x32.size a
  hwx0_6 : ∀ i : grid0.Coords, EltTy.bits .f32 = 32 ∨ (Rect.block (s := S3x64x32) S3x64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024x32.size a ≤ S8x1024x32.size a
  hwx0_8 : ∀ i : grid0.Coords, EltTy.bits .f32 = 32 ∨ (Rect.block (s := S8x1024x32) S2x1024x32.size (cc0_transform_8 i) (hinb0_8 i)).WholeWords (EltTy.packing .f32)

variable [Facts₀]

def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S1024x96_S96x64_S1024x64_1_0_0_1_n_n : DotDims S1024x96 S96x64 S1024x64 where
  lhsContracting := [1]
  rhsContracting := [0]
  lhsNonContracting := [0]
  rhsNonContracting := [1]
  lhsBatch := []
  rhsBatch := []
  wf := dot_S1024x96_S96x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg1) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2x1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S8x1024x96 : Shape := ⟨3, ![8, 1024, 96]⟩
abbrev S1024x1024 : Shape := ⟨2, ![1024, 1024]⟩
abbrev S_ : Shape := ⟨0, ![]⟩
abbrev S1x1024x1024 : Shape := ⟨3, ![1, 1024, 1024]⟩
abbrev S8x1024 : Shape := ⟨2, ![8, 1024]⟩
abbrev S8x1024x1 : Shape := ⟨3, ![8, 1024, 1]⟩
abbrev S8x1x1024 : Shape := ⟨3, ![8, 1, 1024]⟩
abbrev S1x96x64 : Shape := ⟨3, ![1, 96, 64]⟩
abbrev S96x64 : Shape := ⟨2, ![96, 64]⟩
abbrev S8x1024x64 : Shape := ⟨3, ![8, 1024, 64]⟩
abbrev S1x1x64 : Shape := ⟨3, ![1, 1, 64]⟩
abbrev S1x64x64 : Shape := ⟨3, ![1, 64, 64]⟩
abbrev S64x64 : Shape := ⟨2, ![64, 64]⟩
abbrev S1x64x32 : Shape := ⟨3, ![1, 64, 32]⟩
abbrev S64x32 : Shape := ⟨2, ![64, 32]⟩
abbrev S8x1024x32 : Shape := ⟨3, ![8, 1024, 32]⟩
abbrev S1x1x32 : Shape := ⟨3, ![1, 1, 32]⟩

abbrev nBuf : Space → Nat
  | .hbm => 108
  | .vmem => 0
  | .smem => 0
  | _ => 0

abbrev bufTy : (tb : Table) → Fin (tcTables nBuf tb) → BufTy
  | .hbm, ⟨0, _⟩ => ⟨S8x1024x12x8, .f32⟩
  | .hbm, ⟨1, _⟩ => ⟨S8x1024x1024, .f32⟩
  | .hbm, ⟨2, _⟩ => ⟨S3x96x64, .f32⟩
  | .hbm, ⟨3, _⟩ => ⟨S64, .f32⟩
  | .hbm, ⟨4, _⟩ => ⟨S3x64x64, .f32⟩
  | .hbm, ⟨5, _⟩ => ⟨S64, .f32⟩
  | .hbm, ⟨6, _⟩ => ⟨S3x64x32, .f32⟩
  | .hbm, ⟨7, _⟩ => ⟨S32, .f32⟩
  | .hbm, ⟨8, _⟩ => ⟨S8x1024x96, .f32⟩
  | .hbm, ⟨9, _⟩ => ⟨S1024x1024, .i32⟩
  | .hbm, ⟨10, _⟩ => ⟨S1024x1024, .i32⟩
  | .hbm, ⟨11, _⟩ => ⟨S_, .i32⟩
  | .hbm, ⟨12, _⟩ => ⟨S1024x1024, .i32⟩
  | .hbm, ⟨13, _⟩ => ⟨S1024x1024, .i32⟩
  | .hbm, ⟨14, _⟩ => ⟨S1024x1024, .i1⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .i1⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024x1, .f32⟩
  | .hbm, ⟨36, _⟩ => ⟨S8x1024x1024, .f32⟩
  | .hbm, ⟨37, _⟩ => ⟨S8x1024x1024, .f32⟩
  | .hbm, ⟨38, _⟩ => ⟨S8x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S1x96x64, .f32⟩
  | .hbm, ⟨43, _⟩ => ⟨S96x64, .f32⟩
  | .hbm, ⟨44, _⟩ => ⟨S8x1024x64, .f32⟩
  | .hbm, ⟨45, _⟩ => ⟨S8x1024x96, .f32⟩
  | .hbm, ⟨46, _⟩ => ⟨S1x96x64, .f32⟩
  | .hbm, ⟨47, _⟩ => ⟨S96x64, .f32⟩
  | .hbm, ⟨48, _⟩ => ⟨S8x1024x64, .f32⟩
  | .hbm, ⟨49, _⟩ => ⟨S8x1024x64, .f32⟩
  | .hbm, ⟨50, _⟩ => ⟨S8x1024x96, .f32⟩
  | .hbm, ⟨51, _⟩ => ⟨S_, .f32⟩
  | .hbm, ⟨52, _⟩ => ⟨S8x1024x96, .f32⟩
  | .hbm, ⟨53, _⟩ => ⟨S8x1024x96, .f32⟩
  | .hbm, ⟨54, _⟩ => ⟨S8x1024x96, .f32⟩
  | .hbm, ⟨55, _⟩ => ⟨S1x96x64, .f32⟩
  | .hbm, ⟨56, _⟩ => ⟨S96x64, .f32⟩
  | .hbm, ⟨57, _⟩ => ⟨S8x1024x64, .f32⟩
  | .hbm, ⟨58, _⟩ => ⟨S8x1024x64, .f32⟩
  | .hbm, ⟨59, _⟩ => ⟨S1x1x64, .f32⟩
  | .hbm, ⟨60, _⟩ => ⟨S8x1024x64, .f32⟩
  | .hbm, ⟨61, _⟩ => ⟨S8x1024x64, .f32⟩
  | .hbm, ⟨62, _⟩ => ⟨S_, .f32⟩
  | .hbm, ⟨63, _⟩ => ⟨S8x1024x64, .f32⟩
  | .hbm, ⟨64, _⟩ => ⟨S8x1024x64, .f32⟩
  | .hbm, ⟨65, _⟩ => ⟨S1x64x64, .f32⟩
  | .hbm, ⟨66, _⟩ => ⟨S64x64, .f32⟩
  | .hbm, ⟨67, _⟩ => ⟨S8x1024x64, .f32⟩
  | .hbm, ⟨68, _⟩ => ⟨S8x1024x64, .f32⟩
  | .hbm, ⟨69, _⟩ => ⟨S1x64x64, .f32⟩
  | .hbm, ⟨70, _⟩ => ⟨S64x64, .f32⟩
  | .hbm, ⟨71, _⟩ => ⟨S8x1024x64, .f32⟩
  | .hbm, ⟨72, _⟩ => ⟨S8x1024x64, .f32⟩
  | .hbm, ⟨73, _⟩ => ⟨S8x1024x64, .f32⟩
  | .hbm, ⟨74, _⟩ => ⟨S_, .f32⟩
  | .hbm, ⟨75, _⟩ => ⟨S8x1024x64, .f32⟩
  | .hbm, ⟨76, _⟩ => ⟨S8x1024x64, .f32⟩
  | .hbm, ⟨77, _⟩ => ⟨S8x1024x64, .f32⟩
  | .hbm, ⟨78, _⟩ => ⟨S1x64x64, .f32⟩
  | .hbm, ⟨79, _⟩ => ⟨S64x64, .f32⟩
  | .hbm, ⟨80, _⟩ => ⟨S8x1024x64, .f32⟩
  | .hbm, ⟨81, _⟩ => ⟨S8x1024x64, .f32⟩
  | .hbm, ⟨82, _⟩ => ⟨S1x1x64, .f32⟩
  | .hbm, ⟨83, _⟩ => ⟨S8x1024x64, .f32⟩
  | .hbm, ⟨84, _⟩ => ⟨S8x1024x64, .f32⟩
  | .hbm, ⟨85, _⟩ => ⟨S_, .f32⟩
  | .hbm, ⟨86, _⟩ => ⟨S8x1024x64, .f32⟩
  | .hbm, ⟨87, _⟩ => ⟨S8x1024x64, .f32⟩
  | .hbm, ⟨88, _⟩ => ⟨S1x64x32, .f32⟩
  | .hbm, ⟨89, _⟩ => ⟨S64x32, .f32⟩
  | .hbm, ⟨90, _⟩ => ⟨S8x1024x32, .f32⟩
  | .hbm, ⟨91, _⟩ => ⟨S8x1024x64, .f32⟩
  | .hbm, ⟨92, _⟩ => ⟨S1x64x32, .f32⟩
  | .hbm, ⟨93, _⟩ => ⟨S64x32, .f32⟩
  | .hbm, ⟨94, _⟩ => ⟨S8x1024x32, .f32⟩
  | .hbm, ⟨95, _⟩ => ⟨S8x1024x32, .f32⟩
  | .hbm, ⟨96, _⟩ => ⟨S8x1024x64, .f32⟩
  | .hbm, ⟨97, _⟩ => ⟨S_, .f32⟩
  | .hbm, ⟨98, _⟩ => ⟨S8x1024x64, .f32⟩
  | .hbm, ⟨99, _⟩ => ⟨S8x1024x64, .f32⟩
  | .hbm, ⟨100, _⟩ => ⟨S8x1024x64, .f32⟩
  | .hbm, ⟨101, _⟩ => ⟨S1x64x32, .f32⟩
  | .hbm, ⟨102, _⟩ => ⟨S64x32, .f32⟩
  | .hbm, ⟨103, _⟩ => ⟨S8x1024x32, .f32⟩
  | .hbm, ⟨104, _⟩ => ⟨S8x1024x32, .f32⟩
  | .hbm, ⟨105, _⟩ => ⟨S1x1x32, .f32⟩
  | .hbm, ⟨106, _⟩ => ⟨S8x1024x32, .f32⟩
  | .hbm, ⟨107, _⟩ => ⟨S8x1024x32, .f32⟩
  | _, _ => ⟨S8x1024x12x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_6 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]

class Facts₀ : Prop where
  shapeCasts_S8x1024x12x8_S8x1024x96 : S8x1024x12x8.ShapeCasts S8x1024x96
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  slices_S3x96x64_S1x96x64_0_0_0 : S3x96x64.Slices ![0, 0, 0] S1x96x64
  shapeCasts_S1x96x64_S96x64 : S1x96x64.ShapeCasts S96x64
  slices_S3x96x64_S1x96x64_1_0_0 : S3x96x64.Slices ![1, 0, 0] S1x96x64
  bcast_S_S8x1024x96 : S_.BroadcastsInDim S8x1024x96 (![] : Fin 0 → Fin S8x1024x96.rank)
  slices_S3x96x64_S1x96x64_2_0_0 : S3x96x64.Slices ![2, 0, 0] S1x96x64
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)
  bcast_S_S8x1024x64 : S_.BroadcastsInDim S8x1024x64 (![] : Fin 0 → Fin S8x1024x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  slices_S3x64x32_S1x64x32_0_0_0 : S3x64x32.Slices ![0, 0, 0] S1x64x32
  shapeCasts_S1x64x32_S64x32 : S1x64x32.ShapeCasts S64x32
  slices_S3x64x32_S1x64x32_1_0_0 : S3x64x32.Slices ![1, 0, 0] S1x64x32
  slices_S3x64x32_S1x64x32_2_0_0 : S3x64x32.Slices ![2, 0, 0] S1x64x32
  bcast_S32_S1x1x32_2 : S32.BroadcastsInDim S1x1x32 (![2] : Fin 1 → Fin S1x1x32.rank)
  bcast_S1x1x32_S8x1024x32_0_1_2 : S1x1x32.BroadcastsInDim S8x1024x32 (![0, 1, 2] : Fin 3 → Fin S8x1024x32.rank)
  dot_S8x1024x96_S96x64_S8x1024x64_2_0_01_1_n_n_wf : DotDims.WF S8x1024x96 S96x64 S8x1024x64 [2] [0] [0, 1] [1] [] []
  dot_S8x1024x1024_S8x1024x96_S8x1024x96_2_1_1_2_0_0_wf : DotDims.WF S8x1024x1024 S8x1024x96 S8x1024x96 [2] [1] [1] [2] [0] [0]
  dot_S8x1024x64_S64x64_S8x1024x64_2_0_01_1_n_n_wf : DotDims.WF S8x1024x64 S64x64 S8x1024x64 [2] [0] [0, 1] [1] [] []
  dot_S8x1024x1024_S8x1024x64_S8x1024x64_2_1_1_2_0_0_wf : DotDims.WF S8x1024x1024 S8x1024x64 S8x1024x64 [2] [1] [1] [2] [0] [0]
  dot_S8x1024x64_S64x32_S8x1024x32_2_0_01_1_n_n_wf : DotDims.WF S8x1024x64 S64x32 S8x1024x32 [2] [0] [0, 1] [1] [] []

variable [Facts₀]

def dot_S8x1024x96_S96x64_S8x1024x64_2_0_01_1_n_n : DotDims S8x1024x96 S96x64 S8x1024x64 where
  lhsContracting := [2]
  rhsContracting := [0]
  lhsNonContracting := [0, 1]
  rhsNonContracting := [1]
  lhsBatch := []
  rhsBatch := []
  wf := dot_S8x1024x96_S96x64_S8x1024x64_2_0_01_1_n_n_wf
def dot_S8x1024x1024_S8x1024x96_S8x1024x96_2_1_1_2_0_0 : DotDims S8x1024x1024 S8x1024x96 S8x1024x96 where
  lhsContracting := [2]
  rhsContracting := [1]
  lhsNonContracting := [1]
  rhsNonContracting := [2]
  lhsBatch := [0]
  rhsBatch := [0]
  wf := dot_S8x1024x1024_S8x1024x96_S8x1024x96_2_1_1_2_0_0_wf
def dot_S8x1024x64_S64x64_S8x1024x64_2_0_01_1_n_n : DotDims S8x1024x64 S64x64 S8x1024x64 where
  lhsContracting := [2]
  rhsContracting := [0]
  lhsNonContracting := [0, 1]
  rhsNonContracting := [1]
  lhsBatch := []
  rhsBatch := []
  wf := dot_S8x1024x64_S64x64_S8x1024x64_2_0_01_1_n_n_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf
def dot_S8x1024x64_S64x32_S8x1024x32_2_0_01_1_n_n : DotDims S8x1024x64 S64x32 S8x1024x32 where
  lhsContracting := [2]
  rhsContracting := [0]
  lhsNonContracting := [0, 1]
  rhsNonContracting := [1]
  lhsBatch := []
  rhsBatch := []
  wf := dot_S8x1024x64_S64x32_S8x1024x32_2_0_01_1_n_n_wf

class Facts : Prop extends Facts₀ where

variable [Facts]
-- ==== Proof.ChebSpec.lean ====
/-
  The mathematics of the certificate, free of any program: a three-layer Chebyshev graph network
  (K = 3) on one graph, over the extended reals.

  For an adjacency matrix `a` the scaled Laplacian is `L = -(D^(-1/2) · a' · D^(-1/2))`, where `a'` is `a` with its
  diagonal removed, `D` the diagonal of the row sums of `a'`, and `D^(-1/2)` is taken as `0` where a row sum is not
  positive (and the row sum is clamped below by a small positive `eps` before the inverse square root).

  One layer with weights `W 0, W 1, W 2` and bias `b` maps features `h` to
      `h·W 0 + (L·h)·W 1 + (2·L·(L·h) - h)·W 2 + b`                                      (`chebRef`)
  which, when every entry is a real number, is the same as
      `h·(W 0 - W 2) + (L·h)·W 1 + 2·L·((L·h)·W 2) + b`                                  (`chebKer`)
  by distributing the product over the difference and re-associating the triple product `L·u·W 2`. Both laws need
  every entry finite: on the extended reals a product does not distribute over a sum at the infinities.
  The network is three such layers with `max · 0` between them.
-/
import Idealize.ShloMosaic.PureOps.Ideal.Laws
import Mathlib.Tactic.Ring
import Mathlib.Tactic.Linarith

noncomputable section

namespace Cert.Cheb

open Idealize.ShloMosaic

/-! ## Real numbers among the extended reals -/

/-- `x` is a real number: neither infinity. -/
def IsR (x : EReal) : Prop := ∃ r : ℝ, x = (r : EReal)

namespace IsR

theorem coe (r : ℝ) : IsR (r : EReal) := ⟨r, rfl⟩

theorem zero : IsR 0 := ⟨0, EReal.coe_zero.symm⟩

theorem add {x y : EReal} (hx : IsR x) (hy : IsR y) : IsR (x + y) := by
  obtain ⟨a, rfl⟩ := hx; obtain ⟨b, rfl⟩ := hy; exact ⟨a + b, (EReal.coe_add a b).symm⟩

theorem sub {x y : EReal} (hx : IsR x) (hy : IsR y) : IsR (x - y) := by
  obtain ⟨a, rfl⟩ := hx; obtain ⟨b, rfl⟩ := hy; exact ⟨a - b, (EReal.coe_sub a b).symm⟩

theorem mul {x y : EReal} (hx : IsR x) (hy : IsR y) : IsR (x * y) := by
  obtain ⟨a, rfl⟩ := hx; obtain ⟨b, rfl⟩ := hy; exact ⟨a * b, (EReal.coe_mul a b).symm⟩

theorem neg {x : EReal} (hx : IsR x) : IsR (-x) := by
  obtain ⟨a, rfl⟩ := hx; exact ⟨-a, (EReal.coe_neg a).symm⟩

theorem max {x y : EReal} (hx : IsR x) (hy : IsR y) : IsR (max x y) := by
  rcases max_choice x y with h | h <;> rw [h] <;> assumption

theorem sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

end IsR

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A table of real entries is the coercion of a real table. -/
theorem exists_real2 {α β : Type*} {f : α → β → EReal} (h : ∀ a b, IsR (f a b)) :
    ∃ g : α → β → ℝ, f = fun a b => (g a b : EReal) := by
  choose g hg using h
  exact ⟨g, funext fun a => funext fun b => hg a b⟩

theorem exists_real1 {α : Type*} {f : α → EReal} (h : ∀ a, IsR (f a)) : ∃ g : α → ℝ, f = fun a => (g a : EReal) := by
  choose g hg using h
  exact ⟨g, funext fun a => hg a⟩

theorem exists_real3 {α β γ : Type*} {f : α → β → γ → EReal} (h : ∀ a b c, IsR (f a b c)) :
    ∃ g : α → β → γ → ℝ, f = fun a b c => (g a b c : EReal) := by
  choose g hg using h
  exact ⟨g, funext fun a => funext fun b => funext fun c => hg a b c⟩

/-! ## Matrix products -/

/-- The product of two tables over the extended reals: `(A·B) a c = ∑ b, A a b * B b c`. -/
def mm {α β γ : Type*} [Fintype β] (A : α → β → EReal) (B : β → γ → EReal) (a : α) (c : γ) : EReal :=
  ∑ b, A a b * B b c

/-- The same over the reals. -/
def mmR {α β γ : Type*} [Fintype β] (A : α → β → ℝ) (B : β → γ → ℝ) (a : α) (c : γ) : ℝ :=
  ∑ b, A a b * B b c

theorem mm_coe {α β γ : Type*} [Fintype β] (A : α → β → ℝ) (B : β → γ → ℝ) :
    mm (fun a b => (A a b : EReal)) (fun b c => (B b c : EReal)) = fun a c => ((mmR A B a c : ℝ) : EReal) := by
  funext a c
  simp only [mm, mmR, coe_sum, EReal.coe_mul]

/-- Over the reals the product of tables is associative: the two sums exchange. -/
theorem mmR_assoc {α β γ δ : Type*} [Fintype β] [Fintype γ] (A : α → β → ℝ) (B : β → γ → ℝ) (C : γ → δ → ℝ) :
    mmR (mmR A B) C = mmR A (mmR B C) := by
  funext a d
  simp only [mmR, Finset.sum_mul, Finset.mul_sum]
  rw [Finset.sum_comm]
  exact Finset.sum_congr rfl fun b _ => Finset.sum_congr rfl fun c _ => by ring

/-- Over the reals the product distributes over `2·P - h` on the left. -/
theorem mmR_two_sub {α β γ : Type*} [Fintype β] (P h : α → β → ℝ) (C : β → γ → ℝ) (a : α) (c : γ) :
    mmR (fun a b => 2 * P a b - h a b) C a c = 2 * mmR P C a c - mmR h C a c := by
  simp only [mmR, sub_mul, Finset.sum_sub_distrib, Finset.mul_sum, mul_assoc]

theorem isR_mm {α β γ : Type*} [Fintype β] {A : α → β → EReal} {B : β → γ → EReal} (hA : ∀ a b, IsR (A a b))
    (hB : ∀ b c, IsR (B b c)) (a : α) (c : γ) : IsR (mm A B a c) :=
  IsR.sum _ _ fun b _ => (hA a b).mul (hB b c)

/-! ## One Chebyshev layer, in its two arrangements -/

section Layer

variable {N I O : Type*} [Fintype N] [Fintype I]

/-- The layer as the recurrence states it: `T₀ = h`, `T₁ = L·h`, `T₂ = 2·L·T₁ - T₀`, the result
    `(T₀·W 0 + T₁·W 1) + T₂·W 2 + b`. -/
def chebRef (two : EReal) (L : N → N → EReal) (h : N → I → EReal) (W : Fin 3 → I → O → EReal) (b : O → EReal)
    (n : N) (o : O) : EReal :=
  ((mm h (W 0) n o + mm (mm L h) (W 1) n o) + mm (fun n i => two * mm L (mm L h) n i - h n i) (W 2) n o) + b o

/-- The layer re-associated: `(h·(W 0 - W 2) + (L·h)·W 1) + 2·(L·((L·h)·W 2)) + b`. -/
def chebKer (two : EReal) (L : N → N → EReal) (h : N → I → EReal) (W : Fin 3 → I → O → EReal) (b : O → EReal)
    (n : N) (o : O) : EReal :=
  ((mm h (fun i o => W 0 i o - W 2 i o) n o + mm (mm L h) (W 1) n o) + two * mm L (mm (mm L h) (W 2)) n o) + b o

/-- The recurrence's arrangement over the reals. -/
def chebRefR (L : N → N → ℝ) (h : N → I → ℝ) (W : Fin 3 → I → O → ℝ) (b : O → ℝ) (n : N) (o : O) : ℝ :=
  ((mmR h (W 0) n o + mmR (mmR L h) (W 1) n o) + mmR (fun n i => 2 * mmR L (mmR L h) n i - h n i) (W 2) n o) + b o

/-- The re-associated arrangement over the reals. -/
def chebKerR (L : N → N → ℝ) (h : N → I → ℝ) (W : Fin 3 → I → O → ℝ) (b : O → ℝ) (n : N) (o : O) : ℝ :=
  ((mmR h (fun i o => W 0 i o - W 2 i o) n o + mmR (mmR L h) (W 1) n o) + 2 * mmR L (mmR (mmR L h) (W 2)) n o) + b o

/-- Over the reals the two arrangements agree: the product distributes over `W 0 - W 2` and over `2·L·u - h`, and
    `∑ i, (∑ m, L n m * u m i) * W i o = ∑ m, L n m * ∑ i, u m i * W i o` by exchanging the two sums. -/
theorem chebKerR_eq_chebRefR (L : N → N → ℝ) (h : N → I → ℝ) (W : Fin 3 → I → O → ℝ) (b : O → ℝ) (n : N) (o : O) :
    chebKerR L h W b n o = chebRefR L h W b n o := by
  unfold chebKerR chebRefR
  have e1 : mmR h (fun i o => W 0 i o - W 2 i o) n o = mmR h (W 0) n o - mmR h (W 2) n o := by
    simp only [mmR, mul_sub, Finset.sum_sub_distrib]
  have e2 : mmR (fun n i => 2 * mmR L (mmR L h) n i - h n i) (W 2) n o
      = 2 * mmR L (mmR (mmR L h) (W 2)) n o - mmR h (W 2) n o := by
    rw [mmR_two_sub, mmR_assoc]
  rw [e1, e2]; ring

theorem chebRef_coe (L : N → N → ℝ) (h : N → I → ℝ) (W : Fin 3 → I → O → ℝ) (b : O → ℝ) (n : N) (o : O) :
    chebRef ((2 : ℝ) : EReal) (fun n m => (L n m : EReal)) (fun n i => (h n i : EReal))
      (fun k i o => (W k i o : EReal)) (fun o => (b o : EReal)) n o = ((chebRefR L h W b n o : ℝ) : EReal) := by
  simp only [chebRef, chebRefR, mm_coe, ← EReal.coe_mul, ← EReal.coe_sub, ← EReal.coe_add]

theorem chebKer_coe (L : N → N → ℝ) (h : N → I → ℝ) (W : Fin 3 → I → O → ℝ) (b : O → ℝ) (n : N) (o : O) :
    chebKer ((2 : ℝ) : EReal) (fun n m => (L n m : EReal)) (fun n i => (h n i : EReal))
      (fun k i o => (W k i o : EReal)) (fun o => (b o : EReal)) n o = ((chebKerR L h W b n o : ℝ) : EReal) := by
  simp only [chebKer, chebKerR, mm_coe, ← EReal.coe_mul, ← EReal.coe_sub, ← EReal.coe_add]

variable {L : N → N → EReal} {h : N → I → EReal} {W : Fin 3 → I → O → EReal} {b : O → EReal}

/-- On real entries the re-associated layer is the recurrence's layer. -/
theorem chebKer_eq_chebRef (hL : ∀ n m, IsR (L n m)) (hh : ∀ n i, IsR (h n i)) (hW : ∀ k i o, IsR (W k i o))
    (hb : ∀ o, IsR (b o)) : chebKer ((2 : ℝ) : EReal) L h W b = chebRef ((2 : ℝ) : EReal) L h W b := by
  obtain ⟨L', rfl⟩ := exists_real2 hL
  obtain ⟨h', rfl⟩ := exists_real2 hh
  obtain ⟨W', rfl⟩ := exists_real3 hW
  obtain ⟨b', rfl⟩ := exists_real1 hb
  funext n o
  rw [chebKer_coe, chebRef_coe, chebKerR_eq_chebRefR]

/-- … and its entries are real. -/
theorem isR_chebRef (hL : ∀ n m, IsR (L n m)) (hh : ∀ n i, IsR (h n i)) (hW : ∀ k i o, IsR (W k i o))
    (hb : ∀ o, IsR (b o)) (n : N) (o : O) : IsR (chebRef ((2 : ℝ) : EReal) L h W b n o) := by
  obtain ⟨L', rfl⟩ := exists_real2 hL
  obtain ⟨h', rfl⟩ := exists_real2 hh
  obtain ⟨W', rfl⟩ := exists_real3 hW
  obtain ⟨b', rfl⟩ := exists_real1 hb
  rw [chebRef_coe]; exact IsR.coe _

end Layer

/-- The rectifier between layers. -/
def relu (x : EReal) : EReal := max x 0

theorem isR_relu {x : EReal} (hx : IsR x) : IsR (relu x) := hx.max IsR.zero

/-! ## The scaled Laplacian -/

section Laplacian

variable {N : Type*} [Fintype N] [DecidableEq N]

/-- The adjacency with its diagonal removed. -/
def offDiag (a : N → N → EReal) (n m : N) : EReal := if n = m then 0 else a n m

/-- A node's degree: its row sum off the diagonal. -/
def degree (a : N → N → EReal) (n : N) : EReal := ∑ m, offDiag a n m

/-- `D^(-1/2)`: the inverse square root of the degree clamped below by `eps`, and `0` where the degree is not positive. -/
def dinv (eps : EReal) (a : N → N → EReal) (n : N) : EReal :=
  if 0 < degree a n then Ideal.rsqrt (max (degree a n) eps) else 0

/-- The scaled Laplacian `-(D^(-1/2) · a' · D^(-1/2))`. -/
def lap (eps : EReal) (a : N → N → EReal) (n m : N) : EReal := -((dinv eps a n * offDiag a n m) * dinv eps a m)

/-- The same with the sign taken on the left factor first, as `(0 - d)·a'·d'`: on the extended reals `0 - x = -x` and a
    sign leaves a product, at the infinities too. -/
theorem lap_eq_zero_sub (eps : EReal) (a : N → N → EReal) (n m : N) :
    ((0 - dinv eps a n) * offDiag a n m) * dinv eps a m = lap eps a n m := by
  unfold lap
  rw [zero_sub, EReal.neg_mul, EReal.neg_mul]

variable {a : N → N → EReal}

theorem isR_offDiag (ha : ∀ n m, IsR (a n m)) (n m : N) : IsR (offDiag a n m) := by
  unfold offDiag; split
  · exact IsR.zero
  · exact ha n m

theorem isR_degree (ha : ∀ n m, IsR (a n m)) (n : N) : IsR (degree a n) :=
  IsR.sum _ _ fun m _ => isR_offDiag ha n m

/-- The inverse square root of a real at or above a positive real is real. -/
theorem isR_rsqrt_max {x : EReal} (hx : IsR x) {eps : ℝ} (heps : 0 < eps) : IsR (Ideal.rsqrt (max x (eps : EReal))) := by
  obtain ⟨r, rfl⟩ := hx
  have hm : max (r : EReal) (eps : EReal) = ((max r eps : ℝ) : EReal) :=
    (EReal.coe_strictMono.monotone.map_max).symm
  rw [hm, Ideal.rsqrt_coe]
  have hpos : 0 < max r eps := lt_max_of_lt_right heps
  rw [if_neg (not_lt.mpr hpos.le), if_neg hpos.ne']
  exact IsR.coe _

theorem isR_dinv {eps : ℝ} (heps : 0 < eps) (ha : ∀ n m, IsR (a n m)) (n : N) : IsR (dinv (eps : EReal) a n) := by
  unfold dinv; split
  · exact isR_rsqrt_max (isR_degree ha n) heps
  · exact IsR.zero

theorem isR_lap {eps : ℝ} (heps : 0 < eps) (ha : ∀ n m, IsR (a n m)) (n m : N) : IsR (lap (eps : EReal) a n m) :=
  (((isR_dinv heps ha n).mul (isR_offDiag ha n m)).mul (isR_dinv heps ha m)).neg

end Laplacian

/-! ## The network -/

section Net

variable {N I1 I2 I3 O : Type*} [Fintype N] [DecidableEq N] [Fintype I1] [Fintype I2] [Fintype I3]

/-- Three layers as the recurrence states them, the rectifier after the first two. -/
def netRef (eps two : EReal) (a : N → N → EReal) (x : N → I1 → EReal) (W1 : Fin 3 → I1 → I2 → EReal) (b1 : I2 → EReal)
    (W2 : Fin 3 → I2 → I3 → EReal) (b2 : I3 → EReal) (W3 : Fin 3 → I3 → O → EReal) (b3 : O → EReal) : N → O → EReal :=
  chebRef two (lap eps a)
    (fun n i => relu (chebRef two (lap eps a) (fun n i => relu (chebRef two (lap eps a) x W1 b1 n i)) W2 b2 n i)) W3 b3

/-- Three re-associated layers. -/
def netKer (eps two : EReal) (a : N → N → EReal) (x : N → I1 → EReal) (W1 : Fin 3 → I1 → I2 → EReal) (b1 : I2 → EReal)
    (W2 : Fin 3 → I2 → I3 → EReal) (b2 : I3 → EReal) (W3 : Fin 3 → I3 → O → EReal) (b3 : O → EReal) : N → O → EReal :=
  chebKer two (lap eps a)
    (fun n i => relu (chebKer two (lap eps a) (fun n i => relu (chebKer two (lap eps a) x W1 b1 n i)) W2 b2 n i)) W3 b3

/-- On real inputs, with `eps` a positive real and `two` the real `2`, the two networks are one function: layer by layer
    the entries stay real, so each re-associated layer is the recurrence's. -/
theorem netKer_eq_netRef {eps : ℝ} (heps : 0 < eps) {a : N → N → EReal} {x : N → I1 → EReal}
    {W1 : Fin 3 → I1 → I2 → EReal} {b1 : I2 → EReal} {W2 : Fin 3 → I2 → I3 → EReal} {b2 : I3 → EReal}
    {W3 : Fin 3 → I3 → O → EReal} {b3 : O → EReal}
    (ha : ∀ n m, IsR (a n m)) (hx : ∀ n i, IsR (x n i)) (hW1 : ∀ k i o, IsR (W1 k i o)) (hb1 : ∀ o, IsR (b1 o))
    (hW2 : ∀ k i o, IsR (W2 k i o)) (hb2 : ∀ o, IsR (b2 o)) (hW3 : ∀ k i o, IsR (W3 k i o)) (hb3 : ∀ o, IsR (b3 o)) :
    netKer (eps : EReal) ((2 : ℝ) : EReal) a x W1 b1 W2 b2 W3 b3 = netRef (eps : EReal) ((2 : ℝ) : EReal) a x W1 b1 W2 b2 W3 b3 := by
  have hL := isR_lap heps ha
  unfold netKer netRef
  have h1 := chebKer_eq_chebRef hL hx hW1 hb1
  have r1 : ∀ n i, IsR (relu (chebRef ((2 : ℝ) : EReal) (lap (eps : EReal) a) x W1 b1 n i)) :=
    fun n i => isR_relu (isR_chebRef hL hx hW1 hb1 n i)
  have h2 := chebKer_eq_chebRef hL r1 hW2 hb2
  have r2 : ∀ n i, IsR (relu (chebRef ((2 : ℝ) : EReal) (lap (eps : EReal) a)
      (fun n i => relu (chebRef ((2 : ℝ) : EReal) (lap (eps : EReal) a) x W1 b1 n i)) W2 b2 n i)) :=
    fun n i => isR_relu (isR_chebRef hL r1 hW2 hb2 n i)
  rw [h1, h2, chebKer_eq_chebRef hL r2 hW3 hb3]

end Net

end Cert.Cheb

end
-- ==== Proof.KerOps.lean ====
/-
  The kernel's vector operations read at an index, at the ideal values: each matrix product of the body as a sum over
  the contracted axis, the keep-dims layout casts and broadcasts of a column, a row sum, the diagonal mask, a selection
  under a comparison, and what a load through one of the body's rectangles reads.
-/
import proofs.«126414_g3504693314081_cont_8to1_b_212_23_alg».proof.Proof.Gen.KernelIdeal.Frame
import proofs.«126414_g3504693314081_cont_8to1_b_212_23_alg».proof.Proof.ChebSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KerOps

open Cert.KernelIdeal Cert.KernelIdeal.Gen Idealize.ShloMosaic Idealize.ShloMosaic.ValueIdx Cert.Cheb

/-- A rank-2 vector of extended reals as a table indexed by its two coordinates. -/
abbrev tab {a b : ℕ} (v : (⟨2, ![a, b]⟩ : Shape).Idx → EReal) : Fin a → Fin b → EReal := fun i j => v (ix2 i j)

/-! ## The six matrix products: into a zero accumulator, each is the sum over the contracted axis

Each product is of a plain two-axis kind: the left operand's first axis and the right operand's second axis are kept,
the left's second and the right's first are contracted. For each, four lemmas read the operands' indices axis by axis
(a kept axis reads the result's coordinate, the contracted axis reads the contraction index), and the product at
`(n, o)` is then the sum over `k` of `l (n, k) * r (k, o)`, re-indexed through the one-axis contraction index. -/

theorem lhs_1024x1024_1024x96_0 (i : S1024x96.Idx) (q : dot_S1024x1024_S1024x96_S1024x96_1_0_0_1_n_n.contr.Idx) :
    (dot_S1024x1024_S1024x96_S1024x96_1_0_0_1_n_n.lhsIdx i q 0).val = (i 0).val := by
  unfold DotDims.lhsIdx
  rw [dif_neg (show ¬(0 : Fin S1024x1024.rank) ∈ dot_S1024x1024_S1024x96_S1024x96_1_0_0_1_n_n.lhsBatch by decide), dif_pos (show (0 : Fin S1024x1024.rank) ∈ dot_S1024x1024_S1024x96_S1024x96_1_0_0_1_n_n.lhsNonContracting by decide)]
  rfl
theorem lhs_1024x1024_1024x96_1 (i : S1024x96.Idx) (q : dot_S1024x1024_S1024x96_S1024x96_1_0_0_1_n_n.contr.Idx) :
    (dot_S1024x1024_S1024x96_S1024x96_1_0_0_1_n_n.lhsIdx i q 1).val = (q ⟨0, by decide⟩).val :=
  dot_S1024x1024_S1024x96_S1024x96_1_0_0_1_n_n.lhsIdx_val_of_single rfl i q
theorem rhs_1024x1024_1024x96_0 (i : S1024x96.Idx) (q : dot_S1024x1024_S1024x96_S1024x96_1_0_0_1_n_n.contr.Idx) :
    (dot_S1024x1024_S1024x96_S1024x96_1_0_0_1_n_n.rhsIdx i q 0).val = (q ⟨0, by decide⟩).val :=
  dot_S1024x1024_S1024x96_S1024x96_1_0_0_1_n_n.rhsIdx_val_of_single rfl i q
theorem rhs_1024x1024_1024x96_1 (i : S1024x96.Idx) (q : dot_S1024x1024_S1024x96_S1024x96_1_0_0_1_n_n.contr.Idx) :
    (dot_S1024x1024_S1024x96_S1024x96_1_0_0_1_n_n.rhsIdx i q 1).val = (i 1).val := by
  unfold DotDims.rhsIdx
  rw [dif_neg (show ¬(1 : Fin S1024x96.rank) ∈ dot_S1024x1024_S1024x96_S1024x96_1_0_0_1_n_n.rhsBatch by decide), dif_pos (show (1 : Fin S1024x96.rank) ∈ dot_S1024x1024_S1024x96_S1024x96_1_0_0_1_n_n.rhsNonContracting by decide)]
  rfl
theorem matmul_1024x1024_1024x96 {φ₁ φ₂ : FTy} (l : FVec Ideal S1024x1024 φ₁) (r : FVec Ideal S1024x96 φ₂) (n : Fin 1024) (o : Fin 96) :
    matmul dot_S1024x1024_S1024x96_S1024x96_1_0_0_1_n_n none l r (constant (F := Ideal) S1024x96 .f32 0x00000000#32) (ix2 n o)
      = mm (tab l) (tab r) n o := by
  show FloatOps.matmul dot_S1024x1024_S1024x96_S1024x96_1_0_0_1_n_n none l r (constant (F := Ideal) S1024x96 .f32 0x00000000#32) (ix2 n o)
      = ∑ k : Fin 1024, l (ix2 n k) * r (ix2 k o)
  rw [Ideal.matmul_constant_zero_apply, ← Equiv.sum_comp (ValueIdx.contrEquiv1 dot_S1024x1024_S1024x96_S1024x96_1_0_0_1_n_n 1024 rfl rfl).symm]
  refine Finset.sum_congr rfl fun k _ => ?_
  have hk := ValueIdx.contrEquiv1_symm_val dot_S1024x1024_S1024x96_S1024x96_1_0_0_1_n_n 1024 rfl rfl k
  have el : dot_S1024x1024_S1024x96_S1024x96_1_0_0_1_n_n.lhsIdx (ix2 n o) ((ValueIdx.contrEquiv1 dot_S1024x1024_S1024x96_S1024x96_1_0_0_1_n_n 1024 rfl rfl).symm k) = ix2 n k := funext fun a => Fin.ext (by
    match a with
    | ⟨0, _⟩ => exact lhs_1024x1024_1024x96_0 _ _
    | ⟨1, _⟩ => exact (lhs_1024x1024_1024x96_1 _ _).trans hk)
  have er : dot_S1024x1024_S1024x96_S1024x96_1_0_0_1_n_n.rhsIdx (ix2 n o) ((ValueIdx.contrEquiv1 dot_S1024x1024_S1024x96_S1024x96_1_0_0_1_n_n 1024 rfl rfl).symm k) = ix2 k o := funext fun a => Fin.ext (by
    match a with
    | ⟨0, _⟩ => exact (rhs_1024x1024_1024x96_0 _ _).trans hk
    | ⟨1, _⟩ => exact rhs_1024x1024_1024x96_1 _ _)
  rw [el, er]

theorem lhs_1024x96_96x64_0 (i : S1024x64.Idx) (q : dot_S1024x96_S96x64_S1024x64_1_0_0_1_n_n.contr.Idx) :
    (dot_S1024x96_S96x64_S1024x64_1_0_0_1_n_n.lhsIdx i q 0).val = (i 0).val := by
  unfold DotDims.lhsIdx
  rw [dif_neg (show ¬(0 : Fin S1024x96.rank) ∈ dot_S1024x96_S96x64_S1024x64_1_0_0_1_n_n.lhsBatch by decide), dif_pos (show (0 : Fin S1024x96.rank) ∈ dot_S1024x96_S96x64_S1024x64_1_0_0_1_n_n.lhsNonContracting by decide)]
  rfl
theorem lhs_1024x96_96x64_1 (i : S1024x64.Idx) (q : dot_S1024x96_S96x64_S1024x64_1_0_0_1_n_n.contr.Idx) :
    (dot_S1024x96_S96x64_S1024x64_1_0_0_1_n_n.lhsIdx i q 1).val = (q ⟨0, by decide⟩).val :=
  dot_S1024x96_S96x64_S1024x64_1_0_0_1_n_n.lhsIdx_val_of_single rfl i q
theorem rhs_1024x96_96x64_0 (i : S1024x64.Idx) (q : dot_S1024x96_S96x64_S1024x64_1_0_0_1_n_n.contr.Idx) :
    (dot_S1024x96_S96x64_S1024x64_1_0_0_1_n_n.rhsIdx i q 0).val = (q ⟨0, by decide⟩).val :=
  dot_S1024x96_S96x64_S1024x64_1_0_0_1_n_n.rhsIdx_val_of_single rfl i q
theorem rhs_1024x96_96x64_1 (i : S1024x64.Idx) (q : dot_S1024x96_S96x64_S1024x64_1_0_0_1_n_n.contr.Idx) :
    (dot_S1024x96_S96x64_S1024x64_1_0_0_1_n_n.rhsIdx i q 1).val = (i 1).val := by
  unfold DotDims.rhsIdx
  rw [dif_neg (show ¬(1 : Fin S96x64.rank) ∈ dot_S1024x96_S96x64_S1024x64_1_0_0_1_n_n.rhsBatch by decide), dif_pos (show (1 : Fin S96x64.rank) ∈ dot_S1024x96_S96x64_S1024x64_1_0_0_1_n_n.rhsNonContracting by decide)]
  rfl
theorem matmul_1024x96_96x64 {φ₁ φ₂ : FTy} (l : FVec Ideal S1024x96 φ₁) (r : FVec Ideal S96x64 φ₂) (n : Fin 1024) (o : Fin 64) :
    matmul dot_S1024x96_S96x64_S1024x64_1_0_0_1_n_n none l r (constant (F := Ideal) S1024x64 .f32 0x00000000#32) (ix2 n o)
      = mm (tab l) (tab r) n o := by
  show FloatOps.matmul dot_S1024x96_S96x64_S1024x64_1_0_0_1_n_n none l r (constant (F := Ideal) S1024x64 .f32 0x00000000#32) (ix2 n o)
      = ∑ k : Fin 96, l (ix2 n k) * r (ix2 k o)
  rw [Ideal.matmul_constant_zero_apply, ← Equiv.sum_comp (ValueIdx.contrEquiv1 dot_S1024x96_S96x64_S1024x64_1_0_0_1_n_n 96 rfl rfl).symm]
  refine Finset.sum_congr rfl fun k _ => ?_
  have hk := ValueIdx.contrEquiv1_symm_val dot_S1024x96_S96x64_S1024x64_1_0_0_1_n_n 96 rfl rfl k
  have el : dot_S1024x96_S96x64_S1024x64_1_0_0_1_n_n.lhsIdx (ix2 n o) ((ValueIdx.contrEquiv1 dot_S1024x96_S96x64_S1024x64_1_0_0_1_n_n 96 rfl rfl).symm k) = ix2 n k := funext fun a => Fin.ext (by
    match a with
    | ⟨0, _⟩ => exact lhs_1024x96_96x64_0 _ _
    | ⟨1, _⟩ => exact (lhs_1024x96_96x64_1 _ _).trans hk)
  have er : dot_S1024x96_S96x64_S1024x64_1_0_0_1_n_n.rhsIdx (ix2 n o) ((ValueIdx.contrEquiv1 dot_S1024x96_S96x64_S1024x64_1_0_0_1_n_n 96 rfl rfl).symm k) = ix2 k o := funext fun a => Fin.ext (by
    match a with
    | ⟨0, _⟩ => exact (rhs_1024x96_96x64_0 _ _).trans hk
    | ⟨1, _⟩ => exact rhs_1024x96_96x64_1 _ _)
  rw [el, er]

theorem lhs_1024x1024_1024x64_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_1024x1024_1024x64_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_1024x1024_1024x64_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_1024x1024_1024x64_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl
theorem matmul_1024x1024_1024x64 {φ₁ φ₂ : FTy} (l : FVec Ideal S1024x1024 φ₁) (r : FVec Ideal S1024x64 φ₂) (n : Fin 1024) (o : Fin 64) :
    matmul dot_S1024x1024_S1024x64_S1024x64_1_0_0_1_n_n none l r (constant (F := Ideal) S1024x64 .f32 0x00000000#32) (ix2 n o)
      = mm (tab l) (tab r) n o := by
  show FloatOps.matmul dot_S1024x1024_S1024x64_S1024x64_1_0_0_1_n_n none l r (constant (F := Ideal) S1024x64 .f32 0x00000000#32) (ix2 n o)
      = ∑ k : Fin 1024, l (ix2 n k) * r (ix2 k o)
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 n o) ((ValueIdx.contrEquiv1 dot_S1024x1024_S1024x64_S1024x64_1_0_0_1_n_n 1024 rfl rfl).symm k) = ix2 n k := funext fun a => Fin.ext (by
    match a with
    | ⟨0, _⟩ => exact lhs_1024x1024_1024x64_0 _ _
    | ⟨1, _⟩ => exact (lhs_1024x1024_1024x64_1 _ _).trans hk)
  have er : dot_S1024x1024_S1024x64_S1024x64_1_0_0_1_n_n.rhsIdx (ix2 n o) ((ValueIdx.contrEquiv1 dot_S1024x1024_S1024x64_S1024x64_1_0_0_1_n_n 1024 rfl rfl).symm k) = ix2 k o := funext fun a => Fin.ext (by
    match a with
    | ⟨0, _⟩ => exact (rhs_1024x1024_1024x64_0 _ _).trans hk
    | ⟨1, _⟩ => exact rhs_1024x1024_1024x64_1 _ _)
  rw [el, er]

theorem lhs_1024x64_64x64_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_1024x64_64x64_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_1024x64_64x64_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_1024x64_64x64_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl
theorem matmul_1024x64_64x64 {φ₁ φ₂ : FTy} (l : FVec Ideal S1024x64 φ₁) (r : FVec Ideal S64x64 φ₂) (n : Fin 1024) (o : Fin 64) :
    matmul dot_S1024x64_S64x64_S1024x64_1_0_0_1_n_n none l r (constant (F := Ideal) S1024x64 .f32 0x00000000#32) (ix2 n o)
      = mm (tab l) (tab r) n o := by
  show FloatOps.matmul dot_S1024x64_S64x64_S1024x64_1_0_0_1_n_n none l r (constant (F := Ideal) S1024x64 .f32 0x00000000#32) (ix2 n o)
      = ∑ k : Fin 64, l (ix2 n k) * r (ix2 k o)
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 n o) ((ValueIdx.contrEquiv1 dot_S1024x64_S64x64_S1024x64_1_0_0_1_n_n 64 rfl rfl).symm k) = ix2 n k := funext fun a => Fin.ext (by
    match a with
    | ⟨0, _⟩ => exact lhs_1024x64_64x64_0 _ _
    | ⟨1, _⟩ => exact (lhs_1024x64_64x64_1 _ _).trans hk)
  have er : dot_S1024x64_S64x64_S1024x64_1_0_0_1_n_n.rhsIdx (ix2 n o) ((ValueIdx.contrEquiv1 dot_S1024x64_S64x64_S1024x64_1_0_0_1_n_n 64 rfl rfl).symm k) = ix2 k o := funext fun a => Fin.ext (by
    match a with
    | ⟨0, _⟩ => exact (rhs_1024x64_64x64_0 _ _).trans hk
    | ⟨1, _⟩ => exact rhs_1024x64_64x64_1 _ _)
  rw [el, er]

theorem lhs_1024x64_64x32_0 (i : S1024x32.Idx) (q : dot_S1024x64_S64x32_S1024x32_1_0_0_1_n_n.contr.Idx) :
    (dot_S1024x64_S64x32_S1024x32_1_0_0_1_n_n.lhsIdx i q 0).val = (i 0).val := by
  unfold DotDims.lhsIdx
  rw [dif_neg (show ¬(0 : Fin S1024x64.rank) ∈ dot_S1024x64_S64x32_S1024x32_1_0_0_1_n_n.lhsBatch by decide), dif_pos (show (0 : Fin S1024x64.rank) ∈ dot_S1024x64_S64x32_S1024x32_1_0_0_1_n_n.lhsNonContracting by decide)]
  rfl
theorem lhs_1024x64_64x32_1 (i : S1024x32.Idx) (q : dot_S1024x64_S64x32_S1024x32_1_0_0_1_n_n.contr.Idx) :
    (dot_S1024x64_S64x32_S1024x32_1_0_0_1_n_n.lhsIdx i q 1).val = (q ⟨0, by decide⟩).val :=
  dot_S1024x64_S64x32_S1024x32_1_0_0_1_n_n.lhsIdx_val_of_single rfl i q
theorem rhs_1024x64_64x32_0 (i : S1024x32.Idx) (q : dot_S1024x64_S64x32_S1024x32_1_0_0_1_n_n.contr.Idx) :
    (dot_S1024x64_S64x32_S1024x32_1_0_0_1_n_n.rhsIdx i q 0).val = (q ⟨0, by decide⟩).val :=
  dot_S1024x64_S64x32_S1024x32_1_0_0_1_n_n.rhsIdx_val_of_single rfl i q
theorem rhs_1024x64_64x32_1 (i : S1024x32.Idx) (q : dot_S1024x64_S64x32_S1024x32_1_0_0_1_n_n.contr.Idx) :
    (dot_S1024x64_S64x32_S1024x32_1_0_0_1_n_n.rhsIdx i q 1).val = (i 1).val := by
  unfold DotDims.rhsIdx
  rw [dif_neg (show ¬(1 : Fin S64x32.rank) ∈ dot_S1024x64_S64x32_S1024x32_1_0_0_1_n_n.rhsBatch by decide), dif_pos (show (1 : Fin S64x32.rank) ∈ dot_S1024x64_S64x32_S1024x32_1_0_0_1_n_n.rhsNonContracting by decide)]
  rfl
theorem matmul_1024x64_64x32 {φ₁ φ₂ : FTy} (l : FVec Ideal S1024x64 φ₁) (r : FVec Ideal S64x32 φ₂) (n : Fin 1024) (o : Fin 32) :
    matmul dot_S1024x64_S64x32_S1024x32_1_0_0_1_n_n none l r (constant (F := Ideal) S1024x32 .f32 0x00000000#32) (ix2 n o)
      = mm (tab l) (tab r) n o := by
  show FloatOps.matmul dot_S1024x64_S64x32_S1024x32_1_0_0_1_n_n none l r (constant (F := Ideal) S1024x32 .f32 0x00000000#32) (ix2 n o)
      = ∑ k : Fin 64, l (ix2 n k) * r (ix2 k o)
  rw [Ideal.matmul_constant_zero_apply, ← Equiv.sum_comp (ValueIdx.contrEquiv1 dot_S1024x64_S64x32_S1024x32_1_0_0_1_n_n 64 rfl rfl).symm]
  refine Finset.sum_congr rfl fun k _ => ?_
  have hk := ValueIdx.contrEquiv1_symm_val dot_S1024x64_S64x32_S1024x32_1_0_0_1_n_n 64 rfl rfl k
  have el : dot_S1024x64_S64x32_S1024x32_1_0_0_1_n_n.lhsIdx (ix2 n o) ((ValueIdx.contrEquiv1 dot_S1024x64_S64x32_S1024x32_1_0_0_1_n_n 64 rfl rfl).symm k) = ix2 n k := funext fun a => Fin.ext (by
    match a with
    | ⟨0, _⟩ => exact lhs_1024x64_64x32_0 _ _
    | ⟨1, _⟩ => exact (lhs_1024x64_64x32_1 _ _).trans hk)
  have er : dot_S1024x64_S64x32_S1024x32_1_0_0_1_n_n.rhsIdx (ix2 n o) ((ValueIdx.contrEquiv1 dot_S1024x64_S64x32_S1024x32_1_0_0_1_n_n 64 rfl rfl).symm k) = ix2 k o := funext fun a => Fin.ext (by
    match a with
    | ⟨0, _⟩ => exact (rhs_1024x64_64x32_0 _ _).trans hk
    | ⟨1, _⟩ => exact rhs_1024x64_64x32_1 _ _)
  rw [el, er]

theorem lhs_1024x1024_1024x32_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_1024x1024_1024x32_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
theorem rhs_1024x1024_1024x32_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhs_1024x1024_1024x32_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl
theorem matmul_1024x1024_1024x32 {φ₁ φ₂ : FTy} (l : FVec Ideal S1024x1024 φ₁) (r : FVec Ideal S1024x32 φ₂) (n : Fin 1024) (o : Fin 32) :
    matmul dot_S1024x1024_S1024x32_S1024x32_1_0_0_1_n_n none l r (constant (F := Ideal) S1024x32 .f32 0x00000000#32) (ix2 n o)
      = mm (tab l) (tab r) n o := by
  show FloatOps.matmul dot_S1024x1024_S1024x32_S1024x32_1_0_0_1_n_n none l r (constant (F := Ideal) S1024x32 .f32 0x00000000#32) (ix2 n o)
      = ∑ k : Fin 1024, l (ix2 n k) * r (ix2 k o)
  rw [Ideal.matmul_constant_zero_apply, ← Equiv.sum_comp (ValueIdx.contrEquiv1 dot_S1024x1024_S1024x32_S1024x32_1_0_0_1_n_n 1024 rfl rfl).symm]
  refine Finset.sum_congr rfl fun k _ => ?_
  have hk := ValueIdx.contrEquiv1_symm_val dot_S1024x1024_S1024x32_S1024x32_1_0_0_1_n_n 1024 rfl rfl k
  have el : dot_S1024x1024_S1024x32_S1024x32_1_0_0_1_n_n.lhsIdx (ix2 n o) ((ValueIdx.contrEquiv1 dot_S1024x1024_S1024x32_S1024x32_1_0_0_1_n_n 1024 rfl rfl).symm k) = ix2 n k := funext fun a => Fin.ext (by
    match a with
    | ⟨0, _⟩ => exact lhs_1024x1024_1024x32_0 _ _
    | ⟨1, _⟩ => exact (lhs_1024x1024_1024x32_1 _ _).trans hk)
  have er : dot_S1024x1024_S1024x32_S1024x32_1_0_0_1_n_n.rhsIdx (ix2 n o) ((ValueIdx.contrEquiv1 dot_S1024x1024_S1024x32_S1024x32_1_0_0_1_n_n 1024 rfl rfl).symm k) = ix2 k o := funext fun a => Fin.ext (by
    match a with
    | ⟨0, _⟩ => exact (rhs_1024x1024_1024x32_0 _ _).trans hk
    | ⟨1, _⟩ => exact rhs_1024x1024_1024x32_1 _ _)
  rw [el, er]

/-! ## Keep-dims layout: a vector as a column, a column as a row, a column broadcast along its rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row sum, the diagonal mask, a selection under `>` -/

/-- The lane reduction of a `1024 × 1024` vector along its second axis, at row `n`, is the row's sum. -/
theorem rowSum_apply (src : FVec Ideal S1024x1024 .f32) (n : Fin 1024) :
    multiReduction .add [1] S1024 src 0x00000000#32 reduces_S1024x1024_S1024 (.inl rfl) rfl (ix1 n) = ∑ m : Fin 1024, src (ix2 n m) := by
  refine (Ideal.multiReduction_add_single src 0x00000000#32 reduces_S1024x1024_S1024 (.inl rfl) rfl (ix1 n)).trans ?_
  refine Finset.sum_congr rfl fun k _ => congrArg src ?_
  funext a
  apply Fin.ext
  match a with
  | ⟨0, _⟩ => rfl
  | ⟨1, _⟩ => rfl

/-- The mask `row == col` is set exactly on the diagonal: the two coordinate words, both below `2 ^ 32`, are equal
    exactly when the coordinates are. -/
theorem diag_apply (n m : Fin 1024) : k0_pay3 (ix2 n m) = if n = m then 1#1 else 0#1 := by
  have e : k0_pay3 (ix2 n m) = IntOp.cmpi .eq (BitVec.ofNat 32 n.val) (BitVec.ofNat 32 m.val) := by
    show IntOp.cmpi .eq (iota .tc S1024x1024 32 [0] iota_S1024x1024_d0_w32 (ix2 n m))
      (iota .tc S1024x1024 32 [1] iota_S1024x1024_d1_w32 (ix2 n m)) = _
    rw [iota_single_apply, iota_single_apply]
  rw [e]
  have hinj : BitVec.ofNat 32 n.val = BitVec.ofNat 32 m.val ↔ n = m := by
    constructor
    · intro h
      have h2 := congrArg BitVec.toNat h
      simp only [BitVec.toNat_ofNat] at h2
      apply Fin.ext
      have := n.isLt
      have := m.isLt
      omega
    · intro h
      rw [h]
  have hcmp : ∀ a b : BitVec 32, IntOp.cmpi .eq a b = 1#1 ↔ a = b := fun a b => by
    show BitVec.ofBool (a == b) = 1#1 ↔ a = b
    cases hb : (a == b)
    · have hne : a ≠ b := fun h => by subst h; simp at hb
      exact ⟨fun h => absurd h (by decide), fun h => absurd h hne⟩
    · exact ⟨fun _ => eq_of_beq hb, fun _ => rfl⟩
  by_cases h : n = m
  · rw [if_pos h]
    exact (hcmp _ _).mpr (hinj.mpr h)
  · rw [if_neg h]
    exact eq_zero_of_ne_one fun hc => h (hinj.mp ((hcmp _ _).mp hc))

/-- A selection under the mask `x > y` is the `if` on `y < x`. -/
theorem select_ogt (x y a b : EReal) :
    Scalar.select (FloatOps.cmpf (F := Ideal) (φ := .f32) .ogt x y) a b = if y < x then a else b := by
  by_cases h : y < x <;> simp [Scalar.select, Ideal.cmpf_def, Ideal.cmp, h]

/-! ## What the body's loads read: slab `k` of a rank-3 block, or a whole rank-2 block

Each rectangle has unit strides and extent one on its first axis, so the index it reads at `(u, …)` is the offset's
slab on the first axis (the unit coordinate `u` is `0`) and the given coordinates on the others. -/

section Loads
variable (x0 : Vec Ideal S2x1024x1024 .f32) (x1 : Vec Ideal S2x1024x96 .f32) (x2 : Vec Ideal S3x96x64 .f32) (x3 : Vec Ideal S1x64 .f32)
  (x4 : Vec Ideal S3x64x64 .f32) (x6 : Vec Ideal S3x64x32 .f32) (x7 : Vec Ideal S1x32 .f32)

theorem ld_r0_0 (u : Fin 1) (n m : Fin 1024) : View.ld x0 r0_0 (ix3 u n m) = x0 (ix3 (0 : Fin 2) n m) := by
  show x0 (r0_0.idx (ix3 u n m)) = x0 (ix3 (0 : Fin 2) n m)
  refine congrArg x0 (funext fun a => Fin.ext ?_)
  match a with
  | ⟨0, _⟩ => show 0 + 1 * u.val = 0; omega
  | ⟨1, _⟩ => show 0 + 1 * n.val = n.val; omega
  | ⟨2, _⟩ => show 0 + 1 * m.val = m.val; omega
theorem ld_r0_1 (u : Fin 1) (n m : Fin 1024) : View.ld x0 r0_1 (ix3 u n m) = x0 (ix3 (1 : Fin 2) n m) := by
  show x0 (r0_1.idx (ix3 u n m)) = x0 (ix3 (1 : Fin 2) n m)
  refine congrArg x0 (funext fun a => Fin.ext ?_)
  match a with
  | ⟨0, _⟩ => show 1 + 1 * u.val = 1; omega
  | ⟨1, _⟩ => show 0 + 1 * n.val = n.val; omega
  | ⟨2, _⟩ => show 0 + 1 * m.val = m.val; omega
theorem ld_r0_2 (u : Fin 1) (n : Fin 1024) (i : Fin 96) : View.ld x1 r0_2 (ix3 u n i) = x1 (ix3 (0 : Fin 2) n i) := by
  show x1 (r0_2.idx (ix3 u n i)) = x1 (ix3 (0 : Fin 2) n i)
  refine congrArg x1 (funext fun a => Fin.ext ?_)
  match a with
  | ⟨0, _⟩ => show 0 + 1 * u.val = 0; omega
  | ⟨1, _⟩ => show 0 + 1 * n.val = n.val; omega
  | ⟨2, _⟩ => show 0 + 1 * i.val = i.val; omega
theorem ld_r0_3 (u : Fin 1) (n : Fin 1024) (i : Fin 96) : View.ld x1 r0_3 (ix3 u n i) = x1 (ix3 (1 : Fin 2) n i) := by
  show x1 (r0_3.idx (ix3 u n i)) = x1 (ix3 (1 : Fin 2) n i)
  refine congrArg x1 (funext fun a => Fin.ext ?_)
  match a with
  | ⟨0, _⟩ => show 1 + 1 * u.val = 1; omega
  | ⟨1, _⟩ => show 0 + 1 * n.val = n.val; omega
  | ⟨2, _⟩ => show 0 + 1 * i.val = i.val; omega
theorem ld_r0_4 (u : Fin 1) (i : Fin 96) (o : Fin 64) : View.ld x2 r0_4 (ix3 u i o) = x2 (ix3 (0 : Fin 3) i o) := by
  show x2 (r0_4.idx (ix3 u i o)) = x2 (ix3 (0 : Fin 3) i o)
  refine congrArg x2 (funext fun a => Fin.ext ?_)
  match a with
  | ⟨0, _⟩ => show 0 + 1 * u.val = 0; omega
  | ⟨1, _⟩ => show 0 + 1 * i.val = i.val; omega
  | ⟨2, _⟩ => show 0 + 1 * o.val = o.val; omega
theorem ld_r0_5 (u : Fin 1) (i : Fin 96) (o : Fin 64) : View.ld x2 r0_5 (ix3 u i o) = x2 (ix3 (2 : Fin 3) i o) := by
  show x2 (r0_5.idx (ix3 u i o)) = x2 (ix3 (2 : Fin 3) i o)
  refine congrArg x2 (funext fun a => Fin.ext ?_)
  match a with
  | ⟨0, _⟩ => show 2 + 1 * u.val = 2; omega
  | ⟨1, _⟩ => show 0 + 1 * i.val = i.val; omega
  | ⟨2, _⟩ => show 0 + 1 * o.val = o.val; omega
theorem ld_r0_6 (u : Fin 1) (i : Fin 96) (o : Fin 64) : View.ld x2 r0_6 (ix3 u i o) = x2 (ix3 (1 : Fin 3) i o) := by
  show x2 (r0_6.idx (ix3 u i o)) = x2 (ix3 (1 : Fin 3) i o)
  refine congrArg x2 (funext fun a => Fin.ext ?_)
  match a with
  | ⟨0, _⟩ => show 1 + 1 * u.val = 1; omega
  | ⟨1, _⟩ => show 0 + 1 * i.val = i.val; omega
  | ⟨2, _⟩ => show 0 + 1 * o.val = o.val; omega
theorem ld_r0_7 (u : Fin 1) (o : Fin 64) : View.ld x3 r0_7 (ix2 u o) = x3 (ix2 (0 : Fin 1) o) := by
  show x3 (r0_7.idx (ix2 u o)) = x3 (ix2 (0 : Fin 1) o)
  refine congrArg x3 (funext fun a => Fin.ext ?_)
  match a with
  | ⟨0, _⟩ => show 0 + 1 * u.val = 0; omega
  | ⟨1, _⟩ => show 0 + 1 * o.val = o.val; omega
theorem ld_r0_8 (u : Fin 1) (i : Fin 64) (o : Fin 64) : View.ld x4 r0_8 (ix3 u i o) = x4 (ix3 (0 : Fin 3) i o) := by
  show x4 (r0_8.idx (ix3 u i o)) = x4 (ix3 (0 : Fin 3) i o)
  refine congrArg x4 (funext fun a => Fin.ext ?_)
  match a with
  | ⟨0, _⟩ => show 0 + 1 * u.val = 0; omega
  | ⟨1, _⟩ => show 0 + 1 * i.val = i.val; omega
  | ⟨2, _⟩ => show 0 + 1 * o.val = o.val; omega
theorem ld_r0_9 (u : Fin 1) (i : Fin 64) (o : Fin 64) : View.ld x4 r0_9 (ix3 u i o) = x4 (ix3 (2 : Fin 3) i o) := by
  show x4 (r0_9.idx (ix3 u i o)) = x4 (ix3 (2 : Fin 3) i o)
  refine congrArg x4 (funext fun a => Fin.ext ?_)
  match a with
  | ⟨0, _⟩ => show 2 + 1 * u.val = 2; omega
  | ⟨1, _⟩ => show 0 + 1 * i.val = i.val; omega
  | ⟨2, _⟩ => show 0 + 1 * o.val = o.val; omega
theorem ld_r0_10 (u : Fin 1) (i : Fin 64) (o : Fin 64) : View.ld x4 r0_10 (ix3 u i o) = x4 (ix3 (1 : Fin 3) i o) := by
  show x4 (r0_10.idx (ix3 u i o)) = x4 (ix3 (1 : Fin 3) i o)
  refine congrArg x4 (funext fun a => Fin.ext ?_)
  match a with
  | ⟨0, _⟩ => show 1 + 1 * u.val = 1; omega
  | ⟨1, _⟩ => show 0 + 1 * i.val = i.val; omega
  | ⟨2, _⟩ => show 0 + 1 * o.val = o.val; omega
theorem ld_r0_11 (u : Fin 1) (i : Fin 64) (o : Fin 32) : View.ld x6 r0_11 (ix3 u i o) = x6 (ix3 (0 : Fin 3) i o) := by
  show x6 (r0_11.idx (ix3 u i o)) = x6 (ix3 (0 : Fin 3) i o)
  refine congrArg x6 (funext fun a => Fin.ext ?_)
  match a with
  | ⟨0, _⟩ => show 0 + 1 * u.val = 0; omega
  | ⟨1, _⟩ => show 0 + 1 * i.val = i.val; omega
  | ⟨2, _⟩ => show 0 + 1 * o.val = o.val; omega
theorem ld_r0_12 (u : Fin 1) (i : Fin 64) (o : Fin 32) : View.ld x6 r0_12 (ix3 u i o) = x6 (ix3 (2 : Fin 3) i o) := by
  show x6 (r0_12.idx (ix3 u i o)) = x6 (ix3 (2 : Fin 3) i o)
  refine congrArg x6 (funext fun a => Fin.ext ?_)
  match a with
  | ⟨0, _⟩ => show 2 + 1 * u.val = 2; omega
  | ⟨1, _⟩ => show 0 + 1 * i.val = i.val; omega
  | ⟨2, _⟩ => show 0 + 1 * o.val = o.val; omega
theorem ld_r0_13 (u : Fin 1) (i : Fin 64) (o : Fin 32) : View.ld x6 r0_13 (ix3 u i o) = x6 (ix3 (1 : Fin 3) i o) := by
  show x6 (r0_13.idx (ix3 u i o)) = x6 (ix3 (1 : Fin 3) i o)
  refine congrArg x6 (funext fun a => Fin.ext ?_)
  match a with
  | ⟨0, _⟩ => show 1 + 1 * u.val = 1; omega
  | ⟨1, _⟩ => show 0 + 1 * i.val = i.val; omega
  | ⟨2, _⟩ => show 0 + 1 * o.val = o.val; omega
theorem ld_r0_14 (u : Fin 1) (o : Fin 32) : View.ld x7 r0_14 (ix2 u o) = x7 (ix2 (0 : Fin 1) o) := by
  show x7 (r0_14.idx (ix2 u o)) = x7 (ix2 (0 : Fin 1) o)
  refine congrArg x7 (funext fun a => Fin.ext ?_)
  match a with
  | ⟨0, _⟩ => show 0 + 1 * u.val = 0; omega
  | ⟨1, _⟩ => show 0 + 1 * o.val = o.val; omega

end Loads

end Cert.KernelIdeal.KerOps

end
-- ==== Proof.ChebConsts.lean ====
/-
  The float constants the two programs spell, as the extended reals their patterns denote: `0.0`, `1.0`, `2.0`, and
  the clamp `f32(1e-12)`, of which only that it is a positive real matters.
-/
import Idealize.ShloMosaic.PureOps.Ideal
import Mathlib.Tactic.NormNum
import Mathlib.Tactic.Positivity

noncomputable section

namespace Cert.Cheb.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- The clamp `f32(1e-12)` (sign `0`, exponent `87`, fraction `834764`) denotes a positive real. -/
theorem ofBits_eps : ∃ r : ℝ, 0 < r ∧ Ideal.ofBits .f32 0x2B8CBCCC#32 = (r : EReal) := by
  refine ⟨((2 ^ 23 + 834764 : ℕ) : ℝ) * (2 : ℝ) ^ ((87 : ℤ) - 127 - 23), by positivity, ?_⟩
  simp [Ideal.ofBits, Ideal.ieee, -EReal.coe_mul]

end Cert.Cheb.Consts

end
-- ==== Proof.ChebG.lean ====
/-
  The network on the certificate's literal shapes: eight graphs of 1024 nodes, features 96 → 64 → 64 → 32. Each output
  entry `(b, n, o)` is the three-layer Chebyshev network of graph `b` — its adjacency `A[b]`, its node features `X[b]`
  — with the shared weights, read at node `n` and output feature `o`. `GRef` composes the layers as the recurrence
  states them, `GKer` re-associated; on real inputs they are one array.
-/
import proofs.«126414_g3504693314081_cont_8to1_b_212_23_alg».proof.Proof.ChebSpec
import proofs.«126414_g3504693314081_cont_8to1_b_212_23_alg».proof.Proof.ChebConsts
import Idealize.ShloMosaic.Lib.ValueIdx

noncomputable section

namespace Cert.Cheb

open Idealize.ShloMosaic Idealize.ShloMosaic.ValueIdx

/-- The clamp under the inverse square root, `f32(1e-12)`. -/
abbrev epsE : EReal := Ideal.ofBits .f32 0x2B8CBCCC#32
/-- The factor `2.0` of the recurrence. -/
abbrev twoE : EReal := Ideal.ofBits .f32 0x40000000#32

abbrev ShA : Shape := ⟨3, ![8, 1024, 1024]⟩
abbrev ShX : Shape := ⟨3, ![8, 1024, 96]⟩
abbrev ShW1 : Shape := ⟨3, ![3, 96, 64]⟩
abbrev ShW2 : Shape := ⟨3, ![3, 64, 64]⟩
abbrev ShW3 : Shape := ⟨3, ![3, 64, 32]⟩
abbrev Sh64 : Shape := ⟨1, ![64]⟩
abbrev Sh32 : Shape := ⟨1, ![32]⟩
abbrev ShOut : Shape := ⟨3, ![8, 1024, 32]⟩

section
variable (A : ShA.Idx → EReal) (X : ShX.Idx → EReal) (W1 : ShW1.Idx → EReal) (b1 : Sh64.Idx → EReal)
  (W2 : ShW2.Idx → EReal) (b2 : Sh64.Idx → EReal) (W3 : ShW3.Idx → EReal) (b3 : Sh32.Idx → EReal)

/-- Entry `(b, n, o)` of the network with the layers as the recurrence states them. -/
def GRefAt (b : Fin 8) (n : Fin 1024) (o : Fin 32) : EReal :=
  netRef epsE twoE (fun n m : Fin 1024 => A (ix3 b n m)) (fun (n : Fin 1024) (i : Fin 96) => X (ix3 b n i))
    (fun (k : Fin 3) (i : Fin 96) (o : Fin 64) => W1 (ix3 k i o)) (fun o : Fin 64 => b1 (ix1 o))
    (fun (k : Fin 3) (i : Fin 64) (o : Fin 64) => W2 (ix3 k i o)) (fun o : Fin 64 => b2 (ix1 o))
    (fun (k : Fin 3) (i : Fin 64) (o : Fin 32) => W3 (ix3 k i o)) (fun o : Fin 32 => b3 (ix1 o)) n o

/-- Entry `(b, n, o)` of the network with the layers re-associated. -/
def GKerAt (b : Fin 8) (n : Fin 1024) (o : Fin 32) : EReal :=
  netKer epsE twoE (fun n m : Fin 1024 => A (ix3 b n m)) (fun (n : Fin 1024) (i : Fin 96) => X (ix3 b n i))
    (fun (k : Fin 3) (i : Fin 96) (o : Fin 64) => W1 (ix3 k i o)) (fun o : Fin 64 => b1 (ix1 o))
    (fun (k : Fin 3) (i : Fin 64) (o : Fin 64) => W2 (ix3 k i o)) (fun o : Fin 64 => b2 (ix1 o))
    (fun (k : Fin 3) (i : Fin 64) (o : Fin 32) => W3 (ix3 k i o)) (fun o : Fin 32 => b3 (ix1 o)) n o

/-- The whole output array, recurrence form. -/
def GRef : ShOut.Idx → EReal := fun j => GRefAt A X W1 b1 W2 b2 W3 b3 (j 0) (j 1) (j 2)

/-- The whole output array, re-associated form. -/
def GKer : ShOut.Idx → EReal := fun j => GKerAt A X W1 b1 W2 b2 W3 b3 (j 0) (j 1) (j 2)

theorem GRef_apply (b : Fin 8) (n : Fin 1024) (o : Fin 32) :
    GRef A X W1 b1 W2 b2 W3 b3 (ix3 b n o) = GRefAt A X W1 b1 W2 b2 W3 b3 b n o := rfl

theorem GKer_apply (b : Fin 8) (n : Fin 1024) (o : Fin 32) :
    GKer A X W1 b1 W2 b2 W3 b3 (ix3 b n o) = GKerAt A X W1 b1 W2 b2 W3 b3 b n o := rfl

end

/-- On real inputs the re-associated array is the recurrence's: `netKer_eq_netRef` graph by graph, the clamp a positive
    real and the factor the real `2`. -/
theorem GKer_eq_GRef {A : ShA.Idx → EReal} {X : ShX.Idx → EReal} {W1 : ShW1.Idx → EReal} {b1 : Sh64.Idx → EReal}
    {W2 : ShW2.Idx → EReal} {b2 : Sh64.Idx → EReal} {W3 : ShW3.Idx → EReal} {b3 : Sh32.Idx → EReal}
    (hA : ∀ i, IsR (A i)) (hX : ∀ i, IsR (X i)) (hW1 : ∀ i, IsR (W1 i)) (hb1 : ∀ i, IsR (b1 i))
    (hW2 : ∀ i, IsR (W2 i)) (hb2 : ∀ i, IsR (b2 i)) (hW3 : ∀ i, IsR (W3 i)) (hb3 : ∀ i, IsR (b3 i)) :
    GKer A X W1 b1 W2 b2 W3 b3 = GRef A X W1 b1 W2 b2 W3 b3 := by
  obtain ⟨eps, heps, he⟩ := Consts.ofBits_eps
  funext j
  unfold GKer GRef GKerAt GRefAt epsE twoE
  rw [he, Consts.ofBits_two]
  exact congrFun (congrFun (netKer_eq_netRef heps (fun _ _ => hA _) (fun _ _ => hX _) (fun _ _ _ => hW1 _) (fun _ => hb1 _)
    (fun _ _ _ => hW2 _) (fun _ => hb2 _) (fun _ _ _ => hW3 _) (fun _ => hb3 _)) (j 1)) (j 2)

end Cert.Cheb

end
-- ==== Proof.KerLap.lean ====
/-
  The kernel's scaled Laplacian, graph by graph: the payloads that build `L` from a loaded adjacency block are, entry by
  entry, `lap` of that block — the diagonal masked to zero, the row sums, the clamped inverse square root selected where
  the row sum is positive, and the product `((0 - d n) · a' n m) · d m`.
-/
import proofs.«126414_g3504693314081_cont_8to1_b_212_23_alg».proof.Proof.KerOps
import proofs.«126414_g3504693314081_cont_8to1_b_212_23_alg».proof.Proof.ChebG

set_option maxRecDepth 16384

noncomputable section

namespace Cert.KernelIdeal.KerLap

open Cert.KernelIdeal Cert.KernelIdeal.Gen Cert.KernelIdeal.KerOps Idealize.ShloMosaic Idealize.ShloMosaic.ValueIdx Cert.Cheb

/-! ## The four steps, each over a variable operand -/

/-- The adjacency table of a loaded `[1, 1024, 1024]` slab. -/
abbrev adj (v : Vec Ideal S1x1024x1024 .f32) : Fin 1024 → Fin 1024 → EReal := fun n m => v (ix3 (0 : Fin 1) n m)

/-- The slab cast to a matrix with its diagonal replaced by zero. -/
def masked (v : Vec Ideal S1x1024x1024 .f32) : FVec Ideal S1024x1024 .f32 :=
  select k0_pay3 (broadcast S1024x1024 (Scalar.ofBits (F := Ideal) .f32 0x00000000#32))
    (shapeCast S1024x1024 v shapeCasts_S1x1024x1024_S1024x1024)

/-- The row sums of a matrix, kept as a `[1024, 1]` column. -/
def degCol (src : FVec Ideal S1024x1024 .f32) : FVec Ideal S1024x1 .f32 :=
  shapeCast S1024x1 (multiReduction .add [1] S1024 src 0x00000000#32 reduces_S1024x1024_S1024 (.inl rfl) rfl)
    shapeCasts_S1024_S1024x1

/-- The column `D^(-1/2)`: where the row sum is positive the inverse square root of the clamped row sum, else zero. -/
def dCol (src : FVec Ideal S1024x1024 .f32) : FVec Ideal S1024x1 .f32 :=
  select (cmpf .ogt (degCol src) (broadcast S1024x1 (Scalar.ofBits (F := Ideal) .f32 0x00000000#32)))
    (rsqrt (maximumf (degCol src) (broadcast S1024x1 (Scalar.ofBits (F := Ideal) .f32 0x2B8CBCCC#32))))
    (broadcast S1024x1 (Scalar.ofBits (F := Ideal) .f32 0x00000000#32))

/-- The left product `(0 - d) · a'`, the column broadcast along its rows. -/
def leftProd (src : FVec Ideal S1024x1024 .f32) (d : FVec Ideal S1024x1 .f32) : FVec Ideal S1024x1024 .f32 :=
  mulf (broadcastTo S1024x1024 (subf (broadcast S1024x1 (Scalar.ofBits (F := Ideal) .f32 0x00000000#32)) d)
    broadcasts_S1024x1_S1024x1024) src

/-- The right product `· d'`, the column laid as a row and broadcast down the columns, then the format change. -/
def rightProd (d : FVec Ideal S1024x1 .f32) (l : FVec Ideal S1024x1024 .f32) : FVec Ideal S1024x1024 .bf16 :=
  truncf .bf16 (mulf l (broadcastTo S1024x1024 (shapeCast S1x1024 d shapeCasts_S1024x1_S1x1024)
    broadcasts_S1x1024_S1024x1024)) bitsLt_bf16_f32

/-- The masked slab at `(n, m)` is the adjacency off the diagonal, zero on it. -/
theorem masked_apply (v : Vec Ideal S1x1024x1024 .f32) (n m : Fin 1024) :
    masked v (ix2 n m) = offDiag (adj v) n m := by
  unfold masked
  rw [select_apply, diag_apply, broadcast_apply, shapeCast_1ab_ab_apply]
  unfold offDiag
  split
  · rw [select_one]; exact Ideal.ofBits_zero_f32
  · rw [select_zero]

/-- The kept row sum at `(n, ·)` is the degree of node `n`. -/
theorem degCol_apply (src : FVec Ideal S1024x1024 .f32) (a : Fin 1024 → Fin 1024 → EReal)
    (h : ∀ n m, src (ix2 n m) = offDiag a n m) (n : Fin 1024) (u : Fin 1) :
    degCol src (ix2 n u) = degree a n := by
  unfold degCol
  rw [shapeCast_a_a1_apply, rowSum_apply]
  unfold degree
  exact Finset.sum_congr rfl fun m _ => h n m

/-- The column at `(n, ·)` is `D^(-1/2)` at node `n`. -/
theorem dCol_apply (src : FVec Ideal S1024x1024 .f32) (a : Fin 1024 → Fin 1024 → EReal)
    (h : ∀ n m, src (ix2 n m) = offDiag a n m) (n : Fin 1024) (u : Fin 1) :
    dCol src (ix2 n u) = dinv epsE a n := by
  unfold dCol
  rw [select_apply, cmpf_apply, broadcast_apply]
  show Scalar.select _ (FloatOps.rsqrt (max (degCol src (ix2 n u)) _)) _ = _
  rw [degCol_apply src a h n u, select_ogt, Ideal.rsqrt_def]
  unfold dinv
  show (if Ideal.ofBits .f32 0x00000000#32 < degree a n then _ else Ideal.ofBits .f32 0x00000000#32) = _
  rw [Ideal.ofBits_zero_f32, broadcast_apply]
  rfl

/-- Both products at `(n, m)`: `((0 - d n) · a' n m) · d m`, which is the scaled Laplacian. -/
theorem rightProd_leftProd_apply (src : FVec Ideal S1024x1024 .f32) (d : FVec Ideal S1024x1 .f32)
    (a : Fin 1024 → Fin 1024 → EReal) (h : ∀ n m, src (ix2 n m) = offDiag a n m)
    (hd : ∀ n u, d (ix2 n u) = dinv epsE a n) (n m : Fin 1024) :
    rightProd d (leftProd src d) (ix2 n m) = lap epsE a n m := by
  unfold rightProd leftProd
  rw [truncf_apply, mulf_apply, mulf_apply, broadcastTo_a1_ab_apply, subf_apply, broadcast_apply,
    broadcastTo_1b_ab_apply, shapeCast_a1_1a_apply, hd, hd, h]
  show ((Ideal.ofBits .f32 0x00000000#32 - _) * _) * _ = _
  rw [Ideal.ofBits_zero_f32]
  exact lap_eq_zero_sub epsE a n m

/-! ## The payloads -/

/-- Graph 0's Laplacian payload (one payload: mask, row sum, inverse square root, both products). -/
theorem pay4_apply (v3 : Vec Ideal S1x1024x1024 .f32) (n m : Fin 1024) :
    k0_pay4 v3 (ix2 n m) = lap epsE (fun n m : Fin 1024 => v3 (ix3 (0 : Fin 1) n m)) n m := by
  have e : k0_pay4 v3 = rightProd (dCol (masked v3)) (leftProd (masked v3) (dCol (masked v3))) := rfl
  rw [e]
  exact rightProd_leftProd_apply (masked v3) (dCol (masked v3)) (adj v3) (masked_apply v3)
    (dCol_apply (masked v3) (adj v3) (masked_apply v3)) n m

/-- Graph 1's Laplacian, cut into four payloads (the masked adjacency, `D^(-1/2)` as a column, the left product, the right one). -/
theorem pay8_apply (v24 : Vec Ideal S1x1024x1024 .f32) (n m : Fin 1024) :
    k0_pay8 (k0_pay6 v24) (k0_pay7 v24) (ix2 n m) = lap epsE (fun n m : Fin 1024 => v24 (ix3 (0 : Fin 1) n m)) n m := by
  have e : k0_pay8 (k0_pay6 v24) (k0_pay7 v24)
      = rightProd (dCol (masked v24)) (leftProd (masked v24) (dCol (masked v24))) := rfl
  rw [e]
  exact rightProd_leftProd_apply (masked v24) (dCol (masked v24)) (adj v24) (masked_apply v24)
    (dCol_apply (masked v24) (adj v24) (masked_apply v24)) n m

end Cert.KernelIdeal.KerLap

end
-- ==== Proof.KerLay0.lean ====
/-
  Graph 0's three layers in the kernel body, payload by payload, read at an entry: each is the re-associated Chebyshev
  layer `chebKer` of the tables its operands hold, the rectifier between layers, and the hop `L·h` the next layer reuses.
-/
import proofs.«126414_g3504693314081_cont_8to1_b_212_23_alg».proof.Proof.KerOps
import proofs.«126414_g3504693314081_cont_8to1_b_212_23_alg».proof.Proof.ChebG

set_option maxRecDepth 16384

noncomputable section

namespace Cert.KernelIdeal.KerLay0

open Cert.KernelIdeal Cert.KernelIdeal.Gen Cert.KernelIdeal.KerOps Idealize.ShloMosaic Idealize.ShloMosaic.ValueIdx Cert.Cheb

/-! ## Small readings: a unit axis dropped, the bias row broadcast, the rectifier -/

/-- A `[1, a, b]` block with its unit axis dropped, as a table. -/
theorem tab_drop {a b : ℕ} (v : (⟨3, ![1, a, b]⟩ : Shape).Idx → EReal)
    (h : (⟨3, ![1, a, b]⟩ : Shape).ShapeCasts ⟨2, ![a, b]⟩) :
    tab (shapeCast ⟨2, ![a, b]⟩ v h) = fun i j => v (ix3 (0 : Fin 1) i j) := by
  funext i j
  exact shapeCast_1ab_ab_apply v h i j

/-- The bias: a `[1, b]` row, flattened, put back as a row and broadcast over `a` rows, reads the row at the column. -/
theorem bias_apply {a b : ℕ} (v : (⟨2, ![1, b]⟩ : Shape).Idx → EReal)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (n : Fin a) (o : Fin b) :
    broadcastTo ⟨2, ![a, b]⟩ (shapeCast ⟨2, ![1, b]⟩ (shapeCast ⟨1, ![b]⟩ v h1) h2) h3 (ix2 n o) = v (ix2 (0 : Fin 1) o) := by
  rw [broadcastTo_1b_ab_apply, shapeCast_a_1a_apply, shapeCast_1a_a_apply]

variable (L : FVec Ideal S1024x1024 .bf16)
  (x1 : Vec Ideal S2x1024x96 .f32) (x2 : Vec Ideal S3x96x64 .f32) (x3 : Vec Ideal S1x64 .f32)
  (x4 : Vec Ideal S3x64x64 .f32) (x5 : Vec Ideal S1x64 .f32) (x6 : Vec Ideal S3x64x32 .f32) (x7 : Vec Ideal S1x32 .f32)

/-- The rectifier. -/
theorem pay14_apply (h : FVec Ideal S1024x64 .f32) (n : Fin 1024) (o : Fin 64) : k0_pay14 h (ix2 n o) = relu (h (ix2 n o)) := by
  unfold k0_pay14 relu
  show max (h (ix2 n o)) (Ideal.ofBits .f32 0x00000000#32) = max (h (ix2 n o)) 0
  rw [Ideal.ofBits_zero_f32]

/-- The rectified features as a table. -/
theorem tab_pay14 (h : FVec Ideal S1024x64 .f32) : tab (k0_pay14 h) = fun (n : Fin 1024) (i : Fin 64) => relu (h (ix2 n i)) := by
  funext n i
  exact pay14_apply h n i

/-- The hop of the rectified features. -/
theorem pay15_apply (h : FVec Ideal S1024x64 .f32) (n : Fin 1024) (o : Fin 64) :
    k0_pay15 L h (ix2 n o) = mm (tab L) (fun (n : Fin 1024) (i : Fin 64) => relu (h (ix2 n i))) n o := by
  unfold k0_pay15
  refine (matmul_1024x1024_1024x64 L (k0_pay14 h) n o).trans ?_
  rw [tab_pay14]

/-- The difference `W 0 - W 2` of layer 2's weights. -/
theorem pay13_apply (i o : Fin 64) :
    k0_pay13 (View.ld x4 r0_8) (View.ld x4 r0_9) (ix2 i o) = x4 (ix3 (0 : Fin 3) i o) - x4 (ix3 (2 : Fin 3) i o) := by
  unfold k0_pay13
  refine (subf_apply _ _ _).trans ?_
  rw [shapeCast_1ab_ab_apply, shapeCast_1ab_ab_apply, ld_r0_8, ld_r0_9]

/-- The stored value: the result with a unit axis in front. -/
theorem pay1_apply (v : FVec Ideal S1024x32 .f32) (u : Fin 1) (n : Fin 1024) (o : Fin 32) : k0_pay1 v (ix3 u n o) = v (ix2 n o) := by
  unfold k0_pay1
  exact shapeCast_ab_1ab_apply v _ u n o

/-! ## Products whose result is rounded to feed the next product, as tables -/

theorem tab_mm_1024x1024_1024x96 (l : FVec Ideal S1024x1024 .bf16) (r : FVec Ideal S1024x96 .bf16) :
    tab (truncf .bf16 (matmul dot_S1024x1024_S1024x96_S1024x96_1_0_0_1_n_n none l r (constant (F := Ideal) S1024x96 .f32 0x00000000#32))
      bitsLt_bf16_f32 : FVec Ideal S1024x96 .bf16) = mm (tab l) (tab r) := by
  funext n o
  exact matmul_1024x1024_1024x96 l r n o

theorem tab_mm_1024x96_96x64 (l : FVec Ideal S1024x96 .bf16) (r : FVec Ideal S96x64 .f32) :
    tab (truncf .bf16 (matmul dot_S1024x96_S96x64_S1024x64_1_0_0_1_n_n none l r (constant (F := Ideal) S1024x64 .f32 0x00000000#32))
      bitsLt_bf16_f32 : FVec Ideal S1024x64 .bf16) = mm (tab l) (tab r) := by
  funext n o
  exact matmul_1024x96_96x64 l r n o

/-! ## Layer 1 -/

/-- Graph 0's node features, rounded for the product, as a table. -/
theorem tab_x1 :
    tab (truncf .bf16 (shapeCast S1024x96 (View.ld x1 r0_2) shapeCasts_S1x1024x96_S1024x96) bitsLt_bf16_f32 : FVec Ideal S1024x96 .bf16)
      = fun (n : Fin 1024) (i : Fin 96) => x1 (ix3 (0 : Fin 2) n i) := by
  funext n i
  refine (shapeCast_1ab_ab_apply (View.ld x1 r0_2) _ n i).trans ?_
  exact ld_r0_2 x1 0 n i

theorem tab_w1_0 : tab (k0_pay10 (View.ld x2 r0_4) (View.ld x2 r0_5))
    = fun (i : Fin 96) (o : Fin 64) => x2 (ix3 (0 : Fin 3) i o) - x2 (ix3 (2 : Fin 3) i o) := by
  funext i o
  unfold k0_pay10
  refine (subf_apply _ _ _).trans ?_
  rw [shapeCast_1ab_ab_apply, shapeCast_1ab_ab_apply, ld_r0_4, ld_r0_5]

theorem tab_w1_2 : tab (shapeCast S96x64 (View.ld x2 r0_5) shapeCasts_S1x96x64_S96x64) = fun (i : Fin 96) (o : Fin 64) => x2 (ix3 (2 : Fin 3) i o) := by
  funext i o
  refine (shapeCast_1ab_ab_apply (View.ld x2 r0_5) _ i o).trans ?_
  exact ld_r0_5 x2 0 i o

theorem tab_w1_1 : tab (shapeCast S96x64 (View.ld x2 r0_6) shapeCasts_S1x96x64_S96x64) = fun (i : Fin 96) (o : Fin 64) => x2 (ix3 (1 : Fin 3) i o) := by
  funext i o
  refine (shapeCast_1ab_ab_apply (View.ld x2 r0_6) _ i o).trans ?_
  exact ld_r0_6 x2 0 i o

/-- Layer 1 before its rectifier. -/
theorem pay11_apply (n : Fin 1024) (o : Fin 64) :
    k0_pay11 L (View.ld x1 r0_2) (View.ld x2 r0_4) (View.ld x2 r0_5) (View.ld x2 r0_5) (View.ld x2 r0_6) (View.ld x3 r0_7) (ix2 n o)
      = chebKer twoE (tab L) (fun (n : Fin 1024) (i : Fin 96) => x1 (ix3 (0 : Fin 2) n i))
          (fun (k : Fin 3) (i : Fin 96) (o : Fin 64) => x2 (ix3 k i o)) (fun o : Fin 64 => x3 (ix2 (0 : Fin 1) o)) n o := by
  unfold k0_pay11 chebKer
  simp only [addf_apply, mulf_apply, broadcast_apply]
  refine congrArg₂ (· + ·) (congrArg₂ (· + ·) (congrArg₂ (· + ·) ?_ ?_) ?_) ?_
  · refine (matmul_1024x96_96x64 _ _ n o).trans ?_
    rw [tab_x1, tab_w1_0]
  · refine (matmul_1024x96_96x64 _ _ n o).trans ?_
    rw [tab_mm_1024x1024_1024x96, tab_x1, tab_w1_1]
  · refine congrArg₂ (· * ·) rfl ?_
    refine (matmul_1024x1024_1024x64 _ _ n o).trans ?_
    rw [tab_mm_1024x96_96x64, tab_mm_1024x1024_1024x96, tab_x1, tab_w1_2]
  · rw [bias_apply]
    exact ld_r0_7 x3 0 o

/-! ## Layer 2 -/

theorem tab_mm_1024x64_64x64 (l : FVec Ideal S1024x64 .bf16) (r : FVec Ideal S64x64 .f32) :
    tab (truncf .bf16 (matmul dot_S1024x64_S64x64_S1024x64_1_0_0_1_n_n none l r (constant (F := Ideal) S1024x64 .f32 0x00000000#32))
      bitsLt_bf16_f32 : FVec Ideal S1024x64 .bf16) = mm (tab l) (tab r) := by
  funext n o
  exact matmul_1024x64_64x64 l r n o

/-- The hop of the rectified features as a table. -/
theorem tab_pay15 (h : FVec Ideal S1024x64 .f32) :
    tab (k0_pay15 L h) = mm (tab L) (fun (n : Fin 1024) (i : Fin 64) => relu (h (ix2 n i))) := by
  funext n o
  exact pay15_apply L h n o

theorem tab_w2_0 : tab (k0_pay13 (View.ld x4 r0_8) (View.ld x4 r0_9))
    = fun (i : Fin 64) (o : Fin 64) => x4 (ix3 (0 : Fin 3) i o) - x4 (ix3 (2 : Fin 3) i o) := by
  funext i o
  exact pay13_apply x4 i o

theorem tab_w2_2 : tab (shapeCast S64x64 (View.ld x4 r0_9) shapeCasts_S1x64x64_S64x64) = fun (i : Fin 64) (o : Fin 64) => x4 (ix3 (2 : Fin 3) i o) := by
  funext i o
  refine (shapeCast_1ab_ab_apply (View.ld x4 r0_9) _ i o).trans ?_
  exact ld_r0_9 x4 0 i o

theorem tab_w2_1 : tab (shapeCast S64x64 (View.ld x4 r0_10) shapeCasts_S1x64x64_S64x64) = fun (i : Fin 64) (o : Fin 64) => x4 (ix3 (1 : Fin 3) i o) := by
  funext i o
  refine (shapeCast_1ab_ab_apply (View.ld x4 r0_10) _ i o).trans ?_
  exact ld_r0_10 x4 0 i o

/-- Layer 2, rectified, from layer 1's features `h` before their rectifier. -/
theorem pay16_apply (h : FVec Ideal S1024x64 .f32) (n : Fin 1024) (o : Fin 64) :
    k0_pay16 L (k0_pay13 (View.ld x4 r0_8) (View.ld x4 r0_9)) (k0_pay14 h) (k0_pay15 L h) (View.ld x4 r0_9) (View.ld x4 r0_10) (View.ld x5 r0_7) (ix2 n o)
      = relu (chebKer twoE (tab L) (fun (n : Fin 1024) (i : Fin 64) => relu (h (ix2 n i)))
          (fun (k : Fin 3) (i : Fin 64) (o : Fin 64) => x4 (ix3 k i o)) (fun o : Fin 64 => x5 (ix2 (0 : Fin 1) o)) n o) := by
  unfold k0_pay16
  simp only [maximumf_apply, addf_apply, mulf_apply, broadcast_apply]
  show max _ _ = max (chebKer _ _ _ _ _ n o) 0
  unfold chebKer
  refine congrArg₂ max (congrArg₂ (· + ·) (congrArg₂ (· + ·) (congrArg₂ (· + ·) ?_ ?_) ?_) ?_) Ideal.ofBits_zero_f32
  · refine (matmul_1024x64_64x64 _ _ n o).trans ?_
    rw [tab_pay14, tab_w2_0]
  · refine (matmul_1024x64_64x64 _ _ n o).trans ?_
    rw [tab_pay15, tab_w2_1]
  · refine congrArg₂ (· * ·) rfl ?_
    refine (matmul_1024x1024_1024x64 _ _ n o).trans ?_
    rw [tab_mm_1024x64_64x64, tab_pay15, tab_w2_2]
  · rw [bias_apply]
    exact ld_r0_7 x5 0 o

/-! ## Layer 3 -/

theorem tab_mm_1024x1024_1024x64 (l : FVec Ideal S1024x1024 .bf16) (r : FVec Ideal S1024x64 .bf16) :
    tab (truncf .bf16 (matmul dot_S1024x1024_S1024x64_S1024x64_1_0_0_1_n_n none l r (constant (F := Ideal) S1024x64 .f32 0x00000000#32))
      bitsLt_bf16_f32 : FVec Ideal S1024x64 .bf16) = mm (tab l) (tab r) := by
  funext n o
  exact matmul_1024x1024_1024x64 l r n o

theorem tab_mm_1024x64_64x32 (l : FVec Ideal S1024x64 .bf16) (r : FVec Ideal S64x32 .f32) :
    tab (truncf .bf16 (matmul dot_S1024x64_S64x32_S1024x32_1_0_0_1_n_n none l r (constant (F := Ideal) S1024x32 .f32 0x00000000#32))
      bitsLt_bf16_f32 : FVec Ideal S1024x32 .bf16) = mm (tab l) (tab r) := by
  funext n o
  exact matmul_1024x64_64x32 l r n o

/-- Rounding for the product leaves a table of ideal values as it is. -/
theorem tab_trunc (h2 : FVec Ideal S1024x64 .f32) : tab (truncf .bf16 h2 bitsLt_bf16_f32 : FVec Ideal S1024x64 .bf16) = tab h2 := rfl

theorem tab_w3_0 : tab (k0_pay18 (View.ld x6 r0_11) (View.ld x6 r0_12))
    = fun (i : Fin 64) (o : Fin 32) => x6 (ix3 (0 : Fin 3) i o) - x6 (ix3 (2 : Fin 3) i o) := by
  funext i o
  unfold k0_pay18
  refine (subf_apply _ _ _).trans ?_
  rw [shapeCast_1ab_ab_apply, shapeCast_1ab_ab_apply, ld_r0_11, ld_r0_12]

theorem tab_w3_2 : tab (shapeCast S64x32 (View.ld x6 r0_12) shapeCasts_S1x64x32_S64x32) = fun (i : Fin 64) (o : Fin 32) => x6 (ix3 (2 : Fin 3) i o) := by
  funext i o
  refine (shapeCast_1ab_ab_apply (View.ld x6 r0_12) _ i o).trans ?_
  exact ld_r0_12 x6 0 i o

theorem tab_w3_1 : tab (shapeCast S64x32 (View.ld x6 r0_13) shapeCasts_S1x64x32_S64x32) = fun (i : Fin 64) (o : Fin 32) => x6 (ix3 (1 : Fin 3) i o) := by
  funext i o
  refine (shapeCast_1ab_ab_apply (View.ld x6 r0_13) _ i o).trans ?_
  exact ld_r0_13 x6 0 i o

/-- Layer 3, from layer 2's rectified features `h2`. -/
theorem pay19_apply (h2 : FVec Ideal S1024x64 .f32) (n : Fin 1024) (o : Fin 32) :
    k0_pay19 L h2 (View.ld x6 r0_11) (View.ld x6 r0_12) (View.ld x6 r0_12) (View.ld x6 r0_13) (View.ld x7 r0_14) (ix2 n o)
      = chebKer twoE (tab L) (tab h2) (fun (k : Fin 3) (i : Fin 64) (o : Fin 32) => x6 (ix3 k i o))
          (fun o : Fin 32 => x7 (ix2 (0 : Fin 1) o)) n o := by
  unfold k0_pay19 chebKer
  simp only [addf_apply, mulf_apply, broadcast_apply]
  refine congrArg₂ (· + ·) (congrArg₂ (· + ·) (congrArg₂ (· + ·) ?_ ?_) ?_) ?_
  · refine (matmul_1024x64_64x32 _ _ n o).trans ?_
    rw [tab_trunc, tab_w3_0]
  · refine (matmul_1024x64_64x32 _ _ n o).trans ?_
    rw [tab_mm_1024x1024_1024x64, tab_trunc, tab_w3_1]
  · refine congrArg₂ (· * ·) rfl ?_
    refine (matmul_1024x1024_1024x32 _ _ n o).trans ?_
    rw [tab_mm_1024x64_64x32, tab_mm_1024x1024_1024x64, tab_trunc, tab_w3_2]
  · rw [bias_apply]
    exact ld_r0_14 x7 0 o

end Cert.KernelIdeal.KerLay0

end
-- ==== Proof.KerLay1.lean ====
/-
  Graph 1's three layers in the kernel body, payload by payload, read at an entry. The body cuts them differently from
  graph 0's: layer 1 arrives rectified, layer 2 first without its bias, and layer 3 takes the hop `L·h` as an operand.
-/
import proofs.«126414_g3504693314081_cont_8to1_b_212_23_alg».proof.Proof.KerOps
import proofs.«126414_g3504693314081_cont_8to1_b_212_23_alg».proof.Proof.ChebG

set_option maxRecDepth 16384

noncomputable section

namespace Cert.KernelIdeal.KerLay1

open Cert.KernelIdeal Cert.KernelIdeal.Gen Cert.KernelIdeal.KerOps Idealize.ShloMosaic Idealize.ShloMosaic.ValueIdx Cert.Cheb

variable (L : FVec Ideal S1024x1024 .bf16)
  (x1 : Vec Ideal S2x1024x96 .f32) (x2 : Vec Ideal S3x96x64 .f32) (x3 : Vec Ideal S1x64 .f32)
  (x4 : Vec Ideal S3x64x64 .f32) (x5 : Vec Ideal S1x64 .f32) (x6 : Vec Ideal S3x64x32 .f32) (x7 : Vec Ideal S1x32 .f32)

/-! ## Rounding, the rectifier's zero, the bias row -/

/-- Rounding to the narrower format is the identity on the extended reals. -/
theorem trunc_apply {s : Shape} (a : FVec Ideal s .f32) (i : s.Idx) :
    (truncf .bf16 a bitsLt_bf16_f32 : FVec Ideal s .bf16) i = a i := rfl

/-- The splat of the word `0` reads the extended real `0` everywhere. -/
theorem zero_apply {s : Shape} (i : s.Idx) :
    (broadcast s (Scalar.ofBits (F := Ideal) .f32 0x00000000#32) : FVec Ideal s .f32) i = 0 := Ideal.ofBits_zero_f32

/-- A `[1, 64]` bias row, flattened, restored and spread over the 1024 rows, reads its entry `o` in every row. -/
theorem bias64_apply (v : Vec Ideal S1x64 .f32) (n : Fin 1024) (o : Fin 64) :
    broadcastTo S1024x64 (shapeCast S1x64 (shapeCast S64 v shapeCasts_S1x64_S64) shapeCasts_S64_S1x64) broadcasts_S1x64_S1024x64 (ix2 n o)
      = v (ix2 (0 : Fin 1) o) := by
  refine (broadcastTo_1b_ab_apply _ _ n o).trans ?_
  refine (shapeCast_a_1a_apply _ _ 0 o).trans ?_
  exact shapeCast_1a_a_apply _ _ o

/-- The same for a `[1, 32]` row. -/
theorem bias32_apply (v : Vec Ideal S1x32 .f32) (n : Fin 1024) (o : Fin 32) :
    broadcastTo S1024x32 (shapeCast S1x32 (shapeCast S32 v shapeCasts_S1x32_S32) shapeCasts_S32_S1x32) broadcasts_S1x32_S1024x32 (ix2 n o)
      = v (ix2 (0 : Fin 1) o) := by
  refine (broadcastTo_1b_ab_apply _ _ n o).trans ?_
  refine (shapeCast_a_1a_apply _ _ 0 o).trans ?_
  exact shapeCast_1a_a_apply _ _ o

/-! ## A rounded product, used as an operand of the next product, as a table -/

theorem tab_mm_1024x1024_1024x96 {φ₁ φ₂ : FTy} (l : FVec Ideal S1024x1024 φ₁) (r : FVec Ideal S1024x96 φ₂) :
    tab (truncf .bf16 (matmul dot_S1024x1024_S1024x96_S1024x96_1_0_0_1_n_n none l r (constant (F := Ideal) S1024x96 .f32 0x00000000#32)) bitsLt_bf16_f32)
      = mm (tab l) (tab r) :=
  funext fun n => funext fun o => (trunc_apply _ _).trans (matmul_1024x1024_1024x96 l r n o)

theorem tab_mm_1024x96_96x64 {φ₁ φ₂ : FTy} (l : FVec Ideal S1024x96 φ₁) (r : FVec Ideal S96x64 φ₂) :
    tab (truncf .bf16 (matmul dot_S1024x96_S96x64_S1024x64_1_0_0_1_n_n none l r (constant (F := Ideal) S1024x64 .f32 0x00000000#32)) bitsLt_bf16_f32)
      = mm (tab l) (tab r) :=
  funext fun n => funext fun o => (trunc_apply _ _).trans (matmul_1024x96_96x64 l r n o)

theorem tab_mm_1024x1024_1024x64 {φ₁ φ₂ : FTy} (l : FVec Ideal S1024x1024 φ₁) (r : FVec Ideal S1024x64 φ₂) :
    tab (truncf .bf16 (matmul dot_S1024x1024_S1024x64_S1024x64_1_0_0_1_n_n none l r (constant (F := Ideal) S1024x64 .f32 0x00000000#32)) bitsLt_bf16_f32)
      = mm (tab l) (tab r) :=
  funext fun n => funext fun o => (trunc_apply _ _).trans (matmul_1024x1024_1024x64 l r n o)

theorem tab_mm_1024x64_64x64 {φ₁ φ₂ : FTy} (l : FVec Ideal S1024x64 φ₁) (r : FVec Ideal S64x64 φ₂) :
    tab (truncf .bf16 (matmul dot_S1024x64_S64x64_S1024x64_1_0_0_1_n_n none l r (constant (F := Ideal) S1024x64 .f32 0x00000000#32)) bitsLt_bf16_f32)
      = mm (tab l) (tab r) :=
  funext fun n => funext fun o => (trunc_apply _ _).trans (matmul_1024x64_64x64 l r n o)

theorem tab_mm_1024x64_64x32 {φ₁ φ₂ : FTy} (l : FVec Ideal S1024x64 φ₁) (r : FVec Ideal S64x32 φ₂) :
    tab (truncf .bf16 (matmul dot_S1024x64_S64x32_S1024x32_1_0_0_1_n_n none l r (constant (F := Ideal) S1024x32 .f32 0x00000000#32)) bitsLt_bf16_f32)
      = mm (tab l) (tab r) :=
  funext fun n => funext fun o => (trunc_apply _ _).trans (matmul_1024x64_64x32 l r n o)

/-! ## Layer 1 -/

/-- Graph 1's node features: slab 1 of the feature block. -/
theorem pay9_apply (n : Fin 1024) (i : Fin 96) : k0_pay9 (View.ld x1 r0_3) (ix2 n i) = x1 (ix3 (1 : Fin 2) n i) := by
  unfold k0_pay9
  exact (shapeCast_1ab_ab_apply _ _ n i).trans (ld_r0_3 x1 0 n i)

/-- The difference `W 0 - W 2` of layer 1's weights. -/
theorem pay10_apply (i : Fin 96) (o : Fin 64) :
    k0_pay10 (View.ld x2 r0_4) (View.ld x2 r0_5) (ix2 i o) = x2 (ix3 (0 : Fin 3) i o) - x2 (ix3 (2 : Fin 3) i o) := by
  unfold k0_pay10
  refine (subf_apply _ _ _).trans ?_
  exact congrArg₂ (· - ·) ((shapeCast_1ab_ab_apply _ _ i o).trans (ld_r0_4 x2 0 i o))
    ((shapeCast_1ab_ab_apply _ _ i o).trans (ld_r0_5 x2 0 i o))

/-- The rounded features as a table. -/
theorem tab_feat1 : tab (truncf .bf16 (k0_pay9 (View.ld x1 r0_3)) bitsLt_bf16_f32)
    = fun (n : Fin 1024) (i : Fin 96) => x1 (ix3 (1 : Fin 2) n i) :=
  funext fun n => funext fun i => (trunc_apply _ _).trans (pay9_apply x1 n i)

/-- The weight difference as a table. -/
theorem tab_wd1 : tab (k0_pay10 (View.ld x2 r0_4) (View.ld x2 r0_5))
    = fun (i : Fin 96) (o : Fin 64) => x2 (ix3 (0 : Fin 3) i o) - x2 (ix3 (2 : Fin 3) i o) :=
  funext fun i => funext fun o => pay10_apply x2 i o

/-- Slab 2 of layer 1's weights as a table. -/
theorem tab_w1_2 : tab (shapeCast S96x64 (View.ld x2 r0_5) shapeCasts_S1x96x64_S96x64)
    = fun (i : Fin 96) (o : Fin 64) => x2 (ix3 (2 : Fin 3) i o) :=
  funext fun i => funext fun o => (shapeCast_1ab_ab_apply _ _ i o).trans (ld_r0_5 x2 0 i o)

/-- Slab 1 of layer 1's weights as a table. -/
theorem tab_w1_1 : tab (shapeCast S96x64 (View.ld x2 r0_6) shapeCasts_S1x96x64_S96x64)
    = fun (i : Fin 96) (o : Fin 64) => x2 (ix3 (1 : Fin 3) i o) :=
  funext fun i => funext fun o => (shapeCast_1ab_ab_apply _ _ i o).trans (ld_r0_6 x2 0 i o)

/-- The hop `L·h` of layer 1 as a table. -/
theorem tab_hop1 :
    tab (truncf .bf16 (matmul dot_S1024x1024_S1024x96_S1024x96_1_0_0_1_n_n none L
      (truncf .bf16 (k0_pay9 (View.ld x1 r0_3)) bitsLt_bf16_f32) (constant (F := Ideal) S1024x96 .f32 0x00000000#32)) bitsLt_bf16_f32)
      = mm (tab L) (fun (n : Fin 1024) (i : Fin 96) => x1 (ix3 (1 : Fin 2) n i)) :=
  (tab_mm_1024x1024_1024x96 L _).trans (congrArg (mm (tab L)) (tab_feat1 x1))

/-- Layer 1, rectified. -/
theorem pay12_apply (n : Fin 1024) (o : Fin 64) :
    k0_pay12 L (k0_pay9 (View.ld x1 r0_3)) (k0_pay10 (View.ld x2 r0_4) (View.ld x2 r0_5)) (View.ld x2 r0_5) (View.ld x2 r0_6) (View.ld x3 r0_7) (ix2 n o)
      = relu (chebKer twoE (tab L) (fun (n : Fin 1024) (i : Fin 96) => x1 (ix3 (1 : Fin 2) n i))
          (fun (k : Fin 3) (i : Fin 96) (o : Fin 64) => x2 (ix3 k i o)) (fun o : Fin 64 => x3 (ix2 (0 : Fin 1) o)) n o) := by
  unfold k0_pay12 chebKer relu
  refine (maximumf_apply _ _ _).trans ?_
  refine congrArg₂ max ?_ (zero_apply _)
  refine (addf_apply _ _ _).trans ?_
  refine congrArg₂ (· + ·) ?_ ((bias64_apply _ n o).trans (ld_r0_7 x3 0 o))
  refine (addf_apply _ _ _).trans ?_
  refine congrArg₂ (· + ·) ?_ ?_
  · refine (addf_apply _ _ _).trans ?_
    refine congrArg₂ (· + ·) ?_ ?_
    · -- h·(W 0 - W 2)
      refine (matmul_1024x96_96x64 _ _ n o).trans ?_
      exact congrArg₂ (fun A B => mm A B n o) (tab_feat1 x1) (tab_wd1 x2)
    · -- (L·h)·W 1
      refine (matmul_1024x96_96x64 _ _ n o).trans ?_
      exact congrArg₂ (fun A B => mm A B n o) (tab_hop1 L x1) (tab_w1_1 x2)
  · -- 2·L·((L·h)·W 2)
    refine (mulf_apply _ _ _).trans ?_
    refine congrArg (twoE * ·) ?_
    refine (matmul_1024x1024_1024x64 _ _ n o).trans ?_
    refine congrArg (fun B => mm (tab L) B n o) ?_
    exact (tab_mm_1024x96_96x64 _ _).trans (congrArg₂ mm (tab_hop1 L x1) (tab_w1_2 x2))

/-! ## Layer 2 -/

/-- The difference `W 0 - W 2` of layer 2's weights as a table. -/
theorem tab_wd2 : tab (k0_pay13 (View.ld x4 r0_8) (View.ld x4 r0_9))
    = fun (i : Fin 64) (o : Fin 64) => x4 (ix3 (0 : Fin 3) i o) - x4 (ix3 (2 : Fin 3) i o) := by
  funext i o
  unfold k0_pay13
  refine (subf_apply _ _ _).trans ?_
  exact congrArg₂ (· - ·) ((shapeCast_1ab_ab_apply _ _ i o).trans (ld_r0_8 x4 0 i o))
    ((shapeCast_1ab_ab_apply _ _ i o).trans (ld_r0_9 x4 0 i o))

/-- Slab 2 of layer 2's weights as a table. -/
theorem tab_w2_2 : tab (shapeCast S64x64 (View.ld x4 r0_9) shapeCasts_S1x64x64_S64x64)
    = fun (i : Fin 64) (o : Fin 64) => x4 (ix3 (2 : Fin 3) i o) :=
  funext fun i => funext fun o => (shapeCast_1ab_ab_apply _ _ i o).trans (ld_r0_9 x4 0 i o)

/-- Slab 1 of layer 2's weights as a table. -/
theorem tab_w2_1 : tab (shapeCast S64x64 (View.ld x4 r0_10) shapeCasts_S1x64x64_S64x64)
    = fun (i : Fin 64) (o : Fin 64) => x4 (ix3 (1 : Fin 3) i o) :=
  funext fun i => funext fun o => (shapeCast_1ab_ab_apply _ _ i o).trans (ld_r0_10 x4 0 i o)

/-- The hop `L·h1` of layer 2 as a table; the rounding of `h1` is the identity. -/
theorem tab_hop2 (h1 : FVec Ideal S1024x64 .f32) :
    tab (truncf .bf16 (matmul dot_S1024x1024_S1024x64_S1024x64_1_0_0_1_n_n none L
      (truncf .bf16 h1 bitsLt_bf16_f32) (constant (F := Ideal) S1024x64 .f32 0x00000000#32)) bitsLt_bf16_f32)
      = mm (tab L) (tab h1) :=
  tab_mm_1024x1024_1024x64 L (truncf .bf16 h1 bitsLt_bf16_f32)

/-- Layer 2, rectified (its bias added and the rectifier taken in a second payload), from layer 1's rectified features `h1`. -/
theorem pay20_apply (h1 : FVec Ideal S1024x64 .f32) (n : Fin 1024) (o : Fin 64) :
    k0_pay20 (k0_pay17 L h1 (k0_pay13 (View.ld x4 r0_8) (View.ld x4 r0_9)) (View.ld x4 r0_9) (View.ld x4 r0_10)) (View.ld x5 r0_7) (ix2 n o)
      = relu (chebKer twoE (tab L) (tab h1) (fun (k : Fin 3) (i : Fin 64) (o : Fin 64) => x4 (ix3 k i o))
          (fun o : Fin 64 => x5 (ix2 (0 : Fin 1) o)) n o) := by
  unfold k0_pay20 k0_pay17 chebKer relu
  refine (trunc_apply _ _).trans ?_
  refine (maximumf_apply _ _ _).trans ?_
  refine congrArg₂ max ?_ (zero_apply _)
  refine (addf_apply _ _ _).trans ?_
  refine congrArg₂ (· + ·) ?_ ((bias64_apply _ n o).trans (ld_r0_7 x5 0 o))
  refine (addf_apply _ _ _).trans ?_
  refine congrArg₂ (· + ·) ?_ ?_
  · refine (addf_apply _ _ _).trans ?_
    refine congrArg₂ (· + ·) ?_ ?_
    · -- h1·(W 0 - W 2)
      refine (matmul_1024x64_64x64 _ _ n o).trans ?_
      exact congrArg (fun B => mm (tab h1) B n o) (tab_wd2 x4)
    · -- (L·h1)·W 1
      refine (matmul_1024x64_64x64 _ _ n o).trans ?_
      exact congrArg₂ (fun A B => mm A B n o) (tab_hop2 L h1) (tab_w2_1 x4)
  · -- 2·L·((L·h1)·W 2)
    refine (mulf_apply _ _ _).trans ?_
    refine congrArg (twoE * ·) ?_
    refine (matmul_1024x1024_1024x64 _ _ n o).trans ?_
    refine congrArg (fun B => mm (tab L) B n o) ?_
    exact (tab_mm_1024x64_64x64 _ _).trans (congrArg₂ mm (tab_hop2 L h1) (tab_w2_2 x4))

/-- The hop of layer 2's rectified features. -/
theorem pay21_apply (P : FVec Ideal S1024x64 .f32) (b : Vec Ideal S1x64 .f32) (n : Fin 1024) (o : Fin 64) :
    k0_pay21 L P b (ix2 n o) = mm (tab L) (tab (k0_pay20 P b)) n o := by
  unfold k0_pay21
  exact (trunc_apply _ _).trans (matmul_1024x1024_1024x64 L (k0_pay20 P b) n o)

/-! ## Layer 3 -/

/-- The difference `W 0 - W 2` of layer 3's weights as a table. -/
theorem tab_wd3 : tab (k0_pay18 (View.ld x6 r0_11) (View.ld x6 r0_12))
    = fun (i : Fin 64) (o : Fin 32) => x6 (ix3 (0 : Fin 3) i o) - x6 (ix3 (2 : Fin 3) i o) := by
  funext i o
  unfold k0_pay18
  refine (subf_apply _ _ _).trans ?_
  exact congrArg₂ (· - ·) ((shapeCast_1ab_ab_apply _ _ i o).trans (ld_r0_11 x6 0 i o))
    ((shapeCast_1ab_ab_apply _ _ i o).trans (ld_r0_12 x6 0 i o))

/-- Slab 2 of layer 3's weights as a table. -/
theorem tab_w3_2 : tab (shapeCast S64x32 (View.ld x6 r0_12) shapeCasts_S1x64x32_S64x32)
    = fun (i : Fin 64) (o : Fin 32) => x6 (ix3 (2 : Fin 3) i o) :=
  funext fun i => funext fun o => (shapeCast_1ab_ab_apply _ _ i o).trans (ld_r0_12 x6 0 i o)

/-- Slab 1 of layer 3's weights as a table. -/
theorem tab_w3_1 : tab (shapeCast S64x32 (View.ld x6 r0_13) shapeCasts_S1x64x32_S64x32)
    = fun (i : Fin 64) (o : Fin 32) => x6 (ix3 (1 : Fin 3) i o) :=
  funext fun i => funext fun o => (shapeCast_1ab_ab_apply _ _ i o).trans (ld_r0_13 x6 0 i o)

/-- The hop payload as a table. -/
theorem tab_hop3 (P : FVec Ideal S1024x64 .f32) (b : Vec Ideal S1x64 .f32) :
    tab (k0_pay21 L P b) = mm (tab L) (tab (k0_pay20 P b)) :=
  funext fun n => funext fun o => pay21_apply L P b n o

/-- Layer 3 as stored, from layer 2's rectified features and their hop. -/
theorem pay2_apply (P : FVec Ideal S1024x64 .f32) (b : Vec Ideal S1x64 .f32) (u : Fin 1) (n : Fin 1024) (o : Fin 32) :
    k0_pay2 L (k0_pay18 (View.ld x6 r0_11) (View.ld x6 r0_12)) (k0_pay20 P b) (k0_pay21 L P b) (View.ld x6 r0_12) (View.ld x6 r0_13) (View.ld x7 r0_14) (ix3 u n o)
      = chebKer twoE (tab L) (tab (k0_pay20 P b)) (fun (k : Fin 3) (i : Fin 64) (o : Fin 32) => x6 (ix3 k i o))
          (fun o : Fin 32 => x7 (ix2 (0 : Fin 1) o)) n o := by
  unfold k0_pay2 chebKer
  refine (shapeCast_ab_1ab_apply _ _ u n o).trans ?_
  refine (addf_apply _ _ _).trans ?_
  refine congrArg₂ (· + ·) ?_ ((bias32_apply _ n o).trans (ld_r0_14 x7 0 o))
  refine (addf_apply _ _ _).trans ?_
  refine congrArg₂ (· + ·) ?_ ?_
  · refine (addf_apply _ _ _).trans ?_
    refine congrArg₂ (· + ·) ?_ ?_
    · -- h·(W 0 - W 2)
      refine (matmul_1024x64_64x32 _ _ n o).trans ?_
      exact congrArg (fun B => mm (tab (k0_pay20 P b)) B n o) (tab_wd3 x6)
    · -- (L·h)·W 1
      refine (matmul_1024x64_64x32 _ _ n o).trans ?_
      exact congrArg₂ (fun A B => mm A B n o) (tab_hop3 L P b) (tab_w3_1 x6)
  · -- 2·L·((L·h)·W 2)
    refine (mulf_apply _ _ _).trans ?_
    refine congrArg (twoE * ·) ?_
    refine (matmul_1024x1024_1024x32 _ _ n o).trans ?_
    refine congrArg (fun B => mm (tab L) B n o) ?_
    exact (tab_mm_1024x64_64x32 _ _).trans (congrArg₂ mm (tab_hop3 L P b) (tab_w3_2 x6))

end Cert.KernelIdeal.KerLay1

end
-- ==== Proof.KerOut.lean ====
/-
  What the kernel body leaves in its output block, read at an entry: the block holds two graphs, each stored by its own
  piece, and entry `(g, n, o)` is the re-associated network `netKer` of graph `g`'s adjacency and feature slabs with the
  shared weights and biases.
-/
import proofs.«126414_g3504693314081_cont_8to1_b_212_23_alg».proof.Proof.KerLap
import proofs.«126414_g3504693314081_cont_8to1_b_212_23_alg».proof.Proof.KerLay0
import proofs.«126414_g3504693314081_cont_8to1_b_212_23_alg».proof.Proof.KerLay1

set_option maxRecDepth 16384

noncomputable section

namespace Cert.KernelIdeal.KerOut

open Cert.KernelIdeal Cert.KernelIdeal.Gen Cert.KernelIdeal.KerOps Idealize.ShloMosaic Idealize.ShloMosaic.ValueIdx Cert.Cheb

/-! ## The two pieces of the output block: slab `g` of the block is piece `g`'s rectangle -/

/-- Entry `(1, n, o)` of the block is the slab-1 rectangle's entry `(0, n, o)`: offsets `(1, 0, 0)`, unit strides. -/
theorem ix3_one_eq_emb (n : Fin 1024) (o : Fin 32) :
    (ix3 (1 : Fin 2) n o : S2x1024x32.Idx) = r0_16.emb (ix3 (0 : Fin 1) n o) := by
  funext a; apply Fin.ext
  match a with
  | ⟨0, _⟩ => rfl
  | ⟨1, _⟩ => show (n : ℕ) = 0 + 1 * (n : ℕ); omega
  | ⟨2, _⟩ => show (o : ℕ) = 0 + 1 * (o : ℕ); omega

/-- Entry `(0, n, o)` of the block is the slab-0 rectangle's entry `(0, n, o)`: offsets `(0, 0, 0)`, unit strides. -/
theorem ix3_zero_eq_emb (n : Fin 1024) (o : Fin 32) :
    (ix3 (0 : Fin 2) n o : S2x1024x32.Idx) = r0_15.emb (ix3 (0 : Fin 1) n o) := by
  funext a; apply Fin.ext
  match a with
  | ⟨0, _⟩ => rfl
  | ⟨1, _⟩ => show (n : ℕ) = 0 + 1 * (n : ℕ); omega
  | ⟨2, _⟩ => show (o : ℕ) = 0 + 1 * (o : ℕ); omega

/-- An entry of slab 0 is off the slab-1 rectangle: its first coordinate `0` is below the rectangle's offset `1`. -/
theorem ix3_zero_not_mem (n : Fin 1024) (o : Fin 32) : (ix3 (0 : Fin 2) n o : S2x1024x32.Idx) ∉ r0_16.set := by
  intro h
  have h0 := (Rect.mem_set_unit.mp h) (0 : Fin 3)
  have h1 : (1 : ℕ) ≤ 0 := h0.1
  omega

/-- In a block filled by the slab-1 piece laid over the slab-0 piece, entry `(0, n, o)` is the slab-0 payload's entry
    `(0, n, o)`: it is off the first piece and under the second. -/
theorem canon_slab0 (p0 p1 : Vec Ideal S1x1024x32 .f32) (n : Fin 1024) (o : Fin 32) :
    View.canon ([⟨r0_16, p0⟩, ⟨r0_15, p1⟩] : List (View.Piece (Elt Ideal) S2x1024x32 .f32)) (ix3 (0 : Fin 2) n o)
      = p1 (ix3 (0 : Fin 1) n o) := by
  refine (View.canon_cons_of_not_mem (⟨r0_16, p0⟩ : View.Piece (Elt Ideal) S2x1024x32 .f32) [⟨r0_15, p1⟩] (ix3_zero_not_mem n o)).trans ?_
  rw [ix3_zero_eq_emb n o]
  exact View.canon_cons_emb r0_15 p1 [] _

/-- … and entry `(1, n, o)` is the slab-1 payload's entry `(0, n, o)`: it is under the first piece. -/
theorem canon_slab1 (p0 p1 : Vec Ideal S1x1024x32 .f32) (n : Fin 1024) (o : Fin 32) :
    View.canon ([⟨r0_16, p0⟩, ⟨r0_15, p1⟩] : List (View.Piece (Elt Ideal) S2x1024x32 .f32)) (ix3 (1 : Fin 2) n o)
      = p0 (ix3 (0 : Fin 1) n o) := by
  rw [ix3_one_eq_emb n o]
  exact View.canon_cons_emb r0_16 p0 _ _

variable (x0 : Vec Ideal S2x1024x1024 .f32) (x1 : Vec Ideal S2x1024x96 .f32) (x2 : Vec Ideal S3x96x64 .f32) (x3 : Vec Ideal S1x64 .f32)
  (x4 : Vec Ideal S3x64x64 .f32) (x5 : Vec Ideal S1x64 .f32) (x6 : Vec Ideal S3x64x32 .f32) (x7 : Vec Ideal S1x32 .f32)

/-! ## The Laplacian tables -/

/-- Graph 0's Laplacian payload, as a table, is the scaled Laplacian of slab 0 of the adjacency block. -/
theorem tab_pay4 : tab (k0_pay4 (View.ld x0 r0_0)) = lap epsE (fun n m : Fin 1024 => x0 (ix3 (0 : Fin 2) n m)) := by
  funext n m
  refine (KerLap.pay4_apply (View.ld x0 r0_0) n m).trans ?_
  have e : (fun n m : Fin 1024 => View.ld x0 r0_0 (ix3 (0 : Fin 1) n m)) = fun n m : Fin 1024 => x0 (ix3 (0 : Fin 2) n m) :=
    funext fun n => funext fun m => ld_r0_0 x0 0 n m
  rw [e]

/-- Graph 1's Laplacian payload, as a table, is the scaled Laplacian of slab 1 of the adjacency block. -/
theorem tab_pay8 : tab (k0_pay8 (k0_pay6 (View.ld x0 r0_1)) (k0_pay7 (View.ld x0 r0_1)))
    = lap epsE (fun n m : Fin 1024 => x0 (ix3 (1 : Fin 2) n m)) := by
  funext n m
  refine (KerLap.pay8_apply (View.ld x0 r0_1) n m).trans ?_
  have e : (fun n m : Fin 1024 => View.ld x0 r0_1 (ix3 (0 : Fin 1) n m)) = fun n m : Fin 1024 => x0 (ix3 (1 : Fin 2) n m) :=
    funext fun n => funext fun m => ld_r0_1 x0 0 n m
  rw [e]

/-! ## Graph 0: the slab-0 payload, layer by layer, over any Laplacian operand `L` -/

section Graph0
variable (L : FVec Ideal S1024x1024 .bf16)

/-- Layer 2 rectified, as a table: the rectifier of the re-associated layer of layer 1's rectified table. -/
theorem tab_pay16 :
    tab (k0_pay16 L (k0_pay13 (View.ld x4 r0_8) (View.ld x4 r0_9)) (k0_pay14 (k0_pay11 L (View.ld x1 r0_2) (View.ld x2 r0_4) (View.ld x2 r0_5) (View.ld x2 r0_5) (View.ld x2 r0_6) (View.ld x3 r0_7))) (k0_pay15 L (k0_pay11 L (View.ld x1 r0_2) (View.ld x2 r0_4) (View.ld x2 r0_5) (View.ld x2 r0_5) (View.ld x2 r0_6) (View.ld x3 r0_7))) (View.ld x4 r0_9) (View.ld x4 r0_10) (View.ld x5 r0_7))
      = fun (n : Fin 1024) (i : Fin 64) => relu (chebKer twoE (tab L) (fun (n : Fin 1024) (i : Fin 64) => relu (chebKer twoE (tab L) (fun (n : Fin 1024) (i : Fin 96) => x1 (ix3 (0 : Fin 2) n i)) (fun (k : Fin 3) (i : Fin 96) (o : Fin 64) => x2 (ix3 k i o)) (fun o : Fin 64 => x3 (ix2 (0 : Fin 1) o)) n i)) (fun (k : Fin 3) (i : Fin 64) (o : Fin 64) => x4 (ix3 k i o)) (fun o : Fin 64 => x5 (ix2 (0 : Fin 1) o)) n i) := by
  funext n o
  refine (KerLay0.pay16_apply L x4 x5 (k0_pay11 L (View.ld x1 r0_2) (View.ld x2 r0_4) (View.ld x2 r0_5) (View.ld x2 r0_5) (View.ld x2 r0_6) (View.ld x3 r0_7)) n o).trans ?_
  have e : (fun (n : Fin 1024) (i : Fin 64) => relu ((k0_pay11 L (View.ld x1 r0_2) (View.ld x2 r0_4) (View.ld x2 r0_5) (View.ld x2 r0_5) (View.ld x2 r0_6) (View.ld x3 r0_7)) (ix2 n i)))
      = fun (n : Fin 1024) (i : Fin 64) => relu (chebKer twoE (tab L) (fun (n : Fin 1024) (i : Fin 96) => x1 (ix3 (0 : Fin 2) n i)) (fun (k : Fin 3) (i : Fin 96) (o : Fin 64) => x2 (ix3 k i o)) (fun o : Fin 64 => x3 (ix2 (0 : Fin 1) o)) n i) :=
    funext fun n => funext fun i => congrArg relu (KerLay0.pay11_apply L x1 x2 x3 n i)
  rw [e]

/-- The stored slab-0 payload at `(0, n, o)`: three nested re-associated layers over `tab L`. -/
theorem pay1_net (n : Fin 1024) (o : Fin 32) :
    k0_pay1 (k0_pay19 L (k0_pay16 L (k0_pay13 (View.ld x4 r0_8) (View.ld x4 r0_9)) (k0_pay14 (k0_pay11 L (View.ld x1 r0_2) (View.ld x2 r0_4) (View.ld x2 r0_5) (View.ld x2 r0_5) (View.ld x2 r0_6) (View.ld x3 r0_7))) (k0_pay15 L (k0_pay11 L (View.ld x1 r0_2) (View.ld x2 r0_4) (View.ld x2 r0_5) (View.ld x2 r0_5) (View.ld x2 r0_6) (View.ld x3 r0_7))) (View.ld x4 r0_9) (View.ld x4 r0_10) (View.ld x5 r0_7)) (View.ld x6 r0_11) (View.ld x6 r0_12) (View.ld x6 r0_12) (View.ld x6 r0_13) (View.ld x7 r0_14)) (ix3 (0 : Fin 1) n o)
      = chebKer twoE (tab L) (fun (n : Fin 1024) (i : Fin 64) => relu (chebKer twoE (tab L) (fun (n : Fin 1024) (i : Fin 64) => relu (chebKer twoE (tab L) (fun (n : Fin 1024) (i : Fin 96) => x1 (ix3 (0 : Fin 2) n i)) (fun (k : Fin 3) (i : Fin 96) (o : Fin 64) => x2 (ix3 k i o)) (fun o : Fin 64 => x3 (ix2 (0 : Fin 1) o)) n i)) (fun (k : Fin 3) (i : Fin 64) (o : Fin 64) => x4 (ix3 k i o)) (fun o : Fin 64 => x5 (ix2 (0 : Fin 1) o)) n i)) (fun (k : Fin 3) (i : Fin 64) (o : Fin 32) => x6 (ix3 k i o)) (fun o : Fin 32 => x7 (ix2 (0 : Fin 1) o)) n o := by
  refine (KerLay0.pay1_apply _ 0 n o).trans ?_
  refine (KerLay0.pay19_apply L x6 x7 (k0_pay16 L (k0_pay13 (View.ld x4 r0_8) (View.ld x4 r0_9)) (k0_pay14 (k0_pay11 L (View.ld x1 r0_2) (View.ld x2 r0_4) (View.ld x2 r0_5) (View.ld x2 r0_5) (View.ld x2 r0_6) (View.ld x3 r0_7))) (k0_pay15 L (k0_pay11 L (View.ld x1 r0_2) (View.ld x2 r0_4) (View.ld x2 r0_5) (View.ld x2 r0_5) (View.ld x2 r0_6) (View.ld x3 r0_7))) (View.ld x4 r0_9) (View.ld x4 r0_10) (View.ld x5 r0_7)) n o).trans ?_
  rw [tab_pay16 x1 x2 x3 x4 x5 L]

end Graph0

/-- Entry `(0, n, o)` of the output block is the re-associated network of graph 0. -/
theorem out0_8_g0 (n : Fin 1024) (o : Fin 32) :
    out0_8 x0 x1 x2 x3 x4 x5 x6 x7 (ix3 (0 : Fin 2) n o)
      = netKer epsE twoE (fun n m : Fin 1024 => x0 (ix3 (0 : Fin 2) n m)) (fun (n : Fin 1024) (i : Fin 96) => x1 (ix3 (0 : Fin 2) n i))
          (fun (k : Fin 3) (i : Fin 96) (o : Fin 64) => x2 (ix3 k i o)) (fun o : Fin 64 => x3 (ix2 (0 : Fin 1) o))
          (fun (k : Fin 3) (i : Fin 64) (o : Fin 64) => x4 (ix3 k i o)) (fun o : Fin 64 => x5 (ix2 (0 : Fin 1) o))
          (fun (k : Fin 3) (i : Fin 64) (o : Fin 32) => x6 (ix3 k i o)) (fun o : Fin 32 => x7 (ix2 (0 : Fin 1) o)) n o := by
  unfold out0_8
  refine (canon_slab0 _ _ n o).trans ?_
  refine (pay1_net x1 x2 x3 x4 x5 x6 x7 (k0_pay4 (View.ld x0 r0_0)) n o).trans ?_
  rw [tab_pay4 x0]
  rfl

/-! ## Graph 1: the slab-1 payload, layer by layer, over any Laplacian operand `L` -/

section Graph1
variable (L : FVec Ideal S1024x1024 .bf16)

/-- Layer 1 rectified, as a table. -/
theorem tab_pay12 :
    tab (k0_pay12 L (k0_pay9 (View.ld x1 r0_3)) (k0_pay10 (View.ld x2 r0_4) (View.ld x2 r0_5)) (View.ld x2 r0_5) (View.ld x2 r0_6) (View.ld x3 r0_7)) = fun (n : Fin 1024) (i : Fin 64) => relu (chebKer twoE (tab L) (fun (n : Fin 1024) (i : Fin 96) => x1 (ix3 (1 : Fin 2) n i)) (fun (k : Fin 3) (i : Fin 96) (o : Fin 64) => x2 (ix3 k i o)) (fun o : Fin 64 => x3 (ix2 (0 : Fin 1) o)) n i) :=
  funext fun n => funext fun i => KerLay1.pay12_apply L x1 x2 x3 n i

/-- Layer 2 rectified, as a table: the rectifier of the re-associated layer of layer 1's rectified table. -/
theorem tab_pay20 :
    tab (k0_pay20 (k0_pay17 L (k0_pay12 L (k0_pay9 (View.ld x1 r0_3)) (k0_pay10 (View.ld x2 r0_4) (View.ld x2 r0_5)) (View.ld x2 r0_5) (View.ld x2 r0_6) (View.ld x3 r0_7)) (k0_pay13 (View.ld x4 r0_8) (View.ld x4 r0_9)) (View.ld x4 r0_9) (View.ld x4 r0_10)) (View.ld x5 r0_7))
      = fun (n : Fin 1024) (i : Fin 64) => relu (chebKer twoE (tab L) (fun (n : Fin 1024) (i : Fin 64) => relu (chebKer twoE (tab L) (fun (n : Fin 1024) (i : Fin 96) => x1 (ix3 (1 : Fin 2) n i)) (fun (k : Fin 3) (i : Fin 96) (o : Fin 64) => x2 (ix3 k i o)) (fun o : Fin 64 => x3 (ix2 (0 : Fin 1) o)) n i)) (fun (k : Fin 3) (i : Fin 64) (o : Fin 64) => x4 (ix3 k i o)) (fun o : Fin 64 => x5 (ix2 (0 : Fin 1) o)) n i) := by
  funext n o
  refine (KerLay1.pay20_apply L x4 x5 (k0_pay12 L (k0_pay9 (View.ld x1 r0_3)) (k0_pay10 (View.ld x2 r0_4) (View.ld x2 r0_5)) (View.ld x2 r0_5) (View.ld x2 r0_6) (View.ld x3 r0_7)) n o).trans ?_
  rw [tab_pay12 x1 x2 x3 L]

/-- The stored slab-1 payload at `(0, n, o)`: three nested re-associated layers over `tab L`. -/
theorem pay2_net (n : Fin 1024) (o : Fin 32) :
    (k0_pay2 L (k0_pay18 (View.ld x6 r0_11) (View.ld x6 r0_12)) (k0_pay20 (k0_pay17 L (k0_pay12 L (k0_pay9 (View.ld x1 r0_3)) (k0_pay10 (View.ld x2 r0_4) (View.ld x2 r0_5)) (View.ld x2 r0_5) (View.ld x2 r0_6) (View.ld x3 r0_7)) (k0_pay13 (View.ld x4 r0_8) (View.ld x4 r0_9)) (View.ld x4 r0_9) (View.ld x4 r0_10)) (View.ld x5 r0_7)) (k0_pay21 L (k0_pay17 L (k0_pay12 L (k0_pay9 (View.ld x1 r0_3)) (k0_pay10 (View.ld x2 r0_4) (View.ld x2 r0_5)) (View.ld x2 r0_5) (View.ld x2 r0_6) (View.ld x3 r0_7)) (k0_pay13 (View.ld x4 r0_8) (View.ld x4 r0_9)) (View.ld x4 r0_9) (View.ld x4 r0_10)) (View.ld x5 r0_7)) (View.ld x6 r0_12) (View.ld x6 r0_13) (View.ld x7 r0_14)) (ix3 (0 : Fin 1) n o)
      = chebKer twoE (tab L) (fun (n : Fin 1024) (i : Fin 64) => relu (chebKer twoE (tab L) (fun (n : Fin 1024) (i : Fin 64) => relu (chebKer twoE (tab L) (fun (n : Fin 1024) (i : Fin 96) => x1 (ix3 (1 : Fin 2) n i)) (fun (k : Fin 3) (i : Fin 96) (o : Fin 64) => x2 (ix3 k i o)) (fun o : Fin 64 => x3 (ix2 (0 : Fin 1) o)) n i)) (fun (k : Fin 3) (i : Fin 64) (o : Fin 64) => x4 (ix3 k i o)) (fun o : Fin 64 => x5 (ix2 (0 : Fin 1) o)) n i)) (fun (k : Fin 3) (i : Fin 64) (o : Fin 32) => x6 (ix3 k i o)) (fun o : Fin 32 => x7 (ix2 (0 : Fin 1) o)) n o := by
  refine (KerLay1.pay2_apply L x6 x7 (k0_pay17 L (k0_pay12 L (k0_pay9 (View.ld x1 r0_3)) (k0_pay10 (View.ld x2 r0_4) (View.ld x2 r0_5)) (View.ld x2 r0_5) (View.ld x2 r0_6) (View.ld x3 r0_7)) (k0_pay13 (View.ld x4 r0_8) (View.ld x4 r0_9)) (View.ld x4 r0_9) (View.ld x4 r0_10)) (View.ld x5 r0_7) 0 n o).trans ?_
  rw [tab_pay20 x1 x2 x3 x4 x5 L]

end Graph1

/-- Entry `(1, n, o)` of the output block is the re-associated network of graph 1. -/
theorem out0_8_g1 (n : Fin 1024) (o : Fin 32) :
    out0_8 x0 x1 x2 x3 x4 x5 x6 x7 (ix3 (1 : Fin 2) n o)
      = netKer epsE twoE (fun n m : Fin 1024 => x0 (ix3 (1 : Fin 2) n m)) (fun (n : Fin 1024) (i : Fin 96) => x1 (ix3 (1 : Fin 2) n i))
          (fun (k : Fin 3) (i : Fin 96) (o : Fin 64) => x2 (ix3 k i o)) (fun o : Fin 64 => x3 (ix2 (0 : Fin 1) o))
          (fun (k : Fin 3) (i : Fin 64) (o : Fin 64) => x4 (ix3 k i o)) (fun o : Fin 64 => x5 (ix2 (0 : Fin 1) o))
          (fun (k : Fin 3) (i : Fin 64) (o : Fin 32) => x6 (ix3 k i o)) (fun o : Fin 32 => x7 (ix2 (0 : Fin 1) o)) n o := by
  unfold out0_8
  refine (canon_slab1 _ _ n o).trans ?_
  refine (pay2_net x1 x2 x3 x4 x5 x6 x7 (k0_pay8 (k0_pay6 (View.ld x0 r0_1)) (k0_pay7 (View.ld x0 r0_1))) n o).trans ?_
  rw [tab_pay8 x0]
  rfl

/-- Entry `(g, n, o)` of the output block is the re-associated network of graph `g` of the input blocks. -/
theorem out0_8_apply (g : Fin 2) (n : Fin 1024) (o : Fin 32) :
    out0_8 x0 x1 x2 x3 x4 x5 x6 x7 (ix3 g n o)
      = netKer epsE twoE (fun n m : Fin 1024 => x0 (ix3 g n m)) (fun (n : Fin 1024) (i : Fin 96) => x1 (ix3 g n i))
          (fun (k : Fin 3) (i : Fin 96) (o : Fin 64) => x2 (ix3 k i o)) (fun o : Fin 64 => x3 (ix2 (0 : Fin 1) o))
          (fun (k : Fin 3) (i : Fin 64) (o : Fin 64) => x4 (ix3 k i o)) (fun o : Fin 64 => x5 (ix2 (0 : Fin 1) o))
          (fun (k : Fin 3) (i : Fin 64) (o : Fin 32) => x6 (ix3 k i o)) (fun o : Fin 32 => x7 (ix2 (0 : Fin 1) o)) n o := by
  match g with
  | ⟨0, _⟩ => exact out0_8_g0 x0 x1 x2 x3 x4 x5 x6 x7 n o
  | ⟨1, _⟩ => exact out0_8_g1 x0 x1 x2 x3 x4 x5 x6 x7 n o

end Cert.KernelIdeal.KerOut

end
-- ==== Proof.KerArr.lean ====
/-
  From blocks to the array: grid point `t` stages graphs `2t` and `2t + 1` of the adjacency and of the reshaped node
  features, and all of every weight and bias; what it writes back is block `t` of the whole-array function `GKer` of the
  argument arrays. The four blocks tile the output, so after the run the output array is `GKer` of the arguments.
-/
import proofs.«126414_g3504693314081_cont_8to1_b_212_23_alg».proof.Proof.Gen.KernelIdeal.Value
import proofs.«126414_g3504693314081_cont_8to1_b_212_23_alg».proof.Proof.KerOut

set_option maxRecDepth 16384

noncomputable section

namespace Cert.KernelIdeal.KerArr

open Cert.KernelIdeal Cert.KernelIdeal.Gen Cert.KernelIdeal.KerOps Idealize.ShloMosaic Idealize.ShloMosaic.TcCoe Idealize.SL.Sem
open Idealize.ShloMosaic.ValueIdx Cert.Cheb
open Idealize.ShloMosaic.Pipeline (Dat)

variable (m : (ℓ : Loc nD τ sig) → Buf (Elt Ideal) ℓ) (ρ : Dev nD → PrngReg)

/-- The node features as the region finds them: the first argument reshaped `[8,1024,12,8] → [8,1024,96]` by the host. -/
abbrev feat (c : Dev nD) : ShX.Idx → EReal :=
  shapeCast S8x1024x96 (m ((c : Thread nD τ).loc main_arg0)) shapeCasts_S8x1024x12x8_S8x1024x96

/-- The output array as one function of the argument arrays: the re-associated network. -/
abbrev Garr (c : Dev nD) : ShOut.Idx → EReal :=
  GKer (m ((c : Thread nD τ).loc main_arg1)) (feat m c) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ## The index maps and the body's entry over abstract blocks -/

/-- The printed index maps, decided once over the four grid points. -/
theorem idx_facts : ∀ t : Fin cfg0.N,
    win0_0.index t (0 : Fin 3) = win0_8.index t (0 : Fin 3) ∧ win0_0.index t (1 : Fin 3) = 0 ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 ∧ t.val < 4 :=
  (by decide +kernel : ∀ t : Fin grid0.N, _)

/-- The body's block entry is the whole-array network's entry, when each input block reads its array where the output
    block's place says. -/
theorem out_eq_G (A : ShA.Idx → EReal) (X : ShX.Idx → EReal) (W1 : ShW1.Idx → EReal) (b1 : Sh64.Idx → EReal)
    (W2 : ShW2.Idx → EReal) (b2 : Sh64.Idx → EReal) (W3 : ShW3.Idx → EReal) (b3 : Sh32.Idx → EReal)
    (x0 : Vec Ideal S2x1024x1024 .f32) (x1 : Vec Ideal S2x1024x96 .f32) (x2 : Vec Ideal S3x96x64 .f32) (x3 : Vec Ideal S1x64 .f32)
    (x4 : Vec Ideal S3x64x64 .f32) (x5 : Vec Ideal S1x64 .f32) (x6 : Vec Ideal S3x64x32 .f32) (x7 : Vec Ideal S1x32 .f32)
    (b : Fin 8) (g : Fin 2)
    (h0 : ∀ (n m' : Fin 1024), x0 (ix3 g n m') = A (ix3 b n m'))
    (h1 : ∀ (n : Fin 1024) (i : Fin 96), x1 (ix3 g n i) = X (ix3 b n i))
    (h2 : ∀ (k : Fin 3) (i : Fin 96) (o : Fin 64), x2 (ix3 k i o) = W1 (ix3 k i o))
    (h3 : ∀ o : Fin 64, x3 (ix2 (0 : Fin 1) o) = b1 (ix1 o))
    (h4 : ∀ (k : Fin 3) (i : Fin 64) (o : Fin 64), x4 (ix3 k i o) = W2 (ix3 k i o))
    (h5 : ∀ o : Fin 64, x5 (ix2 (0 : Fin 1) o) = b2 (ix1 o))
    (h6 : ∀ (k : Fin 3) (i : Fin 64) (o : Fin 32), x6 (ix3 k i o) = W3 (ix3 k i o))
    (h7 : ∀ o : Fin 32, x7 (ix2 (0 : Fin 1) o) = b3 (ix1 o))
    (n : Fin 1024) (o : Fin 32) :
    out0_8 x0 x1 x2 x3 x4 x5 x6 x7 (ix3 g n o) = GKer A X W1 b1 W2 b2 W3 b3 (ix3 b n o) := by
  rw [KerOut.out0_8_apply, GKer_apply]
  unfold GKerAt
  have e0 : (fun n m' : Fin 1024 => x0 (ix3 g n m')) = fun n m' : Fin 1024 => A (ix3 b n m') :=
    funext fun n => funext fun m' => h0 n m'
  have e1 : (fun (n : Fin 1024) (i : Fin 96) => x1 (ix3 g n i)) = fun (n : Fin 1024) (i : Fin 96) => X (ix3 b n i) :=
    funext fun n => funext fun i => h1 n i
  have e2 : (fun (k : Fin 3) (i : Fin 96) (o : Fin 64) => x2 (ix3 k i o)) = fun (k : Fin 3) (i : Fin 96) (o : Fin 64) => W1 (ix3 k i o) :=
    funext fun k => funext fun i => funext fun o => h2 k i o
  have e3 : (fun o : Fin 64 => x3 (ix2 (0 : Fin 1) o)) = fun o : Fin 64 => b1 (ix1 o) := funext h3
  have e4 : (fun (k : Fin 3) (i : Fin 64) (o : Fin 64) => x4 (ix3 k i o)) = fun (k : Fin 3) (i : Fin 64) (o : Fin 64) => W2 (ix3 k i o) :=
    funext fun k => funext fun i => funext fun o => h4 k i o
  have e5 : (fun o : Fin 64 => x5 (ix2 (0 : Fin 1) o)) = fun o : Fin 64 => b2 (ix1 o) := funext h5
  have e6 : (fun (k : Fin 3) (i : Fin 64) (o : Fin 32) => x6 (ix3 k i o)) = fun (k : Fin 3) (i : Fin 64) (o : Fin 32) => W3 (ix3 k i o) :=
    funext fun k => funext fun i => funext fun o => h6 k i o
  have e7 : (fun o : Fin 32 => x7 (ix2 (0 : Fin 1) o)) = fun o : Fin 32 => b3 (ix1 o) := funext h7
  rw [e0, e1, e2, e3, e4, e5, e6, e7]

/-! ## The arrays the host reshaped before the region -/

/-- The region finds the node features as the first argument reshaped. -/
theorem V_v0 (c : Dev nD) : (V m c main_v0 : S8x1024x96.Idx → EReal) = feat m c := by
  dsimp only [Gen.V, Gen.hostOps0]; after_results; rfl

/-- The first layer's bias as the region finds it: the fourth argument as one row. -/
theorem V_v1 (c : Dev nD) : (V m c main_v1 : S1x64.Idx → EReal) = shapeCast S1x64 (m ((c : Thread nD τ).loc main_arg3)) shapeCasts_S64_S1x64 := by
  dsimp only [Gen.V, Gen.hostOps0]; after_results; rfl

/-- The second layer's bias as the region finds it: the sixth argument as one row. -/
theorem V_v2 (c : Dev nD) : (V m c main_v2 : S1x64.Idx → EReal) = shapeCast S1x64 (m ((c : Thread nD τ).loc main_arg5)) shapeCasts_S64_S1x64 := by
  dsimp only [Gen.V, Gen.hostOps0]; after_results; rfl

/-- The third layer's bias as the region finds it: the eighth argument as one row. -/
theorem V_v3 (c : Dev nD) : (V m c main_v3 : S1x32.Idx → EReal) = shapeCast S1x32 (m ((c : Thread nD τ).loc main_arg7)) shapeCasts_S32_S1x32 := by
  dsimp only [Gen.V, Gen.hostOps0]; after_results; rfl

/-- Block `t` of the adjacency holds graphs `2t` and `2t + 1`. -/
theorem blk0 (c : Dev nD) (t : Fin cfg0.N) (b : Fin 8) (g : Fin 2) (hb : b.val = t.val * 2 + g.val) (n m' : Fin 1024) :
    (iblk m c 0 t : Vec Ideal S2x1024x1024 .f32) (ix3 g n m') = m ((c : Thread nD τ).loc main_arg1) (ix3 b n m') := by
  obtain ⟨e0, e1, e2, -, -, -, -, -, -, -, -, -, -, -, -, -, -, -, -, -, -, e8, -, -, -⟩ := idx_facts t
  show V m c main_arg1 (((cfg0.win 0).blk t).view.emb (ix3 g n m')) = _
  rw [V_main_arg1]
  refine congrArg _ ?_
  funext a; apply Fin.ext
  match a with
  | ⟨0, _⟩ => show win0_0.index t (0 : Fin 3) * 2 + 1 * g.val = b.val; omega
  | ⟨1, _⟩ => show win0_0.index t (1 : Fin 3) * 1024 + 1 * n.val = n.val; omega
  | ⟨2, _⟩ => show win0_0.index t (2 : Fin 3) * 1024 + 1 * m'.val = m'.val; omega

/-- Block `t` of the reshaped node features holds graphs `2t` and `2t + 1`. -/
theorem blk1 (c : Dev nD) (t : Fin cfg0.N) (b : Fin 8) (g : Fin 2) (hb : b.val = t.val * 2 + g.val) (n : Fin 1024) (i : Fin 96) :
    (iblk m c 1 t : Vec Ideal S2x1024x96 .f32) (ix3 g n i) = feat m c (ix3 b n i) := by
  obtain ⟨-, -, -, e0, e1, e2, -, -, -, -, -, -, -, -, -, -, -, -, -, -, -, e8, -, -, -⟩ := idx_facts t
  show V m c main_v0 (((cfg0.win 1).blk t).view.emb (ix3 g n i)) = _
  rw [V_v0]
  refine congrArg _ ?_
  funext a; apply Fin.ext
  match a with
  | ⟨0, _⟩ => show win0_1.index t (0 : Fin 3) * 2 + 1 * g.val = b.val; omega
  | ⟨1, _⟩ => show win0_1.index t (1 : Fin 3) * 1024 + 1 * n.val = n.val; omega
  | ⟨2, _⟩ => show win0_1.index t (2 : Fin 3) * 96 + 1 * i.val = i.val; omega

/-- Every point stages all of the first layer's weights. -/
theorem blk2 (c : Dev nD) (t : Fin cfg0.N) (k : Fin 3) (i : Fin 96) (o : Fin 64) :
    (iblk m c 2 t : Vec Ideal S3x96x64 .f32) (ix3 k i o) = m ((c : Thread nD τ).loc main_arg2) (ix3 k i o) := by
  obtain ⟨-, -, -, -, -, -, e0, e1, e2, -, -, -, -, -, -, -, -, -, -, -, -, -, -, -, -⟩ := idx_facts t
  show V m c main_arg2 (((cfg0.win 2).blk t).view.emb (ix3 k i o)) = _
  rw [V_main_arg2]
  refine congrArg _ ?_
  funext a; apply Fin.ext
  match a with
  | ⟨0, _⟩ => show win0_2.index t (0 : Fin 3) * 3 + 1 * k.val = k.val; omega
  | ⟨1, _⟩ => show win0_2.index t (1 : Fin 3) * 96 + 1 * i.val = i.val; omega
  | ⟨2, _⟩ => show win0_2.index t (2 : Fin 3) * 64 + 1 * o.val = o.val; omega

/-- Every point stages all of the first layer's bias, as one row. -/
theorem blk3 (c : Dev nD) (t : Fin cfg0.N) (o : Fin 64) :
    (iblk m c 3 t : Vec Ideal S1x64 .f32) (ix2 (0 : Fin 1) o) = m ((c : Thread nD τ).loc main_arg3) (ix1 o) := by
  obtain ⟨-, -, -, -, -, -, -, -, -, e0, e1, -, -, -, -, -, -, -, -, -, -, -, -, -, -⟩ := idx_facts t
  show V m c main_v1 (((cfg0.win 3).blk t).view.emb (ix2 (0 : Fin 1) o)) = _
  rw [V_v1]
  refine Eq.trans (congrArg _ ?_) (shapeCast_a_1a_apply _ shapeCasts_S64_S1x64 (0 : Fin 1) o)
  funext a; apply Fin.ext
  match a with
  | ⟨0, _⟩ => show win0_3.index t (0 : Fin 2) * 1 + 1 * 0 = 0; omega
  | ⟨1, _⟩ => show win0_3.index t (1 : Fin 2) * 64 + 1 * o.val = o.val; omega

/-- Every point stages all of the second layer's weights. -/
theorem blk4 (c : Dev nD) (t : Fin cfg0.N) (k : Fin 3) (i : Fin 64) (o : Fin 64) :
    (iblk m c 4 t : Vec Ideal S3x64x64 .f32) (ix3 k i o) = m ((c : Thread nD τ).loc main_arg4) (ix3 k i o) := by
  obtain ⟨-, -, -, -, -, -, -, -, -, -, -, e0, e1, e2, -, -, -, -, -, -, -, -, -, -, -⟩ := idx_facts t
  show V m c main_arg4 (((cfg0.win 4).blk t).view.emb (ix3 k i o)) = _
  rw [V_main_arg4]
  refine congrArg _ ?_
  funext a; apply Fin.ext
  match a with
  | ⟨0, _⟩ => show win0_4.index t (0 : Fin 3) * 3 + 1 * k.val = k.val; omega
  | ⟨1, _⟩ => show win0_4.index t (1 : Fin 3) * 64 + 1 * i.val = i.val; omega
  | ⟨2, _⟩ => show win0_4.index t (2 : Fin 3) * 64 + 1 * o.val = o.val; omega

/-- Every point stages all of the second layer's bias, as one row. -/
theorem blk5 (c : Dev nD) (t : Fin cfg0.N) (o : Fin 64) :
    (iblk m c 5 t : Vec Ideal S1x64 .f32) (ix2 (0 : Fin 1) o) = m ((c : Thread nD τ).loc main_arg5) (ix1 o) := by
  obtain ⟨-, -, -, -, -, -, -, -, -, -, -, -, -, -, e0, e1, -, -, -, -, -, -, -, -, -⟩ := idx_facts t
  show V m c main_v2 (((cfg0.win 5).blk t).view.emb (ix2 (0 : Fin 1) o)) = _
  rw [V_v2]
  refine Eq.trans (congrArg _ ?_) (shapeCast_a_1a_apply _ shapeCasts_S64_S1x64 (0 : Fin 1) o)
  funext a; apply Fin.ext
  match a with
  | ⟨0, _⟩ => show win0_5.index t (0 : Fin 2) * 1 + 1 * 0 = 0; omega
  | ⟨1, _⟩ => show win0_5.index t (1 : Fin 2) * 64 + 1 * o.val = o.val; omega

/-- Every point stages all of the third layer's weights. -/
theorem blk6 (c : Dev nD) (t : Fin cfg0.N) (k : Fin 3) (i : Fin 64) (o : Fin 32) :
    (iblk m c 6 t : Vec Ideal S3x64x32 .f32) (ix3 k i o) = m ((c : Thread nD τ).loc main_arg6) (ix3 k i o) := by
  obtain ⟨-, -, -, -, -, -, -, -, -, -, -, -, -, -, -, -, e0, e1, e2, -, -, -, -, -, -⟩ := idx_facts t
  show V m c main_arg6 (((cfg0.win 6).blk t).view.emb (ix3 k i o)) = _
  rw [V_main_arg6]
  refine congrArg _ ?_
  funext a; apply Fin.ext
  match a with
  | ⟨0, _⟩ => show win0_6.index t (0 : Fin 3) * 3 + 1 * k.val = k.val; omega
  | ⟨1, _⟩ => show win0_6.index t (1 : Fin 3) * 64 + 1 * i.val = i.val; omega
  | ⟨2, _⟩ => show win0_6.index t (2 : Fin 3) * 32 + 1 * o.val = o.val; omega

/-- Every point stages all of the third layer's bias, as one row. -/
theorem blk7 (c : Dev nD) (t : Fin cfg0.N) (o : Fin 32) :
    (iblk m c 7 t : Vec Ideal S1x32 .f32) (ix2 (0 : Fin 1) o) = m ((c : Thread nD τ).loc main_arg7) (ix1 o) := by
  obtain ⟨-, -, -, -, -, -, -, -, -, -, -, -, -, -, -, -, -, -, -, e0, e1, -, -, -, -⟩ := idx_facts t
  show V m c main_v3 (((cfg0.win 7).blk t).view.emb (ix2 (0 : Fin 1) o)) = _
  rw [V_v3]
  refine Eq.trans (congrArg _ ?_) (shapeCast_a_1a_apply _ shapeCasts_S32_S1x32 (0 : Fin 1) o)
  funext a; apply Fin.ext
  match a with
  | ⟨0, _⟩ => show win0_7.index t (0 : Fin 2) * 1 + 1 * 0 = 0; omega
  | ⟨1, _⟩ => show win0_7.index t (1 : Fin 2) * 32 + 1 * o.val = o.val; omega

/-! ## Block `t` of the output, the cover, the array after the run -/

/-- What grid point `t` writes back is block `t` of `Garr`. -/
theorem flushed_eq (c : Dev nD) (t : Fin cfg0.N) :
    (dats m 0 c).flushed 8 t = ((cfg0.win 8).blk t).view.read (Elt Ideal) (Garr m c) := by
  rw [Cert.KernelIdeal.Value.flushed8]
  obtain ⟨-, -, -, -, -, -, -, -, -, -, -, -, -, -, -, -, -, -, -, -, -, e0, e1, e2, ht⟩ := idx_facts t
  funext j
  obtain ⟨g, n, o, rfl⟩ : ∃ (g : Fin 2) (n : Fin 1024) (o : Fin 32), j = ix3 g n o := ⟨j 0, j 1, j 2, eq_ix3 j⟩
  have hb : t.val * 2 + g.val < 8 := by omega
  show out0_8 (iblk m c 0 t) (iblk m c 1 t) (iblk m c 2 t) (iblk m c 3 t) (iblk m c 4 t) (iblk m c 5 t) (iblk m c 6 t) (iblk m c 7 t) (ix3 g n o)
    = Garr m c (((cfg0.win 8).blk t).view.emb (ix3 g n o))
  have hemb : ((cfg0.win 8).blk t).view.emb (ix3 g n o) = ix3 (⟨t.val * 2 + g.val, hb⟩ : Fin 8) n o := by
    funext a; apply Fin.ext
    match a with
    | ⟨0, _⟩ => show win0_8.index t (0 : Fin 3) * 2 + 1 * g.val = t.val * 2 + g.val; omega
    | ⟨1, _⟩ => show win0_8.index t (1 : Fin 3) * 1024 + 1 * n.val = n.val; omega
    | ⟨2, _⟩ => show win0_8.index t (2 : Fin 3) * 32 + 1 * o.val = o.val; omega
  rw [hemb]
  exact out_eq_G _ _ _ _ _ _ _ _ (iblk m c 0 t) (iblk m c 1 t) (iblk m c 2 t) (iblk m c 3 t) (iblk m c 4 t) (iblk m c 5 t) (iblk m c 6 t)
    (iblk m c 7 t) ⟨t.val * 2 + g.val, hb⟩ g (blk0 m c t _ g rfl) (blk1 m c t _ g rfl) (blk2 m c t) (blk3 m c t) (blk4 m c t) (blk5 m c t)
    (blk6 m c t) (blk7 m c t) n o

/-- An index of the output array is in point `t`'s block iff each coordinate is in the block's range on its axis. -/
theorem mem_blk (t : Fin cfg0.N) (i : S8x1024x32.Idx) :
    i ∈ ((cfg0.win 8).blk t).view.set ↔ ∀ a : Fin 3, win0_8.index t a * S2x1024x32.size a ≤ (i a).val
      ∧ (i a).val < win0_8.index t a * S2x1024x32.size a + S2x1024x32.size a := by
  show i ∈ ((View.whole main_v4).slice (win0_8.rect t)).set ↔ _
  rw [View.set_slice_whole, Rect.mem_set_unit]
  exact Iff.rfl

/-- The four blocks tile the output: graph `b` lies in the block of point `b / 2`. -/
theorem cover (i : S8x1024x32.Idx) : ∃ t : Fin cfg0.N, (cfg0.win 8).flush t = true ∧ i ∈ ((cfg0.win 8).blk t).view.set := by
  have h0 : (i 0).val < 8 := (i 0).isLt
  have h1 : (i 1).val < 1024 := (i 1).isLt
  have h2 : (i 2).val < 32 := (i 2).isLt
  have hN : grid0.N = 4 := N_0
  obtain ⟨t, ht⟩ : ∃ t : Fin cfg0.N, t.val = (i 0).val / 2 := ⟨⟨(i 0).val / 2, by show (i 0).val / 2 < grid0.N; rw [hN]; omega⟩, rfl⟩
  refine ⟨t, flush0_8 t, ?_⟩
  obtain ⟨-, -, -, -, -, -, -, -, -, -, -, -, -, -, -, -, -, -, -, -, -, e0, e1, e2, -⟩ := idx_facts t
  rw [mem_blk]
  intro a
  match a with
  | ⟨0, _⟩ => show win0_8.index t (0 : Fin 3) * 2 ≤ (i 0).val ∧ (i 0).val < win0_8.index t (0 : Fin 3) * 2 + 2; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 32 ≤ (i 2).val ∧ (i 2).val < win0_8.index t (2 : Fin 3) * 32 + 32; omega

/-- The output array after the run. -/
theorem final (c : Dev nD) : (dats m 0 c).arrAt 8 cfg0.N = Garr m c :=
  (dats m 0 c).arrAt_eq_of_cover 8 (Garr m c) (fun t _ => flushed_eq m c t) cover

/-- The kernel's run with its result named: the output array is `Garr`, the arguments unchanged. -/
theorem run : θ_run defs (onTc (τ := τ) (main (F := Ideal))) ⟨m, fun _ => 0, ρ⟩ fun r => ∀ c : Dev nD,
      r.2.mem ((c : Thread nD τ).loc main_v4) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.KerArr

end
-- ==== Proof.RefLap.lean ====
/-
  The reference's scaled Laplacian, read at an entry: the stages from the identity mask to the negated product are
  `lap` of graph `b`'s adjacency — the adjacency times `1 - [n = m]` is the adjacency off the diagonal and `0` on it (a
  product with `0` or `1`, exact at the infinities too), the host's sum along the last axis the degree, `_where` the
  selection on a positive degree.
-/
import proofs.«126414_g3504693314081_cont_8to1_b_212_23_alg».proof.Proof.ReadS
import proofs.«126414_g3504693314081_cont_8to1_b_212_23_alg».proof.Proof.ChebG

set_option maxRecDepth 16384

noncomputable section

namespace Cert.ReferenceIdeal.RefLap

open Cert.ReferenceIdeal Cert.ReferenceIdeal.Gen Cert.ReferenceIdeal.ReadP Idealize.ShloMosaic Idealize.ShloMosaic.ValueIdx Cert.Cheb

/-- Two node numbers below 1024 are the same 32-bit word only when equal. -/
theorem ofNat_inj (n m : Fin 1024) : BitVec.ofNat 32 n.val = BitVec.ofNat 32 m.val ↔ n = m := by
  constructor
  · intro h
    have h' := congrArg BitVec.toNat h
    simp only [BitVec.toNat_ofNat] at h'
    have hn := n.isLt; have hm := m.isLt
    apply Fin.ext; omega
  · rintro rfl; rfl

/-- The integer comparison for equality, as a bit. -/
theorem cmpi_eq_ite (x y : BitVec 32) : IntOp.cmpi .eq x y = if x = y then 1#1 else 0#1 := by
  unfold IntOp.cmpi
  by_cases h : x = y
  · rw [if_pos h]; subst h; simp
  · rw [if_neg h]
    have hb : (x == y) = false := beq_eq_false_iff_ne.mpr h
    rw [hb]; rfl

/-- On the extended reals `1 - 1 = 0`. -/
theorem one_sub_one : (1 : EReal) - 1 = 0 := by
  rw [← EReal.coe_one, ← EReal.coe_sub, sub_self, EReal.coe_zero]

/-- The mask `1 - [n = m]`: zero on the diagonal, one off it. -/
theorem val_v8_apply (n m : Fin 1024) :
    val_main_v8 (F := Ideal) (ix2 n m) = if n = m then 0 else 1 := by
  rw [val_main_v8_apply, val_main_v7_apply, val_main_cst_apply, val_main_v6_apply, val_main_v5_apply, val_main_v4_apply,
    val_main_v1_apply, val_main_v2_apply, val_main_v3_apply, val_main_c_apply]
  show FloatOps.subf (FloatOps.ofBits .f32 0x3F800000#32) (FloatOps.uitofp .f32 (IntOp.cmpi .eq (IntOp.addi (BitVec.ofNat 32 n.val) 0#32) (BitVec.ofNat 32 m.val))) = _
  rw [Ideal.subf_def, Ideal.ofBits_def, Consts.ofBits_one]
  have hadd : IntOp.addi (BitVec.ofNat 32 n.val) 0#32 = BitVec.ofNat 32 n.val := BitVec.add_zero _
  rw [hadd, cmpi_eq_ite]
  by_cases h : n = m
  · rw [if_pos h, if_pos ((ofNat_inj n m).mpr h)]
    show (1 : EReal) - (((1#1 : BitVec 1).toNat : ℝ) : EReal) = 0
    have : ((1#1 : BitVec 1).toNat : ℝ) = 1 := by norm_num
    rw [this, EReal.coe_one, one_sub_one]
  · rw [if_neg h, if_neg (fun hh => h ((ofNat_inj n m).mp hh))]
    show (1 : EReal) - (((0#1 : BitVec 1).toNat : ℝ) : EReal) = 1
    have : ((0#1 : BitVec 1).toNat : ℝ) = 0 := by norm_num
    rw [this, EReal.coe_zero, sub_zero]

variable (x1 : (⟨S8x1024x1024, .f32⟩ : BufTy).Contents (Elt Ideal))

/-- The adjacency times the mask is the adjacency off the diagonal: a product with `0` or `1`, exact for every entry. -/
theorem val_v11_apply (b : Fin 8) (n m : Fin 1024) :
    val_main_v11 (F := Ideal) x1 (ix3 b n m) = offDiag (fun n m : Fin 1024 => x1 (ix3 b n m)) n m := by
  rw [val_main_v11_apply, val_main_v10_apply, val_main_v9_apply]
  have e : idx_main_v9 (idx_main_v10 (ix3 b n m)) = ix2 n m :=
    funext fun a => Fin.ext (by match a with | ⟨0, _⟩ => rfl | ⟨1, _⟩ => rfl)
  rw [e, val_v8_apply, Ideal.mulf_def]
  unfold offDiag
  by_cases h : n = m
  · rw [if_pos h, if_pos h, mul_zero]
  · rw [if_neg h, if_neg h, mul_one]

/-- The host's sum along the last axis is the degree. -/
theorem val_v12_apply (b : Fin 8) (n : Fin 1024) :
    val_main_v12 (F := Ideal) x1 (ix2 b n) = degree (fun n m : Fin 1024 => x1 (ix3 b n m)) n := by
  rw [val_main_v12_apply, val_main_cst_0_apply, Ideal.ofBits_def, Consts.ofBits_zero, zero_add]
  unfold degree
  refine Finset.sum_congr rfl fun k _ => ?_
  have e : idx_main_v12 (ix2 b n) k = ix3 b n k :=
    funext fun a => Fin.ext (by match a with | ⟨0, _⟩ => rfl | ⟨1, _⟩ => rfl | ⟨2, _⟩ => rfl)
  rw [e, val_v11_apply]

/-- A selection under the mask `x > y` is the `if` on `y < x`. -/
theorem select_ogt (x y a b : EReal) :
    Scalar.select (Ideal.cmp .ogt x y) a b = if y < x then a else b := by
  unfold Scalar.select Ideal.cmp
  by_cases h : y < x
  · rw [if_pos h]; simp [h]
  · rw [if_neg h]; simp [h]

/-- The selection on a positive degree of the clamped inverse square root is `D^(-1/2)`. -/
theorem val_v18_apply (b : Fin 8) (n : Fin 1024) :
    val_main_v18 (F := Ideal) x1 (ix2 b n) = dinv epsE (fun n m : Fin 1024 => x1 (ix3 b n m)) n := by
  rw [val_main_v18_apply, val_main_v14_apply, val_main_v17_apply, val_main_v16_apply, val_main_v13_apply, val_main_cst_1_apply,
    val_main_v15_apply, val_main_cst_2_apply, val_main_call0_v1_apply, val_main_call0_v0_apply, val_main_cst_3_apply, val_v12_apply]
  rw [Ideal.hostUnary_rsqrt_def, Ideal.maximumf_def, Ideal.cmpf_def]
  simp only [Ideal.ofBits_def]
  rw [Consts.ofBits_zero, select_ogt]
  rfl

/-- The two products with `D^(-1/2)`, as a column and as a row. -/
theorem val_v24_apply (b : Fin 8) (n m : Fin 1024) :
    val_main_v24 (F := Ideal) x1 (ix3 b n m)
      = (dinv epsE (fun n m : Fin 1024 => x1 (ix3 b n m)) n * offDiag (fun n m : Fin 1024 => x1 (ix3 b n m)) n m)
        * dinv epsE (fun n m : Fin 1024 => x1 (ix3 b n m)) m := by
  rw [val_main_v24_apply, val_main_v21_apply, val_main_v20_apply, val_main_v19_apply, val_main_v23_apply, val_main_v22_apply]
  have e1 : idx_main_v19 (idx_main_v20 (ix3 b n m)) = ix2 b n :=
    funext fun a => Fin.ext (by match a with | ⟨0, _⟩ => rfl | ⟨1, _⟩ => rfl)
  have e2 : idx_main_v22 (idx_main_v23 (ix3 b n m)) = ix2 b m :=
    funext fun a => Fin.ext (by match a with | ⟨0, _⟩ => rfl | ⟨1, _⟩ => rfl)
  rw [e1, e2, val_v18_apply, val_v18_apply, val_v11_apply, Ideal.mulf_def, Ideal.mulf_def]

/-- Entry `(b, n, m)` of the reference's `L` is `lap` of graph `b`'s adjacency at `(n, m)`. -/
theorem val_v25_apply (b : Fin 8) (n m : Fin 1024) :
    val_main_v25 (F := Ideal) x1 (ix3 b n m) = lap epsE (fun n m : Fin 1024 => x1 (ix3 b n m)) n m := by
  rw [val_main_v25_apply, val_v24_apply, Ideal.hostNegf_def, Ideal.negf_def]
  rfl

end Cert.ReferenceIdeal.RefLap

end
-- ==== Proof.RefLay1.lean ====
/-
  The reference's layer 1, read at an entry: its stages (three slices of the weights, five products, the recurrence
  `2·L·T₁ - T₀`, two sums and the bias) are `chebRef` of graph `b`'s Laplacian, the layer's input features, the weights
  and the bias.
-/
import proofs.«126414_g3504693314081_cont_8to1_b_212_23_alg».proof.Proof.ReadS
import proofs.«126414_g3504693314081_cont_8to1_b_212_23_alg».proof.Proof.ChebG

set_option maxRecDepth 16384

noncomputable section

namespace Cert.ReferenceIdeal.RefLay1

open Cert.ReferenceIdeal Cert.ReferenceIdeal.Gen Cert.ReferenceIdeal.ReadP Idealize.ShloMosaic Idealize.ShloMosaic.ValueIdx Cert.Cheb

variable (x0 : (⟨S8x1024x12x8, .f32⟩ : BufTy).Contents (Elt Ideal)) (x1 : (⟨S8x1024x1024, .f32⟩ : BufTy).Contents (Elt Ideal))
  (x2 : (⟨S3x96x64, .f32⟩ : BufTy).Contents (Elt Ideal)) (x3 : (⟨S64, .f32⟩ : BufTy).Contents (Elt Ideal))
  (x4 : (⟨S3x64x64, .f32⟩ : BufTy).Contents (Elt Ideal)) (x5 : (⟨S64, .f32⟩ : BufTy).Contents (Elt Ideal))
  (x6 : (⟨S3x64x32, .f32⟩ : BufTy).Contents (Elt Ideal)) (x7 : (⟨S32, .f32⟩ : BufTy).Contents (Elt Ideal))

/-! ## The three weight tables: slice `k` of the weights, its leading axis of size one dropped -/

/-- Slice `0`: row-major position `i·64 + o` of the `[96, 64]` table is entry `(0, i, o)` of the weights. -/
theorem w0_apply (i : Fin 96) (o : Fin 64) : val_main_v27 (F := Ideal) x2 (ix2 i o) = x2 (ix3 0 i o) := by
  rw [val_main_v27_apply, val_main_v26_apply]
  refine congrArg x2 (funext fun a => Fin.ext ?_)
  have hi := i.isLt
  have ho := o.isLt
  match a with
  | ⟨0, _⟩ => rfl
  | ⟨1, _⟩ => show (i.val * 64 + o.val) / 64 % 96 = i.val; omega
  | ⟨2, _⟩ => show (i.val * 64 + o.val) % 64 = o.val; omega

/-- Slice `1`. -/
theorem w1_apply (i : Fin 96) (o : Fin 64) : val_main_v31 (F := Ideal) x2 (ix2 i o) = x2 (ix3 1 i o) := by
  rw [val_main_v31_apply, val_main_v30_apply]
  refine congrArg x2 (funext fun a => Fin.ext ?_)
  have hi := i.isLt
  have ho := o.isLt
  match a with
  | ⟨0, _⟩ => rfl
  | ⟨1, _⟩ => show (i.val * 64 + o.val) / 64 % 96 = i.val; omega
  | ⟨2, _⟩ => show (i.val * 64 + o.val) % 64 = o.val; omega

/-- Slice `2`. -/
theorem w2_apply (i : Fin 96) (o : Fin 64) : val_main_v39 (F := Ideal) x2 (ix2 i o) = x2 (ix3 2 i o) := by
  rw [val_main_v39_apply, val_main_v38_apply]
  refine congrArg x2 (funext fun a => Fin.ext ?_)
  have hi := i.isLt
  have ho := o.isLt
  match a with
  | ⟨0, _⟩ => rfl
  | ⟨1, _⟩ => show (i.val * 64 + o.val) / 64 % 96 = i.val; omega
  | ⟨2, _⟩ => show (i.val * 64 + o.val) % 64 = o.val; omega

/-- The bias, broadcast along graphs and nodes. -/
theorem bias_apply (b : Fin 8) (n : Fin 1024) (o : Fin 64) : val_main_v43 (F := Ideal) x3 (ix3 b n o) = x3 (ix1 o) := by
  rw [val_main_v43_apply, val_main_v42_apply]
  refine congrArg x3 (funext fun a => Fin.ext ?_)
  match a with
  | ⟨0, _⟩ => rfl

/-! ## The products -/

/-- One hop: `T₁ = L·h`, graph by graph. -/
theorem hop1_apply (b : Fin 8) (n : Fin 1024) (i : Fin 96) :
    val_main_v29 (F := Ideal) x0 x1 (ix3 b n i)
      = mm (fun n m : Fin 1024 => val_main_v25 (F := Ideal) x1 (ix3 b n m))
          (fun (n : Fin 1024) (i : Fin 96) => val_main_v0 (F := Ideal) x0 (ix3 b n i)) n i := by
  rw [val_main_v29_apply]
  unfold mm
  refine Finset.sum_congr rfl fun k _ => ?_
  refine congrArg₂ (· * ·) (congrArg _ ?_) (congrArg _ ?_)
  · funext a; apply Fin.ext; match a with | ⟨0, _⟩ => rfl | ⟨1, _⟩ => rfl | ⟨2, _⟩ => rfl
  · funext a; apply Fin.ext; match a with | ⟨0, _⟩ => rfl | ⟨1, _⟩ => rfl | ⟨2, _⟩ => rfl

/-- Two hops: `L·(L·h)`. -/
theorem hop2_apply (b : Fin 8) (n : Fin 1024) (i : Fin 96) :
    val_main_v34 (F := Ideal) x0 x1 (ix3 b n i)
      = mm (fun n m : Fin 1024 => val_main_v25 (F := Ideal) x1 (ix3 b n m))
          (mm (fun n m : Fin 1024 => val_main_v25 (F := Ideal) x1 (ix3 b n m))
            (fun (n : Fin 1024) (i : Fin 96) => val_main_v0 (F := Ideal) x0 (ix3 b n i))) n i := by
  rw [val_main_v34_apply]
  unfold mm
  refine Finset.sum_congr rfl fun k _ => ?_
  refine congrArg₂ (· * ·) (congrArg _ ?_) ?_
  · funext a; apply Fin.ext; match a with | ⟨0, _⟩ => rfl | ⟨1, _⟩ => rfl | ⟨2, _⟩ => rfl
  · have e : ridx_main_v34 (ix3 b n i) k = ix3 b k i := by
      funext a; apply Fin.ext; match a with | ⟨0, _⟩ => rfl | ⟨1, _⟩ => rfl | ⟨2, _⟩ => rfl
    rw [e, hop1_apply]
    rfl

/-- The recurrence `T₂ = 2·L·T₁ - T₀` at an entry. -/
theorem t2_apply (b : Fin 8) (n : Fin 1024) (i : Fin 96) :
    val_main_v37 (F := Ideal) x0 x1 (ix3 b n i)
      = twoE * mm (fun n m : Fin 1024 => val_main_v25 (F := Ideal) x1 (ix3 b n m))
          (mm (fun n m : Fin 1024 => val_main_v25 (F := Ideal) x1 (ix3 b n m))
            (fun (n : Fin 1024) (i : Fin 96) => val_main_v0 (F := Ideal) x0 (ix3 b n i))) n i
        - val_main_v0 (F := Ideal) x0 (ix3 b n i) := by
  rw [val_main_v37_apply, val_main_v36_apply, val_main_v35_apply, val_main_cst_4_apply, hop2_apply,
    Ideal.subf_def, Ideal.mulf_def, Ideal.ofBits_def]

/-- `T₀·W 0`. -/
theorem p0_apply (b : Fin 8) (n : Fin 1024) (o : Fin 64) :
    val_main_v28 (F := Ideal) x0 x2 (ix3 b n o)
      = mm (fun (n : Fin 1024) (i : Fin 96) => val_main_v0 (F := Ideal) x0 (ix3 b n i))
          (fun (i : Fin 96) (o : Fin 64) => x2 (ix3 0 i o)) n o := by
  rw [val_main_v28_apply]
  unfold mm
  refine Finset.sum_congr rfl fun k _ => ?_
  refine congrArg₂ (· * ·) (congrArg _ ?_) ?_
  · funext a; apply Fin.ext; match a with | ⟨0, _⟩ => rfl | ⟨1, _⟩ => rfl | ⟨2, _⟩ => rfl
  · have e : ridx_main_v28 (ix3 b n o) k = ix2 k o := by
      funext a; apply Fin.ext; match a with | ⟨0, _⟩ => rfl | ⟨1, _⟩ => rfl
    rw [e, w0_apply]

/-- `T₁·W 1`. -/
theorem p1_apply (b : Fin 8) (n : Fin 1024) (o : Fin 64) :
    val_main_v32 (F := Ideal) x0 x1 x2 (ix3 b n o)
      = mm (mm (fun n m : Fin 1024 => val_main_v25 (F := Ideal) x1 (ix3 b n m))
            (fun (n : Fin 1024) (i : Fin 96) => val_main_v0 (F := Ideal) x0 (ix3 b n i)))
          (fun (i : Fin 96) (o : Fin 64) => x2 (ix3 1 i o)) n o := by
  rw [val_main_v32_apply]
  refine Finset.sum_congr rfl fun k _ => ?_
  have el : lidx_main_v32 (ix3 b n o) k = ix3 b n k := by
    funext a; apply Fin.ext; match a with | ⟨0, _⟩ => rfl | ⟨1, _⟩ => rfl | ⟨2, _⟩ => rfl
  have er : ridx_main_v32 (ix3 b n o) k = ix2 k o := by
    funext a; apply Fin.ext; match a with | ⟨0, _⟩ => rfl | ⟨1, _⟩ => rfl
  rw [el, er, w1_apply, hop1_apply]

/-- `T₂·W 2`. -/
theorem p2_apply (b : Fin 8) (n : Fin 1024) (o : Fin 64) :
    val_main_v40 (F := Ideal) x0 x1 x2 (ix3 b n o)
      = mm (fun (n : Fin 1024) (i : Fin 96) =>
            twoE * mm (fun n m : Fin 1024 => val_main_v25 (F := Ideal) x1 (ix3 b n m))
              (mm (fun n m : Fin 1024 => val_main_v25 (F := Ideal) x1 (ix3 b n m))
                (fun (n : Fin 1024) (i : Fin 96) => val_main_v0 (F := Ideal) x0 (ix3 b n i))) n i
            - val_main_v0 (F := Ideal) x0 (ix3 b n i))
          (fun (i : Fin 96) (o : Fin 64) => x2 (ix3 2 i o)) n o := by
  rw [val_main_v40_apply]
  refine Finset.sum_congr rfl fun k _ => ?_
  have el : lidx_main_v40 (ix3 b n o) k = ix3 b n k := by
    funext a; apply Fin.ext; match a with | ⟨0, _⟩ => rfl | ⟨1, _⟩ => rfl | ⟨2, _⟩ => rfl
  have er : ridx_main_v40 (ix3 b n o) k = ix2 k o := by
    funext a; apply Fin.ext; match a with | ⟨0, _⟩ => rfl | ⟨1, _⟩ => rfl
  rw [el, er, w2_apply, t2_apply]

/-- Layer 1 before its rectifier. -/
theorem val_v44_apply (b : Fin 8) (n : Fin 1024) (o : Fin 64) :
    val_main_v44 (F := Ideal) x0 x1 x2 x3 (ix3 b n o)
      = chebRef twoE (fun n m : Fin 1024 => val_main_v25 (F := Ideal) x1 (ix3 b n m)) (fun (n : Fin 1024) (i : Fin 96) => val_main_v0 (F := Ideal) x0 (ix3 b n i))
          (fun (k : Fin 3) (i : Fin 96) (o : Fin 64) => x2 (ix3 k i o)) (fun o : Fin 64 => x3 (ix1 o)) n o := by
  rw [val_main_v44_apply, val_main_v41_apply, val_main_v33_apply, p0_apply, p1_apply, p2_apply, bias_apply,
    Ideal.addf_def, Ideal.addf_def, Ideal.addf_def]
  rfl

/-- The rectifier (jax's `relu`, a maximum with a zero splat). -/
theorem val_v45_apply (b : Fin 8) (n : Fin 1024) (o : Fin 64) :
    val_main_v45 (F := Ideal) x0 x1 x2 x3 (ix3 b n o) = relu (val_main_v44 (F := Ideal) x0 x1 x2 x3 (ix3 b n o)) := by
  rw [val_main_v45_apply, val_main_call1_v0_apply, val_main_call1_cst_apply, Ideal.maximumf_def, Ideal.ofBits_def,
    Ideal.ofBits_zero_f32]
  rfl

end Cert.ReferenceIdeal.RefLay1

end
-- ==== Proof.RefLay2.lean ====
/-
  The reference's layer 2, read at an entry: its stages (three slices of the weights, five products, the recurrence
  `2·L·T₁ - T₀`, two sums and the bias) are `chebRef` of graph `b`'s Laplacian, the layer's input features, the weights
  and the bias.
-/
import proofs.«126414_g3504693314081_cont_8to1_b_212_23_alg».proof.Proof.ReadS
import proofs.«126414_g3504693314081_cont_8to1_b_212_23_alg».proof.Proof.ChebG

set_option maxRecDepth 16384

noncomputable section

namespace Cert.ReferenceIdeal.RefLay2

open Cert.ReferenceIdeal Cert.ReferenceIdeal.Gen Cert.ReferenceIdeal.ReadP Idealize.ShloMosaic Idealize.ShloMosaic.ValueIdx Cert.Cheb

variable (x0 : (⟨S8x1024x12x8, .f32⟩ : BufTy).Contents (Elt Ideal)) (x1 : (⟨S8x1024x1024, .f32⟩ : BufTy).Contents (Elt Ideal))
  (x2 : (⟨S3x96x64, .f32⟩ : BufTy).Contents (Elt Ideal)) (x3 : (⟨S64, .f32⟩ : BufTy).Contents (Elt Ideal))
  (x4 : (⟨S3x64x64, .f32⟩ : BufTy).Contents (Elt Ideal)) (x5 : (⟨S64, .f32⟩ : BufTy).Contents (Elt Ideal))
  (x6 : (⟨S3x64x32, .f32⟩ : BufTy).Contents (Elt Ideal)) (x7 : (⟨S32, .f32⟩ : BufTy).Contents (Elt Ideal))

/-- An entry of a product of tables, as its sum. -/
theorem mm_apply {α β γ : Type*} [Fintype β] (A : α → β → EReal) (B : β → γ → EReal) (a : α) (c : γ) :
    mm A B a c = ∑ b, A a b * B b c := rfl

/-! ## The weight tables: slice `k` of the weights, its unit axis dropped, is the table `W k`. -/

/-- Row-major position `i * 64 + o` of a `64 × 64` table splits back into `(i, o)`. -/
theorem v47_at (i o : Fin 64) : val_main_v47 (F := Ideal) x4 (ix2 i o) = x4 (ix3 0 i o) := by
  rw [val_main_v47_apply, val_main_v46_apply]
  refine congrArg x4 (funext fun a => Fin.ext ?_)
  have hi := i.isLt
  have ho := o.isLt
  match a with
  | ⟨0, _⟩ => rfl
  | ⟨1, _⟩ => show (i.val * 64 + o.val) / 64 % 64 = i.val; omega
  | ⟨2, _⟩ => show (i.val * 64 + o.val) % 64 = o.val; omega

theorem v51_at (i o : Fin 64) : val_main_v51 (F := Ideal) x4 (ix2 i o) = x4 (ix3 1 i o) := by
  rw [val_main_v51_apply, val_main_v50_apply]
  refine congrArg x4 (funext fun a => Fin.ext ?_)
  have hi := i.isLt
  have ho := o.isLt
  match a with
  | ⟨0, _⟩ => rfl
  | ⟨1, _⟩ => show (i.val * 64 + o.val) / 64 % 64 = i.val; omega
  | ⟨2, _⟩ => show (i.val * 64 + o.val) % 64 = o.val; omega

theorem v59_at (i o : Fin 64) : val_main_v59 (F := Ideal) x4 (ix2 i o) = x4 (ix3 2 i o) := by
  rw [val_main_v59_apply, val_main_v58_apply]
  refine congrArg x4 (funext fun a => Fin.ext ?_)
  have hi := i.isLt
  have ho := o.isLt
  match a with
  | ⟨0, _⟩ => rfl
  | ⟨1, _⟩ => show (i.val * 64 + o.val) / 64 % 64 = i.val; omega
  | ⟨2, _⟩ => show (i.val * 64 + o.val) % 64 = o.val; omega

/-! ## The two hops: `T₁ = L·h` and `L·T₁`, graph by graph. -/

/-- `T₁ = L·h`: the batched product contracts the Laplacian's column with the features' node axis. -/
theorem v49_at (b : Fin 8) (n : Fin 1024) (i : Fin 64) :
    val_main_v49 (F := Ideal) x0 x1 x2 x3 (ix3 b n i)
      = mm (fun n m : Fin 1024 => val_main_v25 (F := Ideal) x1 (ix3 b n m))
          (fun (n : Fin 1024) (i : Fin 64) => val_main_v45 (F := Ideal) x0 x1 x2 x3 (ix3 b n i)) n i := by
  rw [val_main_v49_apply]
  unfold mm
  refine Finset.sum_congr rfl fun k _ => ?_
  have el : lidx_main_v49 (ix3 b n i) k = ix3 b n k :=
    funext fun a => Fin.ext (by match a with | ⟨0, _⟩ => rfl | ⟨1, _⟩ => rfl | ⟨2, _⟩ => rfl)
  have er : ridx_main_v49 (ix3 b n i) k = ix3 b k i :=
    funext fun a => Fin.ext (by match a with | ⟨0, _⟩ => rfl | ⟨1, _⟩ => rfl | ⟨2, _⟩ => rfl)
  rw [el, er]

/-- `L·T₁`. -/
theorem v54_at (b : Fin 8) (n : Fin 1024) (i : Fin 64) :
    val_main_v54 (F := Ideal) x0 x1 x2 x3 (ix3 b n i)
      = mm (fun n m : Fin 1024 => val_main_v25 (F := Ideal) x1 (ix3 b n m))
          (mm (fun n m : Fin 1024 => val_main_v25 (F := Ideal) x1 (ix3 b n m))
            (fun (n : Fin 1024) (i : Fin 64) => val_main_v45 (F := Ideal) x0 x1 x2 x3 (ix3 b n i))) n i := by
  rw [val_main_v54_apply]
  refine Eq.trans ?_ (mm_apply _ _ _ _).symm
  refine Finset.sum_congr rfl fun k _ => ?_
  have el : lidx_main_v54 (ix3 b n i) k = ix3 b n k :=
    funext fun a => Fin.ext (by match a with | ⟨0, _⟩ => rfl | ⟨1, _⟩ => rfl | ⟨2, _⟩ => rfl)
  have er : ridx_main_v54 (ix3 b n i) k = ix3 b k i :=
    funext fun a => Fin.ext (by match a with | ⟨0, _⟩ => rfl | ⟨1, _⟩ => rfl | ⟨2, _⟩ => rfl)
  rw [el, er, v49_at]

/-- `T₂ = 2·(L·T₁) - T₀`, the factor a splat of the constant `2.0`. -/
theorem v57_at (b : Fin 8) (n : Fin 1024) (i : Fin 64) :
    val_main_v57 (F := Ideal) x0 x1 x2 x3 (ix3 b n i)
      = twoE * mm (fun n m : Fin 1024 => val_main_v25 (F := Ideal) x1 (ix3 b n m))
          (mm (fun n m : Fin 1024 => val_main_v25 (F := Ideal) x1 (ix3 b n m))
            (fun (n : Fin 1024) (i : Fin 64) => val_main_v45 (F := Ideal) x0 x1 x2 x3 (ix3 b n i))) n i
        - val_main_v45 (F := Ideal) x0 x1 x2 x3 (ix3 b n i) := by
  rw [val_main_v57_apply, val_main_v56_apply, val_main_v55_apply, val_main_cst_5_apply, v54_at]
  rfl

/-! ## The three products with the weight tables. -/

/-- `T₀·W 0`. -/
theorem v48_at (b : Fin 8) (n : Fin 1024) (o : Fin 64) :
    val_main_v48 (F := Ideal) x0 x1 x2 x3 x4 (ix3 b n o)
      = mm (fun (n : Fin 1024) (i : Fin 64) => val_main_v45 (F := Ideal) x0 x1 x2 x3 (ix3 b n i))
          (fun (i : Fin 64) (o : Fin 64) => x4 (ix3 0 i o)) n o := by
  rw [val_main_v48_apply]
  unfold mm
  refine Finset.sum_congr rfl fun k _ => ?_
  have el : lidx_main_v48 (ix3 b n o) k = ix3 b n k :=
    funext fun a => Fin.ext (by match a with | ⟨0, _⟩ => rfl | ⟨1, _⟩ => rfl | ⟨2, _⟩ => rfl)
  have er : ridx_main_v48 (ix3 b n o) k = ix2 k o :=
    funext fun a => Fin.ext (by match a with | ⟨0, _⟩ => rfl | ⟨1, _⟩ => rfl)
  rw [el, er, v47_at]

/-- `T₁·W 1`. -/
theorem v52_at (b : Fin 8) (n : Fin 1024) (o : Fin 64) :
    val_main_v52 (F := Ideal) x0 x1 x2 x3 x4 (ix3 b n o)
      = mm (mm (fun n m : Fin 1024 => val_main_v25 (F := Ideal) x1 (ix3 b n m))
            (fun (n : Fin 1024) (i : Fin 64) => val_main_v45 (F := Ideal) x0 x1 x2 x3 (ix3 b n i)))
          (fun (i : Fin 64) (o : Fin 64) => x4 (ix3 1 i o)) n o := by
  rw [val_main_v52_apply]
  refine Eq.trans ?_ (mm_apply _ _ _ _).symm
  refine Finset.sum_congr rfl fun k _ => ?_
  have el : lidx_main_v52 (ix3 b n o) k = ix3 b n k :=
    funext fun a => Fin.ext (by match a with | ⟨0, _⟩ => rfl | ⟨1, _⟩ => rfl | ⟨2, _⟩ => rfl)
  have er : ridx_main_v52 (ix3 b n o) k = ix2 k o :=
    funext fun a => Fin.ext (by match a with | ⟨0, _⟩ => rfl | ⟨1, _⟩ => rfl)
  rw [el, er, v51_at, v49_at]

/-- `T₂·W 2`. -/
theorem v60_at (b : Fin 8) (n : Fin 1024) (o : Fin 64) :
    val_main_v60 (F := Ideal) x0 x1 x2 x3 x4 (ix3 b n o)
      = mm (fun (n : Fin 1024) (i : Fin 64) =>
            twoE * mm (fun n m : Fin 1024 => val_main_v25 (F := Ideal) x1 (ix3 b n m))
              (mm (fun n m : Fin 1024 => val_main_v25 (F := Ideal) x1 (ix3 b n m))
                (fun (n : Fin 1024) (i : Fin 64) => val_main_v45 (F := Ideal) x0 x1 x2 x3 (ix3 b n i))) n i
            - val_main_v45 (F := Ideal) x0 x1 x2 x3 (ix3 b n i))
          (fun (i : Fin 64) (o : Fin 64) => x4 (ix3 2 i o)) n o := by
  rw [val_main_v60_apply]
  refine Eq.trans ?_ (mm_apply _ _ _ _).symm
  refine Finset.sum_congr rfl fun k _ => ?_
  have el : lidx_main_v60 (ix3 b n o) k = ix3 b n k :=
    funext fun a => Fin.ext (by match a with | ⟨0, _⟩ => rfl | ⟨1, _⟩ => rfl | ⟨2, _⟩ => rfl)
  have er : ridx_main_v60 (ix3 b n o) k = ix2 k o :=
    funext fun a => Fin.ext (by match a with | ⟨0, _⟩ => rfl | ⟨1, _⟩ => rfl)
  rw [el, er, v59_at, v57_at]

/-! ## The bias, broadcast over graphs and nodes. -/

theorem v63_at (b : Fin 8) (n : Fin 1024) (o : Fin 64) :
    val_main_v63 (F := Ideal) x5 (ix3 b n o) = x5 (ix1 o) := by
  rw [val_main_v63_apply, val_main_v62_apply]
  exact congrArg x5 (funext fun a => Fin.ext (by match a with | ⟨0, _⟩ => rfl))

/-- Layer 2 before its rectifier, over layer 1's rectified features. -/
theorem val_v64_apply (b : Fin 8) (n : Fin 1024) (o : Fin 64) :
    val_main_v64 (F := Ideal) x0 x1 x2 x3 x4 x5 (ix3 b n o)
      = chebRef twoE (fun n m : Fin 1024 => val_main_v25 (F := Ideal) x1 (ix3 b n m)) (fun (n : Fin 1024) (i : Fin 64) => val_main_v45 (F := Ideal) x0 x1 x2 x3 (ix3 b n i))
          (fun (k : Fin 3) (i : Fin 64) (o : Fin 64) => x4 (ix3 k i o)) (fun o : Fin 64 => x5 (ix1 o)) n o := by
  rw [val_main_v64_apply, val_main_v61_apply, val_main_v53_apply, v48_at, v52_at, v60_at, v63_at]
  rfl

/-- The rectifier. -/
theorem val_v65_apply (b : Fin 8) (n : Fin 1024) (o : Fin 64) :
    val_main_v65 (F := Ideal) x0 x1 x2 x3 x4 x5 (ix3 b n o) = relu (val_main_v64 (F := Ideal) x0 x1 x2 x3 x4 x5 (ix3 b n o)) := by
  rw [val_main_v65_apply, val_main_call2_v0_apply, val_main_call2_cst_apply, Ideal.maximumf_def, Ideal.ofBits_def,
    Ideal.ofBits_zero_f32]
  rfl

end Cert.ReferenceIdeal.RefLay2

end
-- ==== Proof.RefLay3.lean ====
/-
  The reference's layer 3, read at an entry: its stages (three slices of the weights, five products, the recurrence
  `2·L·T₁ - T₀`, two sums and the bias) are `chebRef` of graph `b`'s Laplacian, the layer's input features, the weights
  and the bias.
-/
import proofs.«126414_g3504693314081_cont_8to1_b_212_23_alg».proof.Proof.ReadS
import proofs.«126414_g3504693314081_cont_8to1_b_212_23_alg».proof.Proof.ChebG

set_option maxRecDepth 16384

noncomputable section

namespace Cert.ReferenceIdeal.RefLay3

open Cert.ReferenceIdeal Cert.ReferenceIdeal.Gen Cert.ReferenceIdeal.ReadP Idealize.ShloMosaic Idealize.ShloMosaic.ValueIdx Cert.Cheb

variable (x0 : (⟨S8x1024x12x8, .f32⟩ : BufTy).Contents (Elt Ideal)) (x1 : (⟨S8x1024x1024, .f32⟩ : BufTy).Contents (Elt Ideal))
  (x2 : (⟨S3x96x64, .f32⟩ : BufTy).Contents (Elt Ideal)) (x3 : (⟨S64, .f32⟩ : BufTy).Contents (Elt Ideal))
  (x4 : (⟨S3x64x64, .f32⟩ : BufTy).Contents (Elt Ideal)) (x5 : (⟨S64, .f32⟩ : BufTy).Contents (Elt Ideal))
  (x6 : (⟨S3x64x32, .f32⟩ : BufTy).Contents (Elt Ideal)) (x7 : (⟨S32, .f32⟩ : BufTy).Contents (Elt Ideal))

/-! ## The three weight tables: slice `k` of the weights, its leading unit axis dropped -/

/-- Slice 0 of the weights, as a `64 × 32` table: entry `(i, o)` is the weights' entry `(0, i, o)` (the flat position
    `i·32 + o` of the reshape splits back into `i` and `o`). -/
theorem v67_at (i : Fin 64) (o : Fin 32) : val_main_v67 (F := Ideal) x6 (ix2 i o) = x6 (ix3 (0 : Fin 3) i o) := by
  rw [val_main_v67_apply, val_main_v66_apply]
  refine congrArg x6 (funext fun a => Fin.ext ?_)
  have hi : i.val < 64 := i.isLt
  have ho : o.val < 32 := o.isLt
  match a with
  | ⟨0, _⟩ => rfl
  | ⟨1, _⟩ => show (i.val * 32 + o.val) / 32 % 64 = i.val; omega
  | ⟨2, _⟩ => show (i.val * 32 + o.val) % 32 = o.val; omega

/-- Slice 1 of the weights. -/
theorem v71_at (i : Fin 64) (o : Fin 32) : val_main_v71 (F := Ideal) x6 (ix2 i o) = x6 (ix3 (1 : Fin 3) i o) := by
  rw [val_main_v71_apply, val_main_v70_apply]
  refine congrArg x6 (funext fun a => Fin.ext ?_)
  have hi : i.val < 64 := i.isLt
  have ho : o.val < 32 := o.isLt
  match a with
  | ⟨0, _⟩ => rfl
  | ⟨1, _⟩ => show (i.val * 32 + o.val) / 32 % 64 = i.val; omega
  | ⟨2, _⟩ => show (i.val * 32 + o.val) % 32 = o.val; omega

/-- Slice 2 of the weights. -/
theorem v79_at (i : Fin 64) (o : Fin 32) : val_main_v79 (F := Ideal) x6 (ix2 i o) = x6 (ix3 (2 : Fin 3) i o) := by
  rw [val_main_v79_apply, val_main_v78_apply]
  refine congrArg x6 (funext fun a => Fin.ext ?_)
  have hi : i.val < 64 := i.isLt
  have ho : o.val < 32 := o.isLt
  match a with
  | ⟨0, _⟩ => rfl
  | ⟨1, _⟩ => show (i.val * 32 + o.val) / 32 % 64 = i.val; omega
  | ⟨2, _⟩ => show (i.val * 32 + o.val) % 32 = o.val; omega

/-! ## The two hops along the graph -/

/-- `T₁ = L·h`: the batched product contracts the Laplacian's column against the features' node axis, graph by graph. -/
theorem v69_at (b : Fin 8) (n : Fin 1024) (i : Fin 64) :
    val_main_v69 (F := Ideal) x0 x1 x2 x3 x4 x5 (ix3 b n i)
      = mm (fun n m : Fin 1024 => val_main_v25 (F := Ideal) x1 (ix3 b n m))
          (fun (n : Fin 1024) (i : Fin 64) => val_main_v65 (F := Ideal) x0 x1 x2 x3 x4 x5 (ix3 b n i)) n i := by
  rw [val_main_v69_apply]
  refine Finset.sum_congr rfl fun k _ => ?_
  have el : lidx_main_v69 (ix3 b n i) k = ix3 b n k :=
    funext fun a => Fin.ext (by match a with | ⟨0, _⟩ => rfl | ⟨1, _⟩ => rfl | ⟨2, _⟩ => rfl)
  have er : ridx_main_v69 (ix3 b n i) k = ix3 b k i :=
    funext fun a => Fin.ext (by match a with | ⟨0, _⟩ => rfl | ⟨1, _⟩ => rfl | ⟨2, _⟩ => rfl)
  rw [el, er]

/-- `L·T₁ = L·(L·h)`: the same product once more, over the first hop. -/
theorem v74_at (b : Fin 8) (n : Fin 1024) (i : Fin 64) :
    val_main_v74 (F := Ideal) x0 x1 x2 x3 x4 x5 (ix3 b n i)
      = mm (fun n m : Fin 1024 => val_main_v25 (F := Ideal) x1 (ix3 b n m))
          (mm (fun n m : Fin 1024 => val_main_v25 (F := Ideal) x1 (ix3 b n m))
            (fun (n : Fin 1024) (i : Fin 64) => val_main_v65 (F := Ideal) x0 x1 x2 x3 x4 x5 (ix3 b n i))) n i := by
  rw [val_main_v74_apply]
  refine Finset.sum_congr rfl fun k _ => ?_
  have el : lidx_main_v74 (ix3 b n i) k = ix3 b n k :=
    funext fun a => Fin.ext (by match a with | ⟨0, _⟩ => rfl | ⟨1, _⟩ => rfl | ⟨2, _⟩ => rfl)
  have er : ridx_main_v74 (ix3 b n i) k = ix3 b k i :=
    funext fun a => Fin.ext (by match a with | ⟨0, _⟩ => rfl | ⟨1, _⟩ => rfl | ⟨2, _⟩ => rfl)
  rw [el, er, v69_at]

/-- `T₂ = 2·L·T₁ - T₀`, entry by entry. -/
theorem v77_at (b : Fin 8) (n : Fin 1024) (i : Fin 64) :
    val_main_v77 (F := Ideal) x0 x1 x2 x3 x4 x5 (ix3 b n i)
      = twoE * mm (fun n m : Fin 1024 => val_main_v25 (F := Ideal) x1 (ix3 b n m))
          (mm (fun n m : Fin 1024 => val_main_v25 (F := Ideal) x1 (ix3 b n m))
            (fun (n : Fin 1024) (i : Fin 64) => val_main_v65 (F := Ideal) x0 x1 x2 x3 x4 x5 (ix3 b n i))) n i
        - val_main_v65 (F := Ideal) x0 x1 x2 x3 x4 x5 (ix3 b n i) := by
  rw [val_main_v77_apply, val_main_v76_apply, val_main_v75_apply, val_main_cst_6_apply, v74_at]
  rfl

/-! ## The three products with the weight tables -/

/-- `T₀·W 0`. -/
theorem v68_at (b : Fin 8) (n : Fin 1024) (o : Fin 32) :
    val_main_v68 (F := Ideal) x0 x1 x2 x3 x4 x5 x6 (ix3 b n o)
      = mm (fun (n : Fin 1024) (i : Fin 64) => val_main_v65 (F := Ideal) x0 x1 x2 x3 x4 x5 (ix3 b n i))
          (fun (i : Fin 64) (o : Fin 32) => x6 (ix3 (0 : Fin 3) i o)) n o := by
  rw [val_main_v68_apply]
  refine Finset.sum_congr rfl fun k _ => ?_
  have el : lidx_main_v68 (ix3 b n o) k = ix3 b n k :=
    funext fun a => Fin.ext (by match a with | ⟨0, _⟩ => rfl | ⟨1, _⟩ => rfl | ⟨2, _⟩ => rfl)
  have er : ridx_main_v68 (ix3 b n o) k = ix2 k o :=
    funext fun a => Fin.ext (by match a with | ⟨0, _⟩ => rfl | ⟨1, _⟩ => rfl)
  rw [el, er, v67_at]

/-- `T₁·W 1`. -/
theorem v72_at (b : Fin 8) (n : Fin 1024) (o : Fin 32) :
    val_main_v72 (F := Ideal) x0 x1 x2 x3 x4 x5 x6 (ix3 b n o)
      = mm (mm (fun n m : Fin 1024 => val_main_v25 (F := Ideal) x1 (ix3 b n m))
            (fun (n : Fin 1024) (i : Fin 64) => val_main_v65 (F := Ideal) x0 x1 x2 x3 x4 x5 (ix3 b n i)))
          (fun (i : Fin 64) (o : Fin 32) => x6 (ix3 (1 : Fin 3) i o)) n o := by
  rw [val_main_v72_apply]
  refine Finset.sum_congr rfl fun k _ => ?_
  have el : lidx_main_v72 (ix3 b n o) k = ix3 b n k :=
    funext fun a => Fin.ext (by match a with | ⟨0, _⟩ => rfl | ⟨1, _⟩ => rfl | ⟨2, _⟩ => rfl)
  have er : ridx_main_v72 (ix3 b n o) k = ix2 k o :=
    funext fun a => Fin.ext (by match a with | ⟨0, _⟩ => rfl | ⟨1, _⟩ => rfl)
  rw [el, er, v71_at, v69_at]

/-- `T₂·W 2`. -/
theorem v80_at (b : Fin 8) (n : Fin 1024) (o : Fin 32) :
    val_main_v80 (F := Ideal) x0 x1 x2 x3 x4 x5 x6 (ix3 b n o)
      = mm (fun (n : Fin 1024) (i : Fin 64) =>
            twoE * mm (fun n m : Fin 1024 => val_main_v25 (F := Ideal) x1 (ix3 b n m))
              (mm (fun n m : Fin 1024 => val_main_v25 (F := Ideal) x1 (ix3 b n m))
                (fun (n : Fin 1024) (i : Fin 64) => val_main_v65 (F := Ideal) x0 x1 x2 x3 x4 x5 (ix3 b n i))) n i
            - val_main_v65 (F := Ideal) x0 x1 x2 x3 x4 x5 (ix3 b n i))
          (fun (i : Fin 64) (o : Fin 32) => x6 (ix3 (2 : Fin 3) i o)) n o := by
  rw [val_main_v80_apply]
  refine Finset.sum_congr rfl fun k _ => ?_
  have el : lidx_main_v80 (ix3 b n o) k = ix3 b n k :=
    funext fun a => Fin.ext (by match a with | ⟨0, _⟩ => rfl | ⟨1, _⟩ => rfl | ⟨2, _⟩ => rfl)
  have er : ridx_main_v80 (ix3 b n o) k = ix2 k o :=
    funext fun a => Fin.ext (by match a with | ⟨0, _⟩ => rfl | ⟨1, _⟩ => rfl)
  rw [el, er, v79_at, v77_at]

/-! ## The bias -/

/-- The bias, broadcast along graphs and nodes. -/
theorem v83_at (b : Fin 8) (n : Fin 1024) (o : Fin 32) :
    val_main_v83 (F := Ideal) x7 (ix3 b n o) = x7 (ix1 o) := by
  rw [val_main_v83_apply, val_main_v82_apply]
  refine congrArg x7 (funext fun a => Fin.ext ?_)
  match a with
  | ⟨0, _⟩ => rfl

/-- Layer 3, over layer 2's rectified features: the reference's result. -/
theorem val_v84_apply (b : Fin 8) (n : Fin 1024) (o : Fin 32) :
    val_main_v84 (F := Ideal) x0 x1 x2 x3 x4 x5 x6 x7 (ix3 b n o)
      = chebRef twoE (fun n m : Fin 1024 => val_main_v25 (F := Ideal) x1 (ix3 b n m)) (fun (n : Fin 1024) (i : Fin 64) => val_main_v65 (F := Ideal) x0 x1 x2 x3 x4 x5 (ix3 b n i))
          (fun (k : Fin 3) (i : Fin 64) (o : Fin 32) => x6 (ix3 k i o)) (fun o : Fin 32 => x7 (ix1 o)) n o := by
  rw [val_main_v84_apply, val_main_v81_apply, val_main_v73_apply, v68_at, v72_at, v80_at, v83_at]
  rfl

end Cert.ReferenceIdeal.RefLay3

end
-- ==== Proof.RefG.lean ====
/-
  The reference's result array is `GRef` of its arguments: the three layers' readings composed, with the Laplacian's
  reading under each.
-/
import proofs.«126414_g3504693314081_cont_8to1_b_212_23_alg».proof.Proof.RefLap
import proofs.«126414_g3504693314081_cont_8to1_b_212_23_alg».proof.Proof.RefLay1
import proofs.«126414_g3504693314081_cont_8to1_b_212_23_alg».proof.Proof.RefLay2
import proofs.«126414_g3504693314081_cont_8to1_b_212_23_alg».proof.Proof.RefLay3

set_option maxRecDepth 16384

noncomputable section

namespace Cert.ReferenceIdeal.RefG

open Cert.ReferenceIdeal Cert.ReferenceIdeal.Gen Cert.ReferenceIdeal.ReadP Idealize.ShloMosaic Idealize.ShloMosaic.ValueIdx Cert.Cheb

variable (x0 : (⟨S8x1024x12x8, .f32⟩ : BufTy).Contents (Elt Ideal)) (x1 : (⟨S8x1024x1024, .f32⟩ : BufTy).Contents (Elt Ideal))
  (x2 : (⟨S3x96x64, .f32⟩ : BufTy).Contents (Elt Ideal)) (x3 : (⟨S64, .f32⟩ : BufTy).Contents (Elt Ideal))
  (x4 : (⟨S3x64x64, .f32⟩ : BufTy).Contents (Elt Ideal)) (x5 : (⟨S64, .f32⟩ : BufTy).Contents (Elt Ideal))
  (x6 : (⟨S3x64x32, .f32⟩ : BufTy).Contents (Elt Ideal)) (x7 : (⟨S32, .f32⟩ : BufTy).Contents (Elt Ideal))

/-- The reference's result, as one function of its arguments. -/
theorem ref_is_G :
    val_main_v84 (F := Ideal) x0 x1 x2 x3 x4 x5 x6 x7 = GRef x1 (val_main_v0 (F := Ideal) x0) x2 x3 x4 x5 x6 x7 := by
  funext j
  obtain ⟨b, n, o, rfl⟩ : ∃ (b : Fin 8) (n : Fin 1024) (o : Fin 32), j = ix3 b n o := ⟨j 0, j 1, j 2, eq_ix3 j⟩
  rw [GRef_apply]
  unfold GRefAt netRef
  rw [RefLay3.val_v84_apply]
  simp only [RefLay2.val_v65_apply, RefLay2.val_v64_apply, RefLay1.val_v45_apply, RefLay1.val_v44_apply, RefLap.val_v25_apply]

end Cert.ReferenceIdeal.RefG

end
-- ==== Proof.FinPre.lean ====
/-
  From the precondition to real entries: `finite_inputs` says of each of the eight argument arrays that every entry's
  absolute value is below `+∞`; an extended real whose absolute value `max x (-x)` is below `⊤` is neither infinity.
-/
import proofs.«126414_g3504693314081_cont_8to1_b_212_23_alg».proof.Pre_finite_inputs
import proofs.«126414_g3504693314081_cont_8to1_b_212_23_alg».proof.Proof.ChebSpec
import Idealize.ShloMosaic.Lib.ReduceAll
import Idealize.ShloMosaic.Lib.ValueIdx
import Idealize.ShloMosaic.PureOps.Ideal.Laws

set_option maxRecDepth 16384

noncomputable section

namespace Cert.FinPre

open Cert.Pre_finite_inputs Idealize.ShloMosaic Idealize.ShloMosaic.ValueIdx Cert.Cheb

/-- The result of a reduction over all axes has exactly one index. -/
instance : Subsingleton S_.Idx := ⟨fun a b => funext fun d => d.elim0⟩

/-- An extended real whose absolute value `max x (-x)` is below `⊤` is a real number: at `⊥` the negation is `⊤`,
    at `⊤` the number itself is. -/
theorem isR_of_abs_lt_top {x : EReal} (h : max x (-x) < ⊤) : IsR x := by
  induction x using EReal.rec with
  | bot => simp at h
  | coe r => exact ⟨r, rfl⟩
  | top => simp at h

/-- The pattern `0x7F800000` (sign 0, exponent all ones, significand 0) denotes `+∞`. -/
theorem ofBits_inf : Ideal.ofBits .f32 0x7F800000#32 = (⊤ : EReal) := by
  simp [Ideal.ofBits, Ideal.ieee]

/-- One conjunct of the precondition, read back: if the conjunction over all indices of `|a i| < +∞` is 1, then
    every `a i` is a real number. -/
theorem isR_of_all {s : Shape} {axes : List (Fin s.rank)} (a : FVec Ideal s .f32) (dims : Fin S_.rank → Fin s.rank)
    (hb : S_.BroadcastsInDim s dims) (hr : s.ReducesTo axes S_) (hu : 0 < S_.numel) (init : IVec S_ 1) (j : S_.Idx)
    (e : Host.reduce IntOp.andi
        (cmpf .olt (Host.absf a) (broadcastInDim s dims hb (constant (F := Ideal) S_ .f32 0x7F800000#32))) init hr hu j
      = 1#1) (i : s.Idx) : IsR (a i) := by
  have h1 := Host.reduce_andi_all _ init hr hu j e i
  have h2 : Ideal.cmp .olt (max (a i) (-(a i))) (Ideal.ofBits .f32 0x7F800000#32) = 1#1 := h1
  rw [ofBits_inf] at h2
  apply isR_of_abs_lt_top
  by_contra hn
  simp [Ideal.cmp, hn] at h2

variable [Cert.Pre_finite_inputs.Facts]

/-- Under the precondition every entry of every argument array is a real number. -/
theorem real_of_pre (a0 : FVec Ideal S8x1024x12x8 .f32) (a1 : FVec Ideal S8x1024x1024 .f32) (a2 : FVec Ideal S3x96x64 .f32)
    (a3 : FVec Ideal S64 .f32) (a4 : FVec Ideal S3x64x64 .f32) (a5 : FVec Ideal S64 .f32) (a6 : FVec Ideal S3x64x32 .f32)
    (a7 : FVec Ideal S32 .f32)
    (h : Cert.Pre_finite_inputs.fn (F := Ideal) a0 a1 a2 a3 a4 a5 a6 a7 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) := by
  have h0 := congrFun h ValueIdx.ix0
  dsimp only [Cert.Pre_finite_inputs.fn, Cert.Pre_finite_inputs.fn_part1, Cert.Pre_finite_inputs.fn_part2] at h0
  -- the eight bits are combined as `((((((p0 ∧ p1) ∧ p2) ∧ p3) ∧ p4) ∧ p5) ∧ p6) ∧ p7`
  obtain ⟨h0, p7⟩ := IntOp.andi_eq_one.1 h0
  obtain ⟨h0, p6⟩ := IntOp.andi_eq_one.1 h0
  obtain ⟨h0, p5⟩ := IntOp.andi_eq_one.1 h0
  obtain ⟨h0, p4⟩ := IntOp.andi_eq_one.1 h0
  obtain ⟨h0, p3⟩ := IntOp.andi_eq_one.1 h0
  obtain ⟨h0, p2⟩ := IntOp.andi_eq_one.1 h0
  obtain ⟨p0, p1⟩ := IntOp.andi_eq_one.1 h0
  exact ⟨isR_of_all a0 _ _ _ _ _ _ p0, isR_of_all a1 _ _ _ _ _ _ p1, isR_of_all a2 _ _ _ _ _ _ p2,
    isR_of_all a3 _ _ _ _ _ _ p3, isR_of_all a4 _ _ _ _ _ _ p4, isR_of_all a5 _ _ _ _ _ _ p5,
    isR_of_all a6 _ _ _ _ _ _ p6, isR_of_all a7 _ _ _ _ _ _ p7⟩

end Cert.FinPre

end
-- ==== Proof.lean ====
/-
  The certificate: a fused three-layer Chebyshev graph network (K = 3; eight graphs of 1024 nodes, features
  96 → 64 → 64 → 32) in one kernel, two graphs per grid point, against the layer-by-layer reference.

  Both programs build the scaled Laplacian `L = -(D^(-1/2) · a' · D^(-1/2))` of each graph (`a'` the adjacency off its
  diagonal, `D` its row sums, `D^(-1/2)` zero where a row sum is not positive) — the kernel masks the diagonal by a
  selection and takes the sign on the left factor, the reference multiplies by `1 - I` and negates the product: one
  function on the extended reals. A layer of the reference is the recurrence `h·W₀ + (L·h)·W₁ + (2·L·(L·h) - h)·W₂ + b`;
  the kernel computes `h·(W₀ - W₂) + (L·h)·W₁ + 2·L·((L·h)·W₂) + b`. These agree when every entry is a real number
  (distributivity and the exchange of two finite sums), which is what the precondition gives of the inputs and what
  each layer preserves; the rectifier `max · 0` between layers is the same on both sides.
  The kernel's frames are the generated ones; its value is read off the generated blockwise run (what each grid point
  writes back is a block of one whole-array function, and the four blocks tile the output); the reference's run and its
  stage-by-stage readings are generated modules.
-/
import proofs.«126414_g3504693314081_cont_8to1_b_212_23_alg».proof.Defs
import proofs.«126414_g3504693314081_cont_8to1_b_212_23_alg».proof.Proof.Gen.Kernel
import proofs.«126414_g3504693314081_cont_8to1_b_212_23_alg».proof.Proof.Gen.Kernel.Skeleton
import proofs.«126414_g3504693314081_cont_8to1_b_212_23_alg».proof.Proof.Gen.Kernel.Launch
import proofs.«126414_g3504693314081_cont_8to1_b_212_23_alg».proof.Proof.Gen.Kernel.Points
import proofs.«126414_g3504693314081_cont_8to1_b_212_23_alg».proof.Proof.Gen.Kernel.Frame
import proofs.«126414_g3504693314081_cont_8to1_b_212_23_alg».proof.Proof.Gen.KernelIdeal
import proofs.«126414_g3504693314081_cont_8to1_b_212_23_alg».proof.Proof.Gen.KernelIdeal.Skeleton
import proofs.«126414_g3504693314081_cont_8to1_b_212_23_alg».proof.Proof.Gen.KernelIdeal.Launch
import proofs.«126414_g3504693314081_cont_8to1_b_212_23_alg».proof.Proof.Gen.KernelIdeal.Points
import proofs.«126414_g3504693314081_cont_8to1_b_212_23_alg».proof.Proof.Gen.KernelIdeal.Frame
import proofs.«126414_g3504693314081_cont_8to1_b_212_23_alg».proof.Proof.Gen.ReferenceIdeal
import proofs.«126414_g3504693314081_cont_8to1_b_212_23_alg».proof.Proof.Gen.Pre_finite_inputs
import proofs.«126414_g3504693314081_cont_8to1_b_212_23_alg».proof.Proof.Gen.KernelIdeal.Value
import proofs.«126414_g3504693314081_cont_8to1_b_212_23_alg».proof.Proof.KerArr
import proofs.«126414_g3504693314081_cont_8to1_b_212_23_alg».proof.Proof.RunP
import proofs.«126414_g3504693314081_cont_8to1_b_212_23_alg».proof.Proof.ReadEq
import proofs.«126414_g3504693314081_cont_8to1_b_212_23_alg».proof.Proof.RefG
import proofs.«126414_g3504693314081_cont_8to1_b_212_23_alg».proof.Proof.FinPre
import Idealize.ShloMosaic.Adequacy
import Idealize.ShloMosaic.Init

noncomputable section

namespace Cert.Proof

open Idealize.ShloMosaic Idealize.ShloMosaic.TcCoe Idealize.SL.Sem Cert.Cheb

/-- The word-level kernel's frame: generated. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- A reshape of an array of real entries has real entries: each entry of the result is an entry of the operand. -/
theorem isR_shapeCast {s t : Shape} (x : s.Idx → EReal) (h : s.ShapeCasts t) (hx : ∀ i, IsR (x i)) (j : t.Idx) :
    IsR (shapeCast t x h j) := by
  unfold shapeCast
  exact hx _

/-- At the ideal values the kernel's output array is the re-associated network of its arguments and the reference's the
    recurrence's; on arguments that agree and are finite the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KerArr.Garr m c, Cert.KernelIdeal.KerArr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v84_eq, Cert.ReferenceIdeal.RefG.ref_is_G]
  obtain ⟨e0, e1, e2, e3, e4, e5, e6, e7⟩ := hagree c
  rw [e0, e1, e2, e3, e4, e5, e6, e7]
  obtain ⟨r0, r1, r2, r3, r4, r5, r6, r7⟩ := Cert.FinPre.real_of_pre _ _ _ _ _ _ _ _ (hpre c)
  exact (GKer_eq_GRef r1 (isR_shapeCast _ _ r0) r2 r3 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
